-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x2048x768 .f32) (main_arg1 : FVec F S2304x768 .f32) (main_arg2 : FVec F S2304 .f32) (main_arg3 : FVec F S768x768 .f32) (main_arg4 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S768x2304 : Shape := ⟨2, ![768, 2304]⟩
abbrev S8192x768 : Shape := ⟨2, ![8192, 768]⟩
abbrev S8192x2304 : Shape := ⟨2, ![8192, 2304]⟩
abbrev S512x768 : Shape := ⟨2, ![512, 768]⟩
abbrev S512x2304 : Shape := ⟨2, ![512, 2304]⟩
abbrev S1x2304 : Shape := ⟨2, ![1, 2304]⟩
abbrev S4x2048x12x192 : Shape := ⟨4, ![4, 2048, 12, 192]⟩
abbrev S4x2048x12x64 : Shape := ⟨4, ![4, 2048, 12, 64]⟩
abbrev S4x12x2048x64 : Shape := ⟨4, ![4, 12, 2048, 64]⟩
abbrev S48x2048x64 : Shape := ⟨3, ![48, 2048, 64]⟩
abbrev S2x512x64 : Shape := ⟨3, ![2, 512, 64]⟩
abbrev S2x2048x64 : Shape := ⟨3, ![2, 2048, 64]⟩
abbrev S1x512x768 : Shape := ⟨3, ![1, 512, 768]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S1x768 : Shape := ⟨2, ![1, 768]⟩

abbrev nBuf : Space → Nat
  | .hbm => 22
  | .vmem => 17
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x2304, .f32⟩
  | .hbm, ⟨6, _⟩ => ⟨S768x2304, .bf16⟩
  | .hbm, ⟨7, _⟩ => ⟨S8192x768, .f32⟩
  | .hbm, ⟨8, _⟩ => ⟨S8192x2304, .bf16⟩
  | .hbm, ⟨9, _⟩ => ⟨S4x2048x12x192, .bf16⟩
  | .hbm, ⟨10, _⟩ => ⟨S4x2048x12x64, .bf16⟩
  | .hbm, ⟨11, _⟩ => ⟨S4x2048x12x64, .bf16⟩
  | .hbm, ⟨12, _⟩ => ⟨S4x2048x12x64, .bf16⟩
  | .hbm, ⟨13, _⟩ => ⟨S4x12x2048x64, .bf16⟩
  | .hbm, ⟨14, _⟩ => ⟨S48x2048x64, .bf16⟩
  | .hbm, ⟨15, _⟩ => ⟨S4x12x2048x64, .bf16⟩
  | .hbm, ⟨16, _⟩ => ⟨S48x2048x64, .bf16⟩
  | .hbm, ⟨17, _⟩ => ⟨S4x12x2048x64, .bf16⟩
  | .hbm, ⟨18, _⟩ => ⟨S48x2048x64, .bf16⟩
  | .hbm, ⟨19, _⟩ => ⟨S768x768, .f32⟩
  | .hbm, ⟨20, _⟩ => ⟨S768x768, .bf16⟩
  | .hbm, ⟨21, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S2304, .f32⟩
  | .local _ .vmem, ⟨4, _⟩ => ⟨S512x2304, .bf16⟩
  | .local _ .vmem, ⟨5, _⟩ => ⟨S512x2304, .bf16⟩
  | .local _ .vmem, ⟨6, _⟩ => ⟨S2x512x64, .bf16⟩
  | .local _ .vmem, ⟨7, _⟩ => ⟨S2x512x64, .bf16⟩
  | .local _ .vmem, ⟨8, _⟩ => ⟨S2x2048x64, .bf16⟩
  | .local _ .vmem, ⟨9, _⟩ => ⟨S2x2048x64, .bf16⟩
  | .local _ .vmem, ⟨10, _⟩ => ⟨S2x2048x64, .bf16⟩
  | .local _ .vmem, ⟨11, _⟩ => ⟨S2x2048x64, .bf16⟩
  | .local _ .vmem, ⟨12, _⟩ => ⟨S768x768, .bf16⟩
  | .local _ .vmem, ⟨13, _⟩ => ⟨S768, .f32⟩
  | .local _ .vmem, ⟨14, _⟩ => ⟨S1x512x768, .f32⟩
  | .local _ .vmem, ⟨15, _⟩ => ⟨S1x512x768, .f32⟩
  | .local _ .vmem, ⟨16, _⟩ => ⟨S512x768, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 6], ![false, false, false]⟩

def k1_mult1 (i : grid1.Coords) : BitVec 32 :=
  let arg2 : BitVec 32 := BitVec.ofNat 32 (i 2).val
  let c128_i32 : BitVec 32 := 128#32
  let v47 : BitVec 32 := Scalar.muli arg2 c128_i32
  v47
def k1_off1 (i : grid1.Coords) : Fin 2 → Nat :=
  let c0_27 : Index := 0#32
  let arg2 : BitVec 32 := BitVec.ofNat 32 (i 2).val
  let c128_i32 : BitVec 32 := 128#32
  let v47 : BitVec 32 := Scalar.muli arg2 c128_i32
  let v48 : BitVec 32 := v47
  let v49 : Index := Scalar.indexCast v48
  ![0, v49.toNat]
def k1_cond1 (i : grid1.Coords) : BitVec 1 :=
  let arg2 : BitVec 32 := BitVec.ofNat 32 (i 2).val
  let c5_i32 : BitVec 32 := 5#32
  let v53 : BitVec 1 := Scalar.cmpi .eq arg2 c5_i32
  let v54 : BitVec 32 := Scalar.extui v53
  let c0_i32 : BitVec 32 := 0#32
  let v55 : BitVec 1 := Scalar.cmpi .ne v54 c0_i32
  v55

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg2
  let c0_i32 : BitVec 32 := 0#32
  let c0_i32_0 : BitVec 32 := 0#32
  ![v1.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S2x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  transposes_S2304x768_S768x2304_1_0 : S2304x768.Transposes [1, 0] S768x2304
  bitsLt_bf16_f32 : FTy.bits .bf16 < FTy.bits .f32
  shapeCasts_S4x2048x768_S8192x768 : S4x2048x768.ShapeCasts S8192x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S4x2048x12x192 : S8192x2304.ShapeCasts S4x2048x12x192
  slices_S4x2048x12x192_S4x2048x12x64_0_0_0_0 : S4x2048x12x192.Slices ![0, 0, 0, 0] S4x2048x12x64
  slices_S4x2048x12x192_S4x2048x12x64_0_0_0_64 : S4x2048x12x192.Slices ![0, 0, 0, 64] S4x2048x12x64
  slices_S4x2048x12x192_S4x2048x12x64_0_0_0_128 : S4x2048x12x192.Slices ![0, 0, 0, 128] S4x2048x12x64
  transposes_S4x2048x12x64_S4x12x2048x64_0_2_1_3 : S4x2048x12x64.Transposes [0, 2, 1, 3] S4x12x2048x64
  shapeCasts_S4x12x2048x64_S48x2048x64 : S4x12x2048x64.ShapeCasts S48x2048x64
  transposes_S768x768_S768x768_1_0 : S768x768.Transposes [1, 0] S768x768
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  inb_S2x2048x64_S1x2048x64_0_0_0 : ∀ a, (![0, 0, 0] : Fin 3 → Nat) a + S1x2048x64.size a ≤ S2x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S2x512x64_S1x512x64_1_0_0 : ∀ a, (![1, 0, 0] : Fin 3 → Nat) a + S1x512x64.size a ≤ S2x512x64.size a
  inb_S2x2048x64_S1x2048x64_1_0_0 : ∀ a, (![1, 0, 0] : Fin 3 → Nat) a + S1x2048x64.size a ≤ S2x2048x64.size a
  concatenates_S512x64_S512x64_S512x128_d1 : Shape.Concatenates [S512x64, S512x64] S512x128 1
  h_S512x128 : 0 < S512x128.numel
  shapeCasts_S512x128_S512x128 : S512x128.ShapeCasts S512x128
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  dot_S512x768_S768x2304_S512x2304_1_0_0_1_n_n_wf : DotDims.WF S512x768 S768x2304 S512x2304 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .bf16 = 32 ∨ (Rect.block (s := S8192x2304) S512x2304.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S512x128.size a ≤ S512x768.size a
  k1_off1_packedbf16 : ∀ i : grid1.Coords, (Rect.unit (s := S512x768) (k1_off1 i) S512x128.size (k1_off1_inb i)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x64.size a ≤ S48x2048x64.size a
  hwx1_0 : ∀ i : grid1.Coords, EltTy.bits .bf16 = 32 ∨ (Rect.block (s := S48x2048x64) S2x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x2048x64.size a ≤ S48x2048x64.size a
  hwx1_1 : ∀ i : grid1.Coords, EltTy.bits .bf16 = 32 ∨ (Rect.block (s := S48x2048x64) S2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x2048x64.size a ≤ S48x2048x64.size a
  hwx1_2 : ∀ i : grid1.Coords, EltTy.bits .bf16 = 32 ∨ (Rect.block (s := S48x2048x64) S2x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x768.size a ≤ S4x2048x768.size a
  hwx1_5 : ∀ i : grid1.Coords, EltTy.bits .f32 = 32 ∨ (Rect.block (s := S4x2048x768) S1x512x768.size (cc1_transform_5 i) (hinb1_5 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v2) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x512x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) | ⟨_ + 6, h⟩ => absurd h (Nat.not_lt.2 (Nat.le_add_left _ _))

class Facts : Prop extends Facts₀ where

variable [Facts]
-- ==== ReferenceIdeal.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S4x2048x2304 : Shape := ⟨3, ![4, 2048, 2304]⟩
abbrev S1x1x2304 : Shape := ⟨3, ![1, 1, 2304]⟩
abbrev S4x2048x12x192 : Shape := ⟨4, ![4, 2048, 12, 192]⟩
abbrev S4x12x2048x192 : Shape := ⟨4, ![4, 12, 2048, 192]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S1x1x768 : Shape := ⟨3, ![1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S4x2048x2304, .f32⟩
  | .hbm, ⟨6, _⟩ => ⟨S1x1x2304, .f32⟩
  | .hbm, ⟨7, _⟩ => ⟨S4x2048x2304, .f32⟩
  | .hbm, ⟨8, _⟩ => ⟨S4x2048x2304, .f32⟩
  | .hbm, ⟨9, _⟩ => ⟨S4x2048x12x192, .f32⟩
  | .hbm, ⟨10, _⟩ => ⟨S4x12x2048x192, .f32⟩
  | .hbm, ⟨11, _⟩ => ⟨S4x12x2048x64, .f32⟩
  | .hbm, ⟨12, _⟩ => ⟨S4x12x2048x64, .f32⟩
  | .hbm, ⟨13, _⟩ => ⟨S4x12x2048x64, .f32⟩
  | .hbm, ⟨14, _⟩ => ⟨S4x12x2048x2048, .f32⟩
  | .hbm, ⟨15, _⟩ => ⟨S_, .f32⟩
  | .hbm, ⟨16, _⟩ => ⟨S4x12x2048x2048, .f32⟩
  | .hbm, ⟨17, _⟩ => ⟨S4x12x2048x2048, .f32⟩
  | .hbm, ⟨18, _⟩ => ⟨S_, .f32⟩
  | .hbm, ⟨19, _⟩ => ⟨S4x12x2048, .f32⟩
  | .hbm, ⟨20, _⟩ => ⟨S_, .f32⟩
  | .hbm, ⟨21, _⟩ => ⟨S4x12x2048, .f32⟩
  | .hbm, ⟨22, _⟩ => ⟨S4x12x2048, .f32⟩
  | .hbm, ⟨23, _⟩ => ⟨S4x12x2048x1, .f32⟩
  | .hbm, ⟨24, _⟩ => ⟨S4x12x2048x2048, .f32⟩
  | .hbm, ⟨25, _⟩ => ⟨S4x12x2048x2048, .f32⟩
  | .hbm, ⟨26, _⟩ => ⟨S4x12x2048x2048, .f32⟩
  | .hbm, ⟨27, _⟩ => ⟨S_, .f32⟩
  | .hbm, ⟨28, _⟩ => ⟨S4x12x2048, .f32⟩
  | .hbm, ⟨29, _⟩ => ⟨S4x12x2048x1, .f32⟩
  | .hbm, ⟨30, _⟩ => ⟨S4x12x2048x2048, .f32⟩
  | .hbm, ⟨31, _⟩ => ⟨S4x12x2048x2048, .f32⟩
  | .hbm, ⟨32, _⟩ => ⟨S4x12x2048x64, .f32⟩
  | .hbm, ⟨33, _⟩ => ⟨S4x2048x12x64, .f32⟩
  | .hbm, ⟨34, _⟩ => ⟨S4x2048x768, .f32⟩
  | .hbm, ⟨35, _⟩ => ⟨S4x2048x768, .f32⟩
  | .hbm, ⟨36, _⟩ => ⟨S1x1x768, .f32⟩
  | .hbm, ⟨37, _⟩ => ⟨S4x2048x768, .f32⟩
  | .hbm, ⟨38, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S4x2048x2304_0_1_2 : S1x1x2304.BroadcastsInDim S4x2048x2304 (![0, 1, 2] : Fin 3 → Fin S4x2048x2304.rank)
  shapeCasts_S4x2048x2304_S4x2048x12x192 : S4x2048x2304.ShapeCasts S4x2048x12x192
  transposes_S4x2048x12x192_S4x12x2048x192_0_2_1_3 : S4x2048x12x192.Transposes [0, 2, 1, 3] S4x12x2048x192
  slices_S4x12x2048x192_S4x12x2048x64_0_0_0_0 : S4x12x2048x192.Slices ![0, 0, 0, 0] S4x12x2048x64
  slices_S4x12x2048x192_S4x12x2048x64_0_0_0_64 : S4x12x2048x192.Slices ![0, 0, 0, 64] S4x12x2048x64
  slices_S4x12x2048x192_S4x12x2048x64_0_0_0_128 : S4x12x2048x192.Slices ![0, 0, 0, 128] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.BFrProj.lean ====
/-
  The QKV-projection launch (the first pallas_call), read at the contents V its arrays hold when the
  launch is entered, for any float family F.

  The grid has 16 points; point t takes rows 512 t .. 512 t + 511 of the flattened activations
  (8192 x 768), the whole transposed weight (768 x 2304) and the whole bias (2304), and stores ONE
  512 x 2304 block: bf16 (bf16 x . w + bias). Nothing is carried between points. This module states
  what each staging buffer holds after the body (projDat), runs the body once on arbitrary block
  contents (proj_body_run) and derives the pipeline's body obligation at every point.
-/
import proofs.«418711_j76373108458020_3_alg».proof.Proof.Gen.Kernel.Launch
import proofs.«418711_j76373108458020_3_alg».proof.Proof.Gen.Kernel.Skeleton
import proofs.«418711_j76373108458020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Proj
variable (V : (c : Dev nD) → (b : Ref sig .tc) → Buf (Elt F) ((c : Thread nD τ).loc b))

/-- Window w's block of the projection launch at point t, read off its array as the launch finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, refetched there or not
    (the weight and the bias are fetched once; their block index never moves). -/
theorem projBefore0_of {c : Dev nD}
    (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
theorem projBefore1_of {c : Dev nD}
    (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)
theorem projBefore2_of {c : Dev nD}
    (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-- The whole 512 x 768 activation block, the whole weight, the whole bias, the whole result block. -/
abbrev rX : Rect S512x768 := Rect.unit (s := S512x768) ![0, 0] S512x768.size inb_S512x768_S512x768_0_0
abbrev rW : Rect S768x2304 := Rect.unit (s := S768x2304) ![0, 0] S768x2304.size inb_S768x2304_S768x2304_0_0
abbrev rB : Rect S2304 := Rect.unit (s := S2304) ![0] S2304.size inb_S2304_S2304_0
abbrev rO : Rect S512x2304 := Rect.unit (s := S512x2304) ![0, 0] S512x2304.size inb_S512x2304_S512x2304_0_0

/-- What the body leaves in the result window's buffer: its one store, of the projection of the three loads. -/
def projLeft (x : Vec F S512x768 .f32) (w : Vec F S768x2304 .bf16) (b : Vec F S2304 .f32) : Vec F S512x2304 .bf16 :=
  View.canon [⟨rO, k0_pay1 (View.ld x rX) (View.ld w rW) (View.ld b rB)⟩]

theorem projCover (p0 : Vec F S512x2304 .bf16) (y : S512x2304.Idx) :
    ∃ pc ∈ ([⟨rO, p0⟩] : List (View.Piece (Elt F) S512x2304 .bf16)), y ∈ pc.1.set :=
  View.cover_of_tiled [⟨rO, p0⟩] S512x2304.size (by rfl) y

set_option maxHeartbeats 1000000 in
/-- The body on whole staging memrefs: the three inputs keep their contents, the result buffer ends at projLeft. -/
theorem proj_body_run (c : Dev nD) (E : Set ℕ) (i : grid0.Coords)
    (arg1 : Memref sig .tc .vmem S512x768 .f32) (harg1 : arg1.IsWhole) (arg2 : Memref sig .tc .vmem S768x2304 .bf16) (harg2 : arg2.IsWhole)
    (arg3 : Memref sig .tc .vmem S2304 .f32) (harg3 : arg3.IsWhole) (arg4 : Memref sig .tc .vmem S512x2304 .bf16) (harg4 : arg4.IsWhole)
    (x : Vec F S512x768 .f32) (w : Vec F S768x2304 .bf16) (b : Vec F S2304 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projLeft x w b)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projCover _)

/-- The proof data of the projection launch on core c: arrays as found; after the body the inputs' buffers at
    their blocks and the result's at projLeft of them; nothing beyond the scoped rest is kept between points. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projLeft (projBlk V c 0 t) (projBlk V c 1 t) (projBlk V c 2 t)
  Φ _ := Pipeline.ΦA spec0 c
  q _ := fullShare
  owed _ := 0

theorem projA (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) :
    (projDat V c).after 3 t = projLeft (projBlk V c 0 t) (projBlk V c 1 t) (projBlk V c 2 t) := by dsimp only [projDat]

theorem projBefore0 (c : Dev nD) (t : Fin cfg0.N) (d) : (projDat V c).before 0 t d = projBlk V c 0 t :=
  projBefore0_of V (projDat V c) (projA V c 0) (projAfter0 V c) t d
theorem projBefore1 (c : Dev nD) (t : Fin cfg0.N) (d) : (projDat V c).before 1 t d = projBlk V c 1 t :=
  projBefore1_of V (projDat V c) (projA V c 1) (projAfter1 V c) t d
theorem projBefore2 (c : Dev nD) (t : Fin cfg0.N) (d) : (projDat V c).before 2 t d = projBlk V c 2 t :=
  projBefore2_of V (projDat V c) (projA V c 2) (projAfter2 V c) t d

/-- The body at any point: the inputs' buffers hold their blocks, so proj_body_run applies; the invariant and
    what the core owes pass through unread. -/
theorem proj_point (c : Dev nD) (t : Fin cfg0.N) :
    iprop((projDat V c).Φ t.castSucc ∗ (projDat V c).owesAt () t.castSucc
      ∗ (∃ d, owns (c : Thread nD τ) (st0_0 t) fullShare ((projDat V c).before 0 t d))
      ∗ (∃ d, owns (c : Thread nD τ) (st0_1 t) fullShare ((projDat V c).before 1 t d))
      ∗ (∃ d, owns (c : Thread nD τ) (st0_2 t) fullShare ((projDat V c).before 2 t d))
      ∗ (∃ d, owns (c : Thread nD τ) (st0_3 t) fullShare ((projDat V c).before 3 t d)))
    ⊢ wp frame (wpE (defs₀ (F := F)) Variants.none c none) Set.univ (bodyAt0 t) (fun _ =>
        iprop((projDat V c).Φ t.succ ∗ (projDat V c).owesAt () t.succ
          ∗ owns (c : Thread nD τ) (st0_0 t) fullShare ((projDat V c).after 0 t)
          ∗ owns (c : Thread nD τ) (st0_1 t) fullShare ((projDat V c).after 1 t)
          ∗ owns (c : Thread nD τ) (st0_2 t) fullShare ((projDat V c).after 2 t)
          ∗ owns (c : Thread nD τ) (st0_3 t) fullShare ((projDat V c).after 3 t))) := by
  unfold bodyAt0
  simp only [projBefore0, projBefore1, projBefore2]
  rw [show (projDat V c).Φ t.succ = (projDat V c).Φ t.castSucc from rfl,
    show (projDat V c).owesAt () t.succ = (projDat V c).owesAt () t.castSucc from rfl,
    projAfter0, projAfter1, projAfter2, projAfter3]
  iintro ⟨HΦ, Ho, ⟨%d0, H0⟩, ⟨%d1, H1⟩, ⟨%d2, H2⟩, ⟨%d3, H3⟩⟩
  iapply (proj_body_run c Set.univ _ _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for the projection launch, at every point. -/
theorem proj_obligation (c : Dev nD) : BodyObligation (projDat (F := F) V c) (defs₀ (F := F)) Variants.none () Set.univ := fun t => by
  rw [bigSep_W0, bigSep_W0]
  exact proj_point V c t

end Proj

end Cert.Kernel.Fr

end
-- ==== Proof.BFrAttnBody.lean ====
/-
  The attention launch (the second pallas_call) - the body's two runs, for any float family F.

  The grid is 4 x 4 x 6: batch b, query tile qi (512 rows), head pair h2. A point takes the pair's query
  tile (2 x 512 x 64) and whole key and value blocks (2 x 2048 x 64 each), computes the two heads'
  softmax-attention outputs and stores them side by side into columns 128 h2 .. 128 h2 + 127 of a
  512 x 768 scratch that lives across the six points of a (b, qi) group. Only at h2 = 5 does it read the
  whole scratch back, multiply by the (transposed) output weight, add the bias and store the 512 x 768
  result block; at the other five points the result window is left alone.
-/
import proofs.«418711_j76373108458020_3_alg».proof.Proof.Gen.Kernel.Launch
import proofs.«418711_j76373108458020_3_alg».proof.Proof.Gen.Kernel.Skeleton
import proofs.«418711_j76373108458020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Attn
variable (V : (c : Dev nD) → (b : Ref sig .tc) → Buf (Elt F) ((c : Thread nD τ).loc b))

/-- Window w's block of the attention launch at point t, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, refetched there or not
    (the output weight and bias are fetched once; their block index never moves). -/
theorem attnBefore0_of {c : Dev nD}
    (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore1_of {c : Dev nD}
    (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore2_of {c : Dev nD}
    (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore3_of {c : Dev nD}
    (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore4_of {c : Dev nD}
    (dat : Dat τ (Elt F) Unit ℕ (UR sig nD τ) ℕ cfg1 c) (hA : dat.A 4 = V c (Pipeline.arrRef spec1 4))
    (hafter : ∀ t, dat.after 4 t = attnBlk V c 4 t) (t : Fin cfg1.N) (d) : dat.before 4 t d = attnBlk V c 4 t :=
  (dat.before_in_eq_fetched 4 rfl (fun _ => rfl) (fun _ _ _ => rfl) (fun t => by rw [hafter]; unfold Dat.blockOf attnBlk; rw [hA]; try rfl) t d).trans
    (by unfold Dat.fetched Dat.blockOf attnBlk; rw [hA]; try rfl)

/-- The two heads of a pair inside the query block and inside a key or value block. -/
abbrev rQa : Rect S2x512x64 := Rect.unit (s := S2x512x64) ![0, 0, 0] S1x512x64.size inb_S2x512x64_S1x512x64_0_0_0
abbrev rQb : Rect S2x512x64 := Rect.unit (s := S2x512x64) ![1, 0, 0] S1x512x64.size inb_S2x512x64_S1x512x64_1_0_0
abbrev rKa : Rect S2x2048x64 := Rect.unit (s := S2x2048x64) ![0, 0, 0] S1x2048x64.size inb_S2x2048x64_S1x2048x64_0_0_0
abbrev rKb : Rect S2x2048x64 := Rect.unit (s := S2x2048x64) ![1, 0, 0] S1x2048x64.size inb_S2x2048x64_S1x2048x64_1_0_0
/-- The 128 columns of the merged-heads scratch that the head pair of grid position i owns. -/
abbrev rSlab (i : grid1.Coords) : Rect S512x768 := Rect.unit (s := S512x768) (k1_off1 i) S512x128.size (k1_off1_inb i)
abbrev rScr : Rect S512x768 := Rect.unit (s := S512x768) ![0, 0] S512x768.size inb_S512x768_S512x768_0_0
abbrev rWo : Rect S768x768 := Rect.unit (s := S768x768) ![0, 0] S768x768.size inb_S768x768_S768x768_0_0
abbrev rBo : Rect S768 := Rect.unit (s := S768) ![0] S768.size inb_S768_S768_0
abbrev rRes : Rect S1x512x768 := Rect.unit (s := S1x512x768) ![0, 0, 0] S1x512x768.size inb_S1x512x768_S1x512x768_0_0_0

/-- The two heads' attention outputs side by side (512 x 128), from a pair's query, key and value blocks. -/
def pairOut (q : Vec F S2x512x64 .bf16) (k v : Vec F S2x2048x64 .bf16) : FVec F S512x128 .bf16 :=
  k1_pay1 (k1_pay3 (View.ld q rQa) (View.ld k rKa) (View.ld v rKa)) (k1_pay4 (View.ld v rKb)) (k1_pay5 (View.ld q rQb) (View.ld k rKb)) (k1_pay6 (F := F))

/-- The output projection of a full merged-heads scratch: what the last head pair's point stores into the result block. -/
def resLeft (S : Vec F S512x768 .bf16) (wo : Vec F S768x768 .bf16) (bo : Vec F S768 .f32) : Vec F S1x512x768 .f32 :=
  View.canon [⟨rRes, k1_pay2 (View.ld S rScr) (View.ld wo rWo) (View.ld bo rBo)⟩]

theorem resCover (p0 : Vec F S1x512x768 .f32) (y : S1x512x768.Idx) :
    ∃ pc ∈ ([⟨rRes, p0⟩] : List (View.Piece (Elt F) S1x512x768 .f32)), y ∈ pc.1.set :=
  View.cover_of_tiled [⟨rRes, p0⟩] S1x512x768.size (by rfl) y

set_option maxHeartbeats 2000000 in
/-- A point that is not a group's last: the body stores the pair's slab into the scratch and nothing else. -/
theorem attn_body_mid (c : Dev nD) (E : Set ℕ) (i : grid1.Coords) (arg3 : Memref sig .tc .vmem S2x512x64 .bf16) (harg3 : arg3.IsWhole) (arg4 : Memref sig .tc .vmem S2x2048x64 .bf16) (harg4 : arg4.IsWhole) (arg5 : Memref sig .tc .vmem S2x2048x64 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .bf16) (harg9 : arg9.IsWhole)
    (hc : ¬ k1_cond1 i = 1#1)
    (q : Vec F S2x512x64 .bf16) (k v : Vec F S2x2048x64 .bf16) (wo : Vec F S768x768 .bf16) (bo : Vec F S768 .f32)
    (f9 : arg9.view.ty.Contents (Elt F)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
        ∗ (arg9.view.loc (c : Thread nD τ) ↦[arg9.view.set]{fullShare} f9)
        ∗ (iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
            ∗ (arg9.view.loc (c : Thread nD τ) ↦[arg9.view.set]{fullShare} arg9.view.writes (Elt F) f9 [⟨rSlab i, pairOut q k v⟩])) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%f7, %hf7, H7⟩, H9, Hk⟩
  subst hf3; subst hf4; subst hf5; subst hf6; subst hf7
  sl_exec (disch := exact hc)
  sl_step
  sl_unfold_words
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexact H9

set_option maxHeartbeats 2000000 in
/-- A group's last point: after the slab store the body reads the whole scratch back, projects it and stores
    the result block whole. -/
theorem attn_body_last (c : Dev nD) (E : Set ℕ) (i : grid1.Coords) (arg3 : Memref sig .tc .vmem S2x512x64 .bf16) (harg3 : arg3.IsWhole) (arg4 : Memref sig .tc .vmem S2x2048x64 .bf16) (harg4 : arg4.IsWhole) (arg5 : Memref sig .tc .vmem S2x2048x64 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .bf16) (harg9 : arg9.IsWhole)
    (hc : k1_cond1 i = 1#1)
    (q : Vec F S2x512x64 .bf16) (k v : Vec F S2x2048x64 .bf16) (wo : Vec F S768x768 .bf16) (bo : Vec F S768 .f32)
    (f9 : arg9.view.ty.Contents (Elt F)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
        ∗ (∃ d, owns (c : Thread nD τ) arg8 fullShare d)
        ∗ (arg9.view.loc (c : Thread nD τ) ↦[arg9.view.set]{fullShare} f9)
        ∗ (iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
            ∗ owns (c : Thread nD τ) arg8 fullShare (resLeft (arg9.view.read (Elt F) (arg9.view.writes (Elt F) f9 [⟨rSlab i, pairOut q k v⟩])) wo bo)
            ∗ (arg9.view.loc (c : Thread nD τ) ↦[arg9.view.set]{fullShare} arg9.view.writes (Elt F) f9 [⟨rSlab i, pairOut q k v⟩])) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, H9, Hk⟩
  subst hf3; subst hf4; subst hf5; subst hf6; subst hf7
  sl_exec (disch := exact hc)
  sl_step
  sl_unfold_words
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (resCover _)
  iexact H9

end Attn

end Cert.Kernel.Fr

end
-- ==== Proof.BFrAttnData.lean ====
/-
  The attention launch (the second pallas_call) - its proof data and body obligation, for any float family F.

  What is carried between points is the merged-heads scratch. Within a (b, qi) group of six points the
  scratch holds, over contents nobody names, the slabs the group's earlier points stored; the sixth point's
  slab completes a cover of the 768 columns, so what that point reads back is one array determined by the six
  slabs alone, and it is that array's projection that the result window holds when it is written back.
-/
import proofs.«418711_j76373108458020_3_alg».proof.Proof.BFrAttnBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section AttnData
variable (V : (c : Dev nD) → (b : Ref sig .tc) → Buf (Elt F) ((c : Thread nD τ).loc b))

/-! ## The grid in closed form -/

/-- The output projection runs exactly at a group's sixth point. -/
theorem last_iff : ∀ t : Fin cfg1.N, k1_cond1 (grid1.coords t) = 1#1 ↔ t.val % 6 = 5 :=
  (by decide +kernel : ∀ t : Fin grid1.N, k1_cond1 (grid1.coords t) = 1#1 ↔ t.val % 6 = 5)
/-- Point t's slab starts at row 0, column 128 (t mod 6). -/
theorem slab_off0 : ∀ t : Fin cfg1.N, k1_off1 (grid1.coords t) 0 = 0 :=
  (by decide +kernel : ∀ t : Fin grid1.N, k1_off1 (grid1.coords t) 0 = 0)
theorem slab_off1 : ∀ t : Fin cfg1.N, k1_off1 (grid1.coords t) 1 = 128 * (t.val % 6) :=
  (by decide +kernel : ∀ t : Fin grid1.N, k1_off1 (grid1.coords t) 1 = 128 * (t.val % 6))

/-- A natural number as a grid point (taken modulo the 96 points, so that the piece lists below are total). -/
def ptOf (n : ℕ) : Fin cfg1.N := ⟨n % 96, lt_of_lt_of_eq (Nat.mod_lt _ (by decide)) N_1.symm⟩
theorem ptOf_val (t : Fin cfg1.N) : ptOf t.val = t :=
  Fin.ext (Nat.mod_eq_of_lt (lt_of_lt_of_eq t.isLt N_1))

/-! ## The scratch across a group -/

/-- What point n stores into the scratch: the pair's two outputs at the pair's 128 columns. -/
def slab (c : Dev nD) (n : ℕ) : View.Piece (Elt F) S512x768 .bf16 :=
  ⟨rSlab (grid1.coords (ptOf n)), pairOut (attnBlk V c 0 (ptOf n)) (attnBlk V c 1 (ptOf n)) (attnBlk V c 2 (ptOf n))⟩

/-- The slabs stored so far in point n's group - those of the points n - n mod 6 .. n - 1 - latest first. -/
def grp (c : Dev nD) (n : ℕ) : List (View.Piece (Elt F) S512x768 .bf16) :=
  ((List.range (n % 6)).map fun j => slab V c (n - n % 6 + j)).reverse

theorem grp_succ (c : Dev nD) (n : ℕ) (h : (n + 1) % 6 ≠ 0) : grp V c (n + 1) = slab V c n :: grp V c n := by
  have h1 : (n + 1) % 6 = n % 6 + 1 := by omega
  have h2 : n + 1 - (n % 6 + 1) = n - n % 6 := by omega
  have h3 : n - n % 6 + n % 6 = n := by have := Nat.mod_le n 6; omega
  unfold grp
  rw [h1, h2, List.range_succ, List.map_append, List.reverse_append, List.map_singleton, List.reverse_singleton, h3]
  rfl

theorem grp_reset (c : Dev nD) (n : ℕ) (h : n % 6 = 0) : grp V c n = [] := by
  unfold grp; rw [h]; rfl

/-- At a group's sixth point the six slabs cover the scratch: column y lies in the slab of the point whose
    pair index is y / 128. -/
theorem six_cover (c : Dev nD) (t : Fin cfg1.N) (h5 : t.val % 6 = 5) (y : S512x768.Idx) :
    ∃ pc ∈ slab V c t.val :: grp V c t.val, y ∈ pc.1.set := by
  have hy0 : (y 0).val < 512 := (y 0).isLt
  have hy1 : (y 1).val < 768 := (y 1).isLt
  have hN : t.val < 96 := lt_of_lt_of_eq t.isLt N_1
  -- the point of the group that owns the column
  have key : ∀ n : ℕ, n < 96 → n % 6 = (y 1).val / 128 → y ∈ (slab V c n).1.set := by
    intro n hn hq
    show y ∈ (Rect.unit (s := S512x768) (k1_off1 (grid1.coords (ptOf n))) S512x128.size (k1_off1_inb _)).set
    rw [Rect.mem_set_unit]
    have hv : (ptOf n).val = n := Nat.mod_eq_of_lt hn
    intro a
    match a with
    | ⟨0, _⟩ =>
      have := slab_off0 (ptOf n)
      refine ⟨by show k1_off1 (grid1.coords (ptOf n)) 0 ≤ (y 0).val; omega, ?_⟩
      show (y 0).val < k1_off1 (grid1.coords (ptOf n)) 0 + 512; omega
    | ⟨1, _⟩ =>
      have := slab_off1 (ptOf n)
      rw [hv] at this
      refine ⟨by show k1_off1 (grid1.coords (ptOf n)) 1 ≤ (y 1).val; omega, ?_⟩
      show (y 1).val < k1_off1 (grid1.coords (ptOf n)) 1 + 128; omega
  by_cases hlast : (y 1).val / 128 = 5
  · exact ⟨slab V c t.val, List.mem_cons_self, key t.val hN (by omega)⟩
  · have hj : (y 1).val / 128 < 5 := by omega
    refine ⟨slab V c (t.val - t.val % 6 + (y 1).val / 128), List.mem_cons_of_mem _ ?_, key _ (by omega) (by omega)⟩
    unfold grp
    rw [List.mem_reverse, List.mem_map]
    exact ⟨(y 1).val / 128, List.mem_range.mpr (by omega), rfl⟩

/-! ## The invariant and the proof data -/

/-- The scratch as a whole buffer. -/
abbrev scrM : Memref sig .tc .vmem S512x768 .bf16 := Memref.whole cc1_scratch0

/-- Between points: every other scoped buffer at anything, the generator register at some state, and the
    scratch at the group's slabs stored so far over contents nobody names. -/
def attnΦ (c : Dev nD) (n : ℕ) : sProp 𝕄 :=
  iprop(Pipeline.scopedRestBut (Ix := Unit) (Name := ℕ) (U := UR sig nD τ) (Lvl := ℕ) (Val := Elt F) spec1 c [cc1_scratch0]
    ∗ (∃ r, prngReg c r)
    ∗ ∃ f0 : scrM.view.ty.Contents (Elt F),
        (scrM.view.loc (c : Thread nD τ) ↦[scrM.view.set]{fullShare} scrM.view.writes (Elt F) f0 (grp V c n)))

/-- The proof data of the attention launch on core c. The result window's entry is what a group's sixth point
    stores (the projection of the six slabs read back as one array); the other five points leave that window alone. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => attnBlk V c 4 t
    | ⟨5, _⟩ => resLeft (View.canon (slab V c t.val :: grp V c t.val)) (attnBlk V c 3 t) (attnBlk V c 4 t)
  Φ t := attnΦ V c t.val
  q _ := fullShare
  owed _ := 0

theorem attnA (c : Dev nD) (w : Fin cfg1.W) : (attnDat V c).A w = V c (Pipeline.arrRef spec1 w) := by
  dsimp only [attnDat]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = attnBlk V c 3 t := by dsimp only [attnDat]
theorem attnAfter4 (c : Dev nD) (t : Fin cfg1.N) : (attnDat V c).after 4 t = attnBlk V c 4 t := by dsimp only [attnDat]
theorem attnAfter5 (c : Dev nD) (t : Fin cfg1.N) :
    (attnDat V c).after 5 t = resLeft (View.canon (slab V c t.val :: grp V c t.val)) (attnBlk V c 3 t) (attnBlk V c 4 t) := by
  dsimp only [attnDat]

theorem attnBefore0 (c : Dev nD) (t : Fin cfg1.N) (d) : (attnDat V c).before 0 t d = attnBlk V c 0 t :=
  attnBefore0_of V (attnDat V c) (attnA V c 0) (attnAfter0 V c) t d
theorem attnBefore1 (c : Dev nD) (t : Fin cfg1.N) (d) : (attnDat V c).before 1 t d = attnBlk V c 1 t :=
  attnBefore1_of V (attnDat V c) (attnA V c 1) (attnAfter1 V c) t d
theorem attnBefore2 (c : Dev nD) (t : Fin cfg1.N) (d) : (attnDat V c).before 2 t d = attnBlk V c 2 t :=
  attnBefore2_of V (attnDat V c) (attnA V c 2) (attnAfter2 V c) t d
theorem attnBefore3 (c : Dev nD) (t : Fin cfg1.N) (d) : (attnDat V c).before 3 t d = attnBlk V c 3 t :=
  attnBefore3_of V (attnDat V c) (attnA V c 3) (attnAfter3 V c) t d
theorem attnBefore4 (c : Dev nD) (t : Fin cfg1.N) (d) : (attnDat V c).before 4 t d = attnBlk V c 4 t :=
  attnBefore4_of V (attnDat V c) (attnA V c 4) (attnAfter4 V c) t d

theorem attnΦ_castSucc (c : Dev nD) (t : Fin cfg1.N) : (attnDat V c).Φ t.castSucc = attnΦ V c t.val := by
  dsimp only [attnDat]; simp only [Fin.coe_castSucc]
theorem attnΦ_succ (c : Dev nD) (t : Fin cfg1.N) : (attnDat V c).Φ t.succ = attnΦ V c (t.val + 1) := by
  dsimp only [attnDat]; simp only [Fin.val_succ]

/-- The slab of point t spelt at the point itself. -/
theorem slab_at (c : Dev nD) (t : Fin cfg1.N) :
    slab V c t.val = ⟨rSlab (grid1.coords t), pairOut (attnBlk V c 0 t) (attnBlk V c 1 t) (attnBlk V c 2 t)⟩ := by
  unfold slab; rw [ptOf_val]

/-- The result window is live exactly at a group's sixth point. -/
theorem res_live (t : Fin cfg1.N) (hc : k1_cond1 (grid1.coords t) = 1#1) : cfg1.idle 5 (cfg1.grid.coords t) = false := by
  show (!(k1_cond1 (grid1.coords t) == 1#1)) = false
  rw [hc]; rfl
theorem res_idle (t : Fin cfg1.N) (hc : ¬ k1_cond1 (grid1.coords t) = 1#1) : cfg1.idle 5 (cfg1.grid.coords t) = true := by
  show (!(k1_cond1 (grid1.coords t) == 1#1)) = true
  simp only [Bool.not_eq_true', beq_eq_false_iff_ne, ne_eq]; exact hc
theorem res_noflush (t : Fin cfg1.N) (hc : ¬ k1_cond1 (grid1.coords t) = 1#1) : (cfg1.win 5).flush t = false := by
  have := flush1_5 t
  have h := (last_iff t).not.mp hc
  cases hf : (cfg1.win 5).flush t
  · rfl
  · exact absurd (this.mp hf) h

set_option maxHeartbeats 2000000 in
/-- The body at any point. The inputs' buffers hold their blocks; the invariant hands over the scratch at the
    group's slabs so far and takes it back with this point's slab added - at a group's sixth point the six slabs
    cover, so what the body read back is their canonical array, and the next group starts from contents nobody names. -/
theorem attn_point (c : Dev nD) (t : Fin cfg1.N) :
    iprop((attnDat V c).Φ t.castSucc ∗ (attnDat V c).owesAt () t.castSucc
      ∗ (∃ d, owns (c : Thread nD τ) (st1_0 t) fullShare ((attnDat V c).before 0 t d))
      ∗ (∃ d, owns (c : Thread nD τ) (st1_1 t) fullShare ((attnDat V c).before 1 t d))
      ∗ (∃ d, owns (c : Thread nD τ) (st1_2 t) fullShare ((attnDat V c).before 2 t d))
      ∗ (∃ d, owns (c : Thread nD τ) (st1_3 t) fullShare ((attnDat V c).before 3 t d))
      ∗ (∃ d, owns (c : Thread nD τ) (st1_4 t) fullShare ((attnDat V c).before 4 t d))
      ∗ (∃ d, owns (c : Thread nD τ) (st1_5 t) fullShare ((attnDat V c).before 5 t d)))
    ⊢ wp frame (wpE (defs₀ (F := F)) Variants.none c none) Set.univ (bodyAt1 t) (fun _ =>
        iprop((attnDat V c).Φ t.succ ∗ (attnDat V c).owesAt () t.succ
          ∗ (attnDat V c).leavesExact 0 t ∗ (attnDat V c).leavesExact 1 t ∗ (attnDat V c).leavesExact 2 t
          ∗ (attnDat V c).leavesExact 3 t ∗ (attnDat V c).leavesExact 4 t ∗ (attnDat V c).leavesExact 5 t)) := by
  unfold bodyAt1
  simp only [attnBefore0, attnBefore1, attnBefore2, attnBefore3, attnBefore4]
  rw [show (attnDat V c).owesAt () t.succ = (attnDat V c).owesAt () t.castSucc from rfl, attnΦ_castSucc, attnΦ_succ,
    show (attnDat V c).leavesExact 0 t = owns (c : Thread nD τ) (st1_0 t) fullShare ((attnDat V c).after 0 t) from rfl,
    show (attnDat V c).leavesExact 1 t = owns (c : Thread nD τ) (st1_1 t) fullShare ((attnDat V c).after 1 t) from rfl,
    show (attnDat V c).leavesExact 2 t = owns (c : Thread nD τ) (st1_2 t) fullShare ((attnDat V c).after 2 t) from rfl,
    show (attnDat V c).leavesExact 3 t = owns (c : Thread nD τ) (st1_3 t) fullShare ((attnDat V c).after 3 t) from rfl,
    show (attnDat V c).leavesExact 4 t = owns (c : Thread nD τ) (st1_4 t) fullShare ((attnDat V c).after 4 t) from rfl,
    attnAfter0, attnAfter1, attnAfter2, attnAfter3, attnAfter4]
  unfold attnΦ
  by_cases hc : k1_cond1 (grid1.coords t) = 1#1
  · -- a group's sixth point
    have h5 : t.val % 6 = 5 := (last_iff t).mp hc
    rw [show (attnDat V c).leavesExact 5 t = owns (c : Thread nD τ) (st1_5 t) fullShare ((attnDat V c).after 5 t) from by
      unfold Dat.leavesExact; rw [res_live t hc], attnAfter5, grp_reset V c (t.val + 1) (by omega)]
    iintro ⟨⟨Hrest, Hg, ⟨%f0, HS⟩⟩, Ho, ⟨%d0, H0⟩, ⟨%d1, H1⟩, ⟨%d2, H2⟩, ⟨%d3, H3⟩, ⟨%d4, H4⟩, ⟨%d5, H5⟩⟩
    iapply (attn_body_last c Set.univ (grid1.coords t) _ _ _ _ _ _ _ _ _ _ _ _ _ _ hc
      (attnBlk V c 0 t) (attnBlk V c 1 t) (attnBlk V c 2 t) (attnBlk V c 3 t) (attnBlk V c 4 t)
      (scrM.view.writes (Elt F) f0 (grp V c t.val)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hrest Hg HS]
    · isplitl [Hrest]; · iexact Hrest
      isplitl [Hg]; · iexact Hg
      iexists _; iexact HS
    isplitl [Ho]; · iexact Ho
    isplitl [H0]; · iexact H0
    isplitl [H1]; · iexact H1
    isplitl [H2]; · iexact H2
    isplitl [H3]; · iexact H3
    isplitl [H4]; · iexact H4
    rw [show scrM.view.read (Elt F) (scrM.view.writes (Elt F) (scrM.view.writes (Elt F) f0 (grp V c t.val))
          [⟨rSlab (grid1.coords t), pairOut (attnBlk V c 0 t) (attnBlk V c 1 t) (attnBlk V c 2 t)⟩])
        = View.canon (slab V c t.val :: grp V c t.val) from by
      rw [← slab_at V c t]
      exact View.read_writes_eq_canon scrM.view f0 (slab V c t.val :: grp V c t.val) (six_cover V c t h5)]
    iexact H5
  · -- one of a group's first five points
    have h5 : t.val % 6 ≠ 5 := (last_iff t).not.mp hc
    rw [Dat.leavesExact_idle (attnDat V c) 5 t (res_idle t hc) (res_noflush t hc), grp_succ V c t.val (by omega), slab_at V c t]
    iintro ⟨⟨Hrest, Hg, ⟨%f0, HS⟩⟩, Ho, ⟨%d0, H0⟩, ⟨%d1, H1⟩, ⟨%d2, H2⟩, ⟨%d3, H3⟩, ⟨%d4, H4⟩, H5⟩
    iapply (attn_body_mid c Set.univ (grid1.coords t) _ _ _ _ _ _ _ _ _ _ _ _ _ _ hc
      (attnBlk V c 0 t) (attnBlk V c 1 t) (attnBlk V c 2 t) (attnBlk V c 3 t) (attnBlk V c 4 t)
      (scrM.view.writes (Elt F) f0 (grp V c t.val)) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hrest Hg HS]
    · isplitl [Hrest]; · iexact Hrest
      isplitl [Hg]; · iexact Hg
      iexists f0; iexact HS
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation for the attention launch, at every point. -/
theorem attn_obligation (c : Dev nD) : BodyObligation (attnDat (F := F) V c) (defs₀ (F := F)) Variants.none () Set.univ := fun t => by
  rw [bigSep_W1, bigSep_W1]
  exact attn_point V c t

end AttnData

end Cert.Kernel.Fr

end
-- ==== Proof.BFrSegs.lean ====
/-
  @main of the kernel program as the pipeline library's segments, for any float family F: the contents of the
  unscoped buffers at each boundary (launch, after the first host lines, after the projection launch, after the
  host lines that split and transpose the heads, after the attention launch), the five arguments read back
  through that fold to their launch contents, the two launches' proof data as one family, and each launch as a
  region record over the thread state "every unscoped buffer at the boundary's contents, the generator register
  at some state, nothing owed". The attention launch's record moves the merged-heads scratch out of the scoped
  rest at its entry (no slab stored yet) and back after the last group.
-/
import proofs.«418711_j76373108458020_3_alg».proof.Proof.BFrProj
import proofs.«418711_j76373108458020_3_alg».proof.Proof.BFrAttnData
import proofs.«418711_j76373108458020_3_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the host lines before the projection launch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection launch's exit: its arrays at what the pipeline leaves, every other buffer as entered. -/
def W2 (c : Dev nD) : Valuation τ sig (Elt F) :=
  Pipeline.withArrays spec0 c (W1 m ρ c) fun w => (projDat (V1 m ρ) c).arrAt w cfg0.N
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host lines between the launches. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention launch's exit. -/
def W4 (c : Dev nD) : Valuation τ sig (Elt F) :=
  Pipeline.withArrays spec1 c (W3 m ρ c) fun w => (attnDat (V3 m ρ) c).arrAt w cfg1.N
theorem W4_arr (c : Dev nD) (w : Fin cfg1.W) :
    W4 m ρ c (Proc.devRef .tc (Pipeline.arrRef spec1 w)) = (attnDat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (attnDat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no line of a host stretch writes keeps its contents through the stretch. -/
theorem W1_keep (c : Dev nD) (r : Ref sig .tc) (h : r ∉ hostOps0_W) (W : Valuation τ sig (Elt F)) :
    StableHlo.after hostOps0 W (Proc.devRef .tc r) = W (Proc.devRef .tc r) :=
  StableHlo.after_of_writes_sub hostOps0 _ hostOps0_writes h
theorem W3_keep (c : Dev nD) (r : Ref sig .tc) (h : r ∉ hostOps1_W) (W : Valuation τ sig (Elt F)) :
    StableHlo.after hostOps1 W (Proc.devRef .tc r) = W (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep c main_arg0 (by decide) _
    _ = W1 m ρ c (Proc.devRef .tc main_arg0) := W2_of_ne m ρ c main_arg0 (by decide)
    _ = W0 m ρ c (Proc.devRef .tc main_arg0) := W1_keep c main_arg0 (by decide) _
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keep c main_arg1 (by decide) _
    _ = W1 m ρ c (Proc.devRef .tc main_arg1) := W2_of_ne m ρ c main_arg1 (by decide)
    _ = W0 m ρ c (Proc.devRef .tc main_arg1) := W1_keep c main_arg1 (by decide) _
    _ = m ((c : Thread nD τ).loc main_arg1) := rfl
/-- The projection's bias is that launch's third window: an input array ends a launch as it entered. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep c main_arg2 (by decide) _
    _ = W1 m ρ c (Proc.devRef .tc main_arg2) := (W2_arr m ρ c 2).trans (((projDat (V1 m ρ) c).arrAt_in 2 rfl _).trans (projA (V1 m ρ) c 2))
    _ = W0 m ρ c (Proc.devRef .tc main_arg2) := W1_keep c main_arg2 (by decide) _
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep c main_arg3 (by decide) _
    _ = W1 m ρ c (Proc.devRef .tc main_arg3) := W2_of_ne m ρ c main_arg3 (by decide)
    _ = W0 m ρ c (Proc.devRef .tc main_arg3) := W1_keep c main_arg3 (by decide) _
    _ = m ((c : Thread nD τ).loc main_arg3) := rfl
/-- The output bias is the attention launch's fifth window. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 4).trans (((attnDat (V3 m ρ) c).arrAt_in 4 rfl _).trans (attnA (V3 m ρ) c 4))
    _ = W2 m ρ c (Proc.devRef .tc main_arg4) := W3_keep c main_arg4 (by decide) _
    _ = W1 m ρ c (Proc.devRef .tc main_arg4) := W2_of_ne m ρ c main_arg4 (by decide)
    _ = W0 m ρ c (Proc.devRef .tc main_arg4) := W1_keep c main_arg4 (by decide) _
    _ = m ((c : Thread nD τ).loc main_arg4) := rfl
/-- The program's result is the attention launch's result window's array. -/
theorem W4_main_v16 (c : Dev nD) : W4 m ρ c (Proc.devRef .tc main_v16) = (attnDat (V3 m ρ) c).arrAt 5 cfg1.N :=
  W4_arr m ρ c 5

/-! ## The proof data family and the thread state -/

abbrev adm : (p : Fin 2) → (pcfgs (F := F) p).Adm := fun p => (cfgs p).toPCfg_adm
/-- Every launch's proof data, each at its own entry contents. -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- The scoped rest of the attention launch, with the merged-heads scratch taken out. -/
theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
/-- Entering the attention launch: the scratch leaves the scoped rest at whatever it holds; no slab is stored yet. -/
theorem attnΦ_in (V : (c : Dev nD) → (b : Ref sig .tc) → Buf (Elt F) ((c : Thread nD τ).loc b)) (c : Dev nD) :
    (iprop((∃ r, prngReg c r) ∗ Pipeline.scopedRest (Ix := Unit) (Name := ℕ) (U := UR sig nD τ) (Lvl := ℕ) (Val := Elt F) spec1 c) : sProp 𝕄)
      ⊢ attnΦ V c 0 := by
  unfold attnΦ
  rw [scoped_split c, grp_reset V c 0 rfl]
  iintro ⟨Hp, ⟨%f, Hs⟩, Hr⟩
  isplitl [Hr]; · iexact Hr
  isplitl [Hp]; · iexact Hp
  iexists f
  simp only [View.writes_nil, Memref.view_whole, View.set_whole]
  iexact Hs
/-- Leaving it after the last group: the scratch returns to the scoped rest, its contents forgotten. -/
theorem attnΦ_out (V : (c : Dev nD) → (b : Ref sig .tc) → Buf (Elt F) ((c : Thread nD τ).loc b)) (c : Dev nD) :
    attnΦ V c cfg1.N
      ⊢ (iprop(Pipeline.scopedRest (Ix := Unit) (Name := ℕ) (U := UR sig nD τ) (Lvl := ℕ) (Val := Elt F) spec1 c ∗ ∃ r, prngReg c r) : sProp 𝕄) := by
  unfold attnΦ
  rw [scoped_split c, grp_reset V c cfg1.N (by rw [show cfg1.N = 96 from N_1])]
  iintro ⟨Hr, Hp, ⟨%f, Hs⟩⟩
  isplitl [Hr Hs]
  · isplitl [Hs]
    · iexists f
      simp only [View.writes_nil, Memref.view_whole, View.set_whole]
      iexact Hs
    iexact Hr
  iexact Hp

/-! ## The launches as segments -/

set_option backward.isDefEq.respectTransparency.types false in
/-- The projection launch over the thread state: entered from every unscoped buffer at W1, left at W2. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (proj_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: entered from every unscoped buffer at W3, left at W4. Its invariant
    takes the scratch out of the scoped rest at whatever it holds (no slab stored yet) and gives it back after the
    last group, whose slabs are forgotten again. -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (attn_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = attnΦ (V3 m ρ) c 0 from rfl]
    iintro ⟨Hp, -, Hr⟩
    iapply (attnΦ_in (V3 m ρ) c)
    isplitl [Hp]; · iexact Hp
    iexact Hr
  hout c := by
    rw [Pipeline.ownSems0_none, show (pdats m ρ 1 c).Φ (Fin.last _) = attnΦ (V3 m ρ) c cfg1.N from rfl]
    refine (attnΦ_out (V3 m ρ) c).trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Run

end Cert.Kernel.Fr

end
-- ==== Proof.BFrFrame.lean ====
/-
  What the run gives: the five arguments end as launched (the frame), and the result array ends at what the
  attention launch's write-backs leave, for any float family F.
-/
import proofs.«418711_j76373108458020_3_alg».proof.Proof.BFrRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result array ends at what the attention launch's write-backs leave. -/
theorem run_result : θ_run defs (onTc (τ := τ) (main (F := F))) ⟨m, fun _ => 0, ρ⟩ (fun r => ∀ c : Dev nD,
      r.2.mem ((c.tc : Thread nD τ).loc main_v16) = (attnDat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v16 (by decide))).trans (W4_main_v16 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Run

end Cert.Kernel.Fr

end
-- ==== Proof.FrProj.lean ====
/-
  The QKV-projection launch (the first pallas_call), read at the contents V its arrays hold when the
  launch is entered, for any float family F.

  The grid has 16 points; point t takes rows 512 t .. 512 t + 511 of the flattened activations
  (8192 x 768), the whole transposed weight (768 x 2304) and the whole bias (2304), and stores ONE
  512 x 2304 block: bf16 (bf16 x . w + bias). Nothing is carried between points. This module states
  what each staging buffer holds after the body (projDat), runs the body once on arbitrary block
  contents (proj_body_run) and derives the pipeline's body obligation at every point.
-/
import proofs.«418711_j76373108458020_3_alg».proof.Proof.Gen.KernelIdeal.Launch
import proofs.«418711_j76373108458020_3_alg».proof.Proof.Gen.KernelIdeal.Skeleton
import proofs.«418711_j76373108458020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Proj
variable (V : (c : Dev nD) → (b : Ref sig .tc) → Buf (Elt F) ((c : Thread nD τ).loc b))

/-- Window w's block of the projection launch at point t, read off its array as the launch finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, refetched there or not
    (the weight and the bias are fetched once; their block index never moves). -/
theorem projBefore0_of {c : Dev nD}
    (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
theorem projBefore1_of {c : Dev nD}
    (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)
theorem projBefore2_of {c : Dev nD}
    (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-- The whole 512 x 768 activation block, the whole weight, the whole bias, the whole result block. -/
abbrev rX : Rect S512x768 := Rect.unit (s := S512x768) ![0, 0] S512x768.size inb_S512x768_S512x768_0_0
abbrev rW : Rect S768x2304 := Rect.unit (s := S768x2304) ![0, 0] S768x2304.size inb_S768x2304_S768x2304_0_0
abbrev rB : Rect S2304 := Rect.unit (s := S2304) ![0] S2304.size inb_S2304_S2304_0
abbrev rO : Rect S512x2304 := Rect.unit (s := S512x2304) ![0, 0] S512x2304.size inb_S512x2304_S512x2304_0_0

/-- What the body leaves in the result window's buffer: its one store, of the projection of the three loads. -/
def projLeft (x : Vec F S512x768 .f32) (w : Vec F S768x2304 .bf16) (b : Vec F S2304 .f32) : Vec F S512x2304 .bf16 :=
  View.canon [⟨rO, k0_pay1 (View.ld x rX) (View.ld w rW) (View.ld b rB)⟩]

theorem projCover (p0 : Vec F S512x2304 .bf16) (y : S512x2304.Idx) :
    ∃ pc ∈ ([⟨rO, p0⟩] : List (View.Piece (Elt F) S512x2304 .bf16)), y ∈ pc.1.set :=
  View.cover_of_tiled [⟨rO, p0⟩] S512x2304.size (by rfl) y

set_option maxHeartbeats 1000000 in
/-- The body on whole staging memrefs: the three inputs keep their contents, the result buffer ends at projLeft. -/
theorem proj_body_run (c : Dev nD) (E : Set ℕ) (i : grid0.Coords)
    (arg1 : Memref sig .tc .vmem S512x768 .f32) (harg1 : arg1.IsWhole) (arg2 : Memref sig .tc .vmem S768x2304 .bf16) (harg2 : arg2.IsWhole)
    (arg3 : Memref sig .tc .vmem S2304 .f32) (harg3 : arg3.IsWhole) (arg4 : Memref sig .tc .vmem S512x2304 .bf16) (harg4 : arg4.IsWhole)
    (x : Vec F S512x768 .f32) (w : Vec F S768x2304 .bf16) (b : Vec F S2304 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projLeft x w b)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projCover _)

/-- The proof data of the projection launch on core c: arrays as found; after the body the inputs' buffers at
    their blocks and the result's at projLeft of them; nothing beyond the scoped rest is kept between points. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projLeft (projBlk V c 0 t) (projBlk V c 1 t) (projBlk V c 2 t)
  Φ _ := Pipeline.ΦA spec0 c
  q _ := fullShare
  owed _ := 0

theorem projA (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) :
    (projDat V c).after 3 t = projLeft (projBlk V c 0 t) (projBlk V c 1 t) (projBlk V c 2 t) := by dsimp only [projDat]

theorem projBefore0 (c : Dev nD) (t : Fin cfg0.N) (d) : (projDat V c).before 0 t d = projBlk V c 0 t :=
  projBefore0_of V (projDat V c) (projA V c 0) (projAfter0 V c) t d
theorem projBefore1 (c : Dev nD) (t : Fin cfg0.N) (d) : (projDat V c).before 1 t d = projBlk V c 1 t :=
  projBefore1_of V (projDat V c) (projA V c 1) (projAfter1 V c) t d
theorem projBefore2 (c : Dev nD) (t : Fin cfg0.N) (d) : (projDat V c).before 2 t d = projBlk V c 2 t :=
  projBefore2_of V (projDat V c) (projA V c 2) (projAfter2 V c) t d

/-- The body at any point: the inputs' buffers hold their blocks, so proj_body_run applies; the invariant and
    what the core owes pass through unread. -/
theorem proj_point (c : Dev nD) (t : Fin cfg0.N) :
    iprop((projDat V c).Φ t.castSucc ∗ (projDat V c).owesAt () t.castSucc
      ∗ (∃ d, owns (c : Thread nD τ) (st0_0 t) fullShare ((projDat V c).before 0 t d))
      ∗ (∃ d, owns (c : Thread nD τ) (st0_1 t) fullShare ((projDat V c).before 1 t d))
      ∗ (∃ d, owns (c : Thread nD τ) (st0_2 t) fullShare ((projDat V c).before 2 t d))
      ∗ (∃ d, owns (c : Thread nD τ) (st0_3 t) fullShare ((projDat V c).before 3 t d)))
    ⊢ wp frame (wpE (defs₀ (F := F)) Variants.none c none) Set.univ (bodyAt0 t) (fun _ =>
        iprop((projDat V c).Φ t.succ ∗ (projDat V c).owesAt () t.succ
          ∗ owns (c : Thread nD τ) (st0_0 t) fullShare ((projDat V c).after 0 t)
          ∗ owns (c : Thread nD τ) (st0_1 t) fullShare ((projDat V c).after 1 t)
          ∗ owns (c : Thread nD τ) (st0_2 t) fullShare ((projDat V c).after 2 t)
          ∗ owns (c : Thread nD τ) (st0_3 t) fullShare ((projDat V c).after 3 t))) := by
  unfold bodyAt0
  simp only [projBefore0, projBefore1, projBefore2]
  rw [show (projDat V c).Φ t.succ = (projDat V c).Φ t.castSucc from rfl,
    show (projDat V c).owesAt () t.succ = (projDat V c).owesAt () t.castSucc from rfl,
    projAfter0, projAfter1, projAfter2, projAfter3]
  iintro ⟨HΦ, Ho, ⟨%d0, H0⟩, ⟨%d1, H1⟩, ⟨%d2, H2⟩, ⟨%d3, H3⟩⟩
  iapply (proj_body_run c Set.univ _ _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for the projection launch, at every point. -/
theorem proj_obligation (c : Dev nD) : BodyObligation (projDat (F := F) V c) (defs₀ (F := F)) Variants.none () Set.univ := fun t => by
  rw [bigSep_W0, bigSep_W0]
  exact proj_point V c t

end Proj

end Cert.KernelIdeal.Fr

end
-- ==== Proof.FrAttnBody.lean ====
/-
  The attention launch (the second pallas_call) - the body's two runs, for any float family F.

  The grid is 4 x 4 x 6: batch b, query tile qi (512 rows), head pair h2. A point takes the pair's query
  tile (2 x 512 x 64) and whole key and value blocks (2 x 2048 x 64 each), computes the two heads'
  softmax-attention outputs and stores them side by side into columns 128 h2 .. 128 h2 + 127 of a
  512 x 768 scratch that lives across the six points of a (b, qi) group. Only at h2 = 5 does it read the
  whole scratch back, multiply by the (transposed) output weight, add the bias and store the 512 x 768
  result block; at the other five points the result window is left alone.
-/
import proofs.«418711_j76373108458020_3_alg».proof.Proof.Gen.KernelIdeal.Launch
import proofs.«418711_j76373108458020_3_alg».proof.Proof.Gen.KernelIdeal.Skeleton
import proofs.«418711_j76373108458020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Attn
variable (V : (c : Dev nD) → (b : Ref sig .tc) → Buf (Elt F) ((c : Thread nD τ).loc b))

/-- Window w's block of the attention launch at point t, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, refetched there or not
    (the output weight and bias are fetched once; their block index never moves). -/
theorem attnBefore0_of {c : Dev nD}
    (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore1_of {c : Dev nD}
    (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore2_of {c : Dev nD}
    (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore3_of {c : Dev nD}
    (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore4_of {c : Dev nD}
    (dat : Dat τ (Elt F) Unit ℕ (UR sig nD τ) ℕ cfg1 c) (hA : dat.A 4 = V c (Pipeline.arrRef spec1 4))
    (hafter : ∀ t, dat.after 4 t = attnBlk V c 4 t) (t : Fin cfg1.N) (d) : dat.before 4 t d = attnBlk V c 4 t :=
  (dat.before_in_eq_fetched 4 rfl (fun _ => rfl) (fun _ _ _ => rfl) (fun t => by rw [hafter]; unfold Dat.blockOf attnBlk; rw [hA]; try rfl) t d).trans
    (by unfold Dat.fetched Dat.blockOf attnBlk; rw [hA]; try rfl)

/-- The two heads of a pair inside the query block and inside a key or value block. -/
abbrev rQa : Rect S2x512x64 := Rect.unit (s := S2x512x64) ![0, 0, 0] S1x512x64.size inb_S2x512x64_S1x512x64_0_0_0
abbrev rQb : Rect S2x512x64 := Rect.unit (s := S2x512x64) ![1, 0, 0] S1x512x64.size inb_S2x512x64_S1x512x64_1_0_0
abbrev rKa : Rect S2x2048x64 := Rect.unit (s := S2x2048x64) ![0, 0, 0] S1x2048x64.size inb_S2x2048x64_S1x2048x64_0_0_0
abbrev rKb : Rect S2x2048x64 := Rect.unit (s := S2x2048x64) ![1, 0, 0] S1x2048x64.size inb_S2x2048x64_S1x2048x64_1_0_0
/-- The 128 columns of the merged-heads scratch that the head pair of grid position i owns. -/
abbrev rSlab (i : grid1.Coords) : Rect S512x768 := Rect.unit (s := S512x768) (k1_off1 i) S512x128.size (k1_off1_inb i)
abbrev rScr : Rect S512x768 := Rect.unit (s := S512x768) ![0, 0] S512x768.size inb_S512x768_S512x768_0_0
abbrev rWo : Rect S768x768 := Rect.unit (s := S768x768) ![0, 0] S768x768.size inb_S768x768_S768x768_0_0
abbrev rBo : Rect S768 := Rect.unit (s := S768) ![0] S768.size inb_S768_S768_0
abbrev rRes : Rect S1x512x768 := Rect.unit (s := S1x512x768) ![0, 0, 0] S1x512x768.size inb_S1x512x768_S1x512x768_0_0_0

/-- The two heads' attention outputs side by side (512 x 128), from a pair's query, key and value blocks. -/
def pairOut (q : Vec F S2x512x64 .bf16) (k v : Vec F S2x2048x64 .bf16) : FVec F S512x128 .bf16 :=
  k1_pay1 (k1_pay3 (View.ld q rQa) (View.ld k rKa) (View.ld v rKa)) (k1_pay4 (View.ld v rKb)) (k1_pay5 (View.ld q rQb) (View.ld k rKb)) (k1_pay6 (F := F))

/-- The output projection of a full merged-heads scratch: what the last head pair's point stores into the result block. -/
def resLeft (S : Vec F S512x768 .bf16) (wo : Vec F S768x768 .bf16) (bo : Vec F S768 .f32) : Vec F S1x512x768 .f32 :=
  View.canon [⟨rRes, k1_pay2 (View.ld S rScr) (View.ld wo rWo) (View.ld bo rBo)⟩]

theorem resCover (p0 : Vec F S1x512x768 .f32) (y : S1x512x768.Idx) :
    ∃ pc ∈ ([⟨rRes, p0⟩] : List (View.Piece (Elt F) S1x512x768 .f32)), y ∈ pc.1.set :=
  View.cover_of_tiled [⟨rRes, p0⟩] S1x512x768.size (by rfl) y

set_option maxHeartbeats 2000000 in
/-- A point that is not a group's last: the body stores the pair's slab into the scratch and nothing else. -/
theorem attn_body_mid (c : Dev nD) (E : Set ℕ) (i : grid1.Coords) (arg3 : Memref sig .tc .vmem S2x512x64 .bf16) (harg3 : arg3.IsWhole) (arg4 : Memref sig .tc .vmem S2x2048x64 .bf16) (harg4 : arg4.IsWhole) (arg5 : Memref sig .tc .vmem S2x2048x64 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .bf16) (harg9 : arg9.IsWhole)
    (hc : ¬ k1_cond1 i = 1#1)
    (q : Vec F S2x512x64 .bf16) (k v : Vec F S2x2048x64 .bf16) (wo : Vec F S768x768 .bf16) (bo : Vec F S768 .f32)
    (f9 : arg9.view.ty.Contents (Elt F)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
        ∗ (arg9.view.loc (c : Thread nD τ) ↦[arg9.view.set]{fullShare} f9)
        ∗ (iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
            ∗ (arg9.view.loc (c : Thread nD τ) ↦[arg9.view.set]{fullShare} arg9.view.writes (Elt F) f9 [⟨rSlab i, pairOut q k v⟩])) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%f7, %hf7, H7⟩, H9, Hk⟩
  subst hf3; subst hf4; subst hf5; subst hf6; subst hf7
  sl_exec (disch := exact hc)
  sl_step
  sl_unfold_words
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexact H9

set_option maxHeartbeats 2000000 in
/-- A group's last point: after the slab store the body reads the whole scratch back, projects it and stores
    the result block whole. -/
theorem attn_body_last (c : Dev nD) (E : Set ℕ) (i : grid1.Coords) (arg3 : Memref sig .tc .vmem S2x512x64 .bf16) (harg3 : arg3.IsWhole) (arg4 : Memref sig .tc .vmem S2x2048x64 .bf16) (harg4 : arg4.IsWhole) (arg5 : Memref sig .tc .vmem S2x2048x64 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S1x512x768 .f32) (harg8 : arg8.IsWhole) (arg9 : Memref sig .tc .vmem S512x768 .bf16) (harg9 : arg9.IsWhole)
    (hc : k1_cond1 i = 1#1)
    (q : Vec F S2x512x64 .bf16) (k v : Vec F S2x2048x64 .bf16) (wo : Vec F S768x768 .bf16) (bo : Vec F S768 .f32)
    (f9 : arg9.view.ty.Contents (Elt F)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
        ∗ (∃ d, owns (c : Thread nD τ) arg8 fullShare d)
        ∗ (arg9.view.loc (c : Thread nD τ) ↦[arg9.view.set]{fullShare} f9)
        ∗ (iprop(owns (c : Thread nD τ) arg3 fullShare q ∗ owns (c : Thread nD τ) arg4 fullShare k ∗ owns (c : Thread nD τ) arg5 fullShare v
        ∗ owns (c : Thread nD τ) arg6 fullShare wo ∗ owns (c : Thread nD τ) arg7 fullShare bo
            ∗ owns (c : Thread nD τ) arg8 fullShare (resLeft (arg9.view.read (Elt F) (arg9.view.writes (Elt F) f9 [⟨rSlab i, pairOut q k v⟩])) wo bo)
            ∗ (arg9.view.loc (c : Thread nD τ) ↦[arg9.view.set]{fullShare} arg9.view.writes (Elt F) f9 [⟨rSlab i, pairOut q k v⟩])) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, H9, Hk⟩
  subst hf3; subst hf4; subst hf5; subst hf6; subst hf7
  sl_exec (disch := exact hc)
  sl_step
  sl_unfold_words
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (resCover _)
  iexact H9

end Attn

end Cert.KernelIdeal.Fr

end
-- ==== Proof.FrAttnData.lean ====
/-
  The attention launch (the second pallas_call) - its proof data and body obligation, for any float family F.

  What is carried between points is the merged-heads scratch. Within a (b, qi) group of six points the
  scratch holds, over contents nobody names, the slabs the group's earlier points stored; the sixth point's
  slab completes a cover of the 768 columns, so what that point reads back is one array determined by the six
  slabs alone, and it is that array's projection that the result window holds when it is written back.
-/
import proofs.«418711_j76373108458020_3_alg».proof.Proof.FrAttnBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section AttnData
variable (V : (c : Dev nD) → (b : Ref sig .tc) → Buf (Elt F) ((c : Thread nD τ).loc b))

/-! ## The grid in closed form -/

/-- The output projection runs exactly at a group's sixth point. -/
theorem last_iff : ∀ t : Fin cfg1.N, k1_cond1 (grid1.coords t) = 1#1 ↔ t.val % 6 = 5 :=
  (by decide +kernel : ∀ t : Fin grid1.N, k1_cond1 (grid1.coords t) = 1#1 ↔ t.val % 6 = 5)
/-- Point t's slab starts at row 0, column 128 (t mod 6). -/
theorem slab_off0 : ∀ t : Fin cfg1.N, k1_off1 (grid1.coords t) 0 = 0 :=
  (by decide +kernel : ∀ t : Fin grid1.N, k1_off1 (grid1.coords t) 0 = 0)
theorem slab_off1 : ∀ t : Fin cfg1.N, k1_off1 (grid1.coords t) 1 = 128 * (t.val % 6) :=
  (by decide +kernel : ∀ t : Fin grid1.N, k1_off1 (grid1.coords t) 1 = 128 * (t.val % 6))

/-- A natural number as a grid point (taken modulo the 96 points, so that the piece lists below are total). -/
def ptOf (n : ℕ) : Fin cfg1.N := ⟨n % 96, lt_of_lt_of_eq (Nat.mod_lt _ (by decide)) N_1.symm⟩
theorem ptOf_val (t : Fin cfg1.N) : ptOf t.val = t :=
  Fin.ext (Nat.mod_eq_of_lt (lt_of_lt_of_eq t.isLt N_1))

/-! ## The scratch across a group -/

/-- What point n stores into the scratch: the pair's two outputs at the pair's 128 columns. -/
def slab (c : Dev nD) (n : ℕ) : View.Piece (Elt F) S512x768 .bf16 :=
  ⟨rSlab (grid1.coords (ptOf n)), pairOut (attnBlk V c 0 (ptOf n)) (attnBlk V c 1 (ptOf n)) (attnBlk V c 2 (ptOf n))⟩

/-- The slabs stored so far in point n's group - those of the points n - n mod 6 .. n - 1 - latest first. -/
def grp (c : Dev nD) (n : ℕ) : List (View.Piece (Elt F) S512x768 .bf16) :=
  ((List.range (n % 6)).map fun j => slab V c (n - n % 6 + j)).reverse

theorem grp_succ (c : Dev nD) (n : ℕ) (h : (n + 1) % 6 ≠ 0) : grp V c (n + 1) = slab V c n :: grp V c n := by
  have h1 : (n + 1) % 6 = n % 6 + 1 := by omega
  have h2 : n + 1 - (n % 6 + 1) = n - n % 6 := by omega
  have h3 : n - n % 6 + n % 6 = n := by have := Nat.mod_le n 6; omega
  unfold grp
  rw [h1, h2, List.range_succ, List.map_append, List.reverse_append, List.map_singleton, List.reverse_singleton, h3]
  rfl

theorem grp_reset (c : Dev nD) (n : ℕ) (h : n % 6 = 0) : grp V c n = [] := by
  unfold grp; rw [h]; rfl

/-- At a group's sixth point the six slabs cover the scratch: column y lies in the slab of the point whose
    pair index is y / 128. -/
theorem six_cover (c : Dev nD) (t : Fin cfg1.N) (h5 : t.val % 6 = 5) (y : S512x768.Idx) :
    ∃ pc ∈ slab V c t.val :: grp V c t.val, y ∈ pc.1.set := by
  have hy0 : (y 0).val < 512 := (y 0).isLt
  have hy1 : (y 1).val < 768 := (y 1).isLt
  have hN : t.val < 96 := lt_of_lt_of_eq t.isLt N_1
  -- the point of the group that owns the column
  have key : ∀ n : ℕ, n < 96 → n % 6 = (y 1).val / 128 → y ∈ (slab V c n).1.set := by
    intro n hn hq
    show y ∈ (Rect.unit (s := S512x768) (k1_off1 (grid1.coords (ptOf n))) S512x128.size (k1_off1_inb _)).set
    rw [Rect.mem_set_unit]
    have hv : (ptOf n).val = n := Nat.mod_eq_of_lt hn
    intro a
    match a with
    | ⟨0, _⟩ =>
      have := slab_off0 (ptOf n)
      refine ⟨by show k1_off1 (grid1.coords (ptOf n)) 0 ≤ (y 0).val; omega, ?_⟩
      show (y 0).val < k1_off1 (grid1.coords (ptOf n)) 0 + 512; omega
    | ⟨1, _⟩ =>
      have := slab_off1 (ptOf n)
      rw [hv] at this
      refine ⟨by show k1_off1 (grid1.coords (ptOf n)) 1 ≤ (y 1).val; omega, ?_⟩
      show (y 1).val < k1_off1 (grid1.coords (ptOf n)) 1 + 128; omega
  by_cases hlast : (y 1).val / 128 = 5
  · exact ⟨slab V c t.val, List.mem_cons_self, key t.val hN (by omega)⟩
  · have hj : (y 1).val / 128 < 5 := by omega
    refine ⟨slab V c (t.val - t.val % 6 + (y 1).val / 128), List.mem_cons_of_mem _ ?_, key _ (by omega) (by omega)⟩
    unfold grp
    rw [List.mem_reverse, List.mem_map]
    exact ⟨(y 1).val / 128, List.mem_range.mpr (by omega), rfl⟩

/-! ## The invariant and the proof data -/

/-- The scratch as a whole buffer. -/
abbrev scrM : Memref sig .tc .vmem S512x768 .bf16 := Memref.whole cc1_scratch0

/-- Between points: every other scoped buffer at anything, the generator register at some state, and the
    scratch at the group's slabs stored so far over contents nobody names. -/
def attnΦ (c : Dev nD) (n : ℕ) : sProp 𝕄 :=
  iprop(Pipeline.scopedRestBut (Ix := Unit) (Name := ℕ) (U := UR sig nD τ) (Lvl := ℕ) (Val := Elt F) spec1 c [cc1_scratch0]
    ∗ (∃ r, prngReg c r)
    ∗ ∃ f0 : scrM.view.ty.Contents (Elt F),
        (scrM.view.loc (c : Thread nD τ) ↦[scrM.view.set]{fullShare} scrM.view.writes (Elt F) f0 (grp V c n)))

/-- The proof data of the attention launch on core c. The result window's entry is what a group's sixth point
    stores (the projection of the six slabs read back as one array); the other five points leave that window alone. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => attnBlk V c 4 t
    | ⟨5, _⟩ => resLeft (View.canon (slab V c t.val :: grp V c t.val)) (attnBlk V c 3 t) (attnBlk V c 4 t)
  Φ t := attnΦ V c t.val
  q _ := fullShare
  owed _ := 0

theorem attnA (c : Dev nD) (w : Fin cfg1.W) : (attnDat V c).A w = V c (Pipeline.arrRef spec1 w) := by
  dsimp only [attnDat]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = attnBlk V c 3 t := by dsimp only [attnDat]
theorem attnAfter4 (c : Dev nD) (t : Fin cfg1.N) : (attnDat V c).after 4 t = attnBlk V c 4 t := by dsimp only [attnDat]
theorem attnAfter5 (c : Dev nD) (t : Fin cfg1.N) :
    (attnDat V c).after 5 t = resLeft (View.canon (slab V c t.val :: grp V c t.val)) (attnBlk V c 3 t) (attnBlk V c 4 t) := by
  dsimp only [attnDat]

theorem attnBefore0 (c : Dev nD) (t : Fin cfg1.N) (d) : (attnDat V c).before 0 t d = attnBlk V c 0 t :=
  attnBefore0_of V (attnDat V c) (attnA V c 0) (attnAfter0 V c) t d
theorem attnBefore1 (c : Dev nD) (t : Fin cfg1.N) (d) : (attnDat V c).before 1 t d = attnBlk V c 1 t :=
  attnBefore1_of V (attnDat V c) (attnA V c 1) (attnAfter1 V c) t d
theorem attnBefore2 (c : Dev nD) (t : Fin cfg1.N) (d) : (attnDat V c).before 2 t d = attnBlk V c 2 t :=
  attnBefore2_of V (attnDat V c) (attnA V c 2) (attnAfter2 V c) t d
theorem attnBefore3 (c : Dev nD) (t : Fin cfg1.N) (d) : (attnDat V c).before 3 t d = attnBlk V c 3 t :=
  attnBefore3_of V (attnDat V c) (attnA V c 3) (attnAfter3 V c) t d
theorem attnBefore4 (c : Dev nD) (t : Fin cfg1.N) (d) : (attnDat V c).before 4 t d = attnBlk V c 4 t :=
  attnBefore4_of V (attnDat V c) (attnA V c 4) (attnAfter4 V c) t d

theorem attnΦ_castSucc (c : Dev nD) (t : Fin cfg1.N) : (attnDat V c).Φ t.castSucc = attnΦ V c t.val := by
  dsimp only [attnDat]; simp only [Fin.coe_castSucc]
theorem attnΦ_succ (c : Dev nD) (t : Fin cfg1.N) : (attnDat V c).Φ t.succ = attnΦ V c (t.val + 1) := by
  dsimp only [attnDat]; simp only [Fin.val_succ]

/-- The slab of point t spelt at the point itself. -/
theorem slab_at (c : Dev nD) (t : Fin cfg1.N) :
    slab V c t.val = ⟨rSlab (grid1.coords t), pairOut (attnBlk V c 0 t) (attnBlk V c 1 t) (attnBlk V c 2 t)⟩ := by
  unfold slab; rw [ptOf_val]

/-- The result window is live exactly at a group's sixth point. -/
theorem res_live (t : Fin cfg1.N) (hc : k1_cond1 (grid1.coords t) = 1#1) : cfg1.idle 5 (cfg1.grid.coords t) = false := by
  show (!(k1_cond1 (grid1.coords t) == 1#1)) = false
  rw [hc]; rfl
theorem res_idle (t : Fin cfg1.N) (hc : ¬ k1_cond1 (grid1.coords t) = 1#1) : cfg1.idle 5 (cfg1.grid.coords t) = true := by
  show (!(k1_cond1 (grid1.coords t) == 1#1)) = true
  simp only [Bool.not_eq_true', beq_eq_false_iff_ne, ne_eq]; exact hc
theorem res_noflush (t : Fin cfg1.N) (hc : ¬ k1_cond1 (grid1.coords t) = 1#1) : (cfg1.win 5).flush t = false := by
  have := flush1_5 t
  have h := (last_iff t).not.mp hc
  cases hf : (cfg1.win 5).flush t
  · rfl
  · exact absurd (this.mp hf) h

set_option maxHeartbeats 2000000 in
/-- The body at any point. The inputs' buffers hold their blocks; the invariant hands over the scratch at the
    group's slabs so far and takes it back with this point's slab added - at a group's sixth point the six slabs
    cover, so what the body read back is their canonical array, and the next group starts from contents nobody names. -/
theorem attn_point (c : Dev nD) (t : Fin cfg1.N) :
    iprop((attnDat V c).Φ t.castSucc ∗ (attnDat V c).owesAt () t.castSucc
      ∗ (∃ d, owns (c : Thread nD τ) (st1_0 t) fullShare ((attnDat V c).before 0 t d))
      ∗ (∃ d, owns (c : Thread nD τ) (st1_1 t) fullShare ((attnDat V c).before 1 t d))
      ∗ (∃ d, owns (c : Thread nD τ) (st1_2 t) fullShare ((attnDat V c).before 2 t d))
      ∗ (∃ d, owns (c : Thread nD τ) (st1_3 t) fullShare ((attnDat V c).before 3 t d))
      ∗ (∃ d, owns (c : Thread nD τ) (st1_4 t) fullShare ((attnDat V c).before 4 t d))
      ∗ (∃ d, owns (c : Thread nD τ) (st1_5 t) fullShare ((attnDat V c).before 5 t d)))
    ⊢ wp frame (wpE (defs₀ (F := F)) Variants.none c none) Set.univ (bodyAt1 t) (fun _ =>
        iprop((attnDat V c).Φ t.succ ∗ (attnDat V c).owesAt () t.succ
          ∗ (attnDat V c).leavesExact 0 t ∗ (attnDat V c).leavesExact 1 t ∗ (attnDat V c).leavesExact 2 t
          ∗ (attnDat V c).leavesExact 3 t ∗ (attnDat V c).leavesExact 4 t ∗ (attnDat V c).leavesExact 5 t)) := by
  unfold bodyAt1
  simp only [attnBefore0, attnBefore1, attnBefore2, attnBefore3, attnBefore4]
  rw [show (attnDat V c).owesAt () t.succ = (attnDat V c).owesAt () t.castSucc from rfl, attnΦ_castSucc, attnΦ_succ,
    show (attnDat V c).leavesExact 0 t = owns (c : Thread nD τ) (st1_0 t) fullShare ((attnDat V c).after 0 t) from rfl,
    show (attnDat V c).leavesExact 1 t = owns (c : Thread nD τ) (st1_1 t) fullShare ((attnDat V c).after 1 t) from rfl,
    show (attnDat V c).leavesExact 2 t = owns (c : Thread nD τ) (st1_2 t) fullShare ((attnDat V c).after 2 t) from rfl,
    show (attnDat V c).leavesExact 3 t = owns (c : Thread nD τ) (st1_3 t) fullShare ((attnDat V c).after 3 t) from rfl,
    show (attnDat V c).leavesExact 4 t = owns (c : Thread nD τ) (st1_4 t) fullShare ((attnDat V c).after 4 t) from rfl,
    attnAfter0, attnAfter1, attnAfter2, attnAfter3, attnAfter4]
  unfold attnΦ
  by_cases hc : k1_cond1 (grid1.coords t) = 1#1
  · -- a group's sixth point
    have h5 : t.val % 6 = 5 := (last_iff t).mp hc
    rw [show (attnDat V c).leavesExact 5 t = owns (c : Thread nD τ) (st1_5 t) fullShare ((attnDat V c).after 5 t) from by
      unfold Dat.leavesExact; rw [res_live t hc], attnAfter5, grp_reset V c (t.val + 1) (by omega)]
    iintro ⟨⟨Hrest, Hg, ⟨%f0, HS⟩⟩, Ho, ⟨%d0, H0⟩, ⟨%d1, H1⟩, ⟨%d2, H2⟩, ⟨%d3, H3⟩, ⟨%d4, H4⟩, ⟨%d5, H5⟩⟩
    iapply (attn_body_last c Set.univ (grid1.coords t) _ _ _ _ _ _ _ _ _ _ _ _ _ _ hc
      (attnBlk V c 0 t) (attnBlk V c 1 t) (attnBlk V c 2 t) (attnBlk V c 3 t) (attnBlk V c 4 t)
      (scrM.view.writes (Elt F) f0 (grp V c t.val)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hrest Hg HS]
    · isplitl [Hrest]; · iexact Hrest
      isplitl [Hg]; · iexact Hg
      iexists _; iexact HS
    isplitl [Ho]; · iexact Ho
    isplitl [H0]; · iexact H0
    isplitl [H1]; · iexact H1
    isplitl [H2]; · iexact H2
    isplitl [H3]; · iexact H3
    isplitl [H4]; · iexact H4
    rw [show scrM.view.read (Elt F) (scrM.view.writes (Elt F) (scrM.view.writes (Elt F) f0 (grp V c t.val))
          [⟨rSlab (grid1.coords t), pairOut (attnBlk V c 0 t) (attnBlk V c 1 t) (attnBlk V c 2 t)⟩])
        = View.canon (slab V c t.val :: grp V c t.val) from by
      rw [← slab_at V c t]
      exact View.read_writes_eq_canon scrM.view f0 (slab V c t.val :: grp V c t.val) (six_cover V c t h5)]
    iexact H5
  · -- one of a group's first five points
    have h5 : t.val % 6 ≠ 5 := (last_iff t).not.mp hc
    rw [Dat.leavesExact_idle (attnDat V c) 5 t (res_idle t hc) (res_noflush t hc), grp_succ V c t.val (by omega), slab_at V c t]
    iintro ⟨⟨Hrest, Hg, ⟨%f0, HS⟩⟩, Ho, ⟨%d0, H0⟩, ⟨%d1, H1⟩, ⟨%d2, H2⟩, ⟨%d3, H3⟩, ⟨%d4, H4⟩, H5⟩
    iapply (attn_body_mid c Set.univ (grid1.coords t) _ _ _ _ _ _ _ _ _ _ _ _ _ _ hc
      (attnBlk V c 0 t) (attnBlk V c 1 t) (attnBlk V c 2 t) (attnBlk V c 3 t) (attnBlk V c 4 t)
      (scrM.view.writes (Elt F) f0 (grp V c t.val)) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hrest Hg HS]
    · isplitl [Hrest]; · iexact Hrest
      isplitl [Hg]; · iexact Hg
      iexists f0; iexact HS
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation for the attention launch, at every point. -/
theorem attn_obligation (c : Dev nD) : BodyObligation (attnDat (F := F) V c) (defs₀ (F := F)) Variants.none () Set.univ := fun t => by
  rw [bigSep_W1, bigSep_W1]
  exact attn_point V c t

end AttnData

end Cert.KernelIdeal.Fr

end
-- ==== Proof.FrSegs.lean ====
/-
  @main of the kernel program as the pipeline library's segments, for any float family F: the contents of the
  unscoped buffers at each boundary (launch, after the first host lines, after the projection launch, after the
  host lines that split and transpose the heads, after the attention launch), the five arguments read back
  through that fold to their launch contents, the two launches' proof data as one family, and each launch as a
  region record over the thread state "every unscoped buffer at the boundary's contents, the generator register
  at some state, nothing owed". The attention launch's record moves the merged-heads scratch out of the scoped
  rest at its entry (no slab stored yet) and back after the last group.
-/
import proofs.«418711_j76373108458020_3_alg».proof.Proof.FrProj
import proofs.«418711_j76373108458020_3_alg».proof.Proof.FrAttnData
import proofs.«418711_j76373108458020_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the host lines before the projection launch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection launch's exit: its arrays at what the pipeline leaves, every other buffer as entered. -/
def W2 (c : Dev nD) : Valuation τ sig (Elt F) :=
  Pipeline.withArrays spec0 c (W1 m ρ c) fun w => (projDat (V1 m ρ) c).arrAt w cfg0.N
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host lines between the launches. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention launch's exit. -/
def W4 (c : Dev nD) : Valuation τ sig (Elt F) :=
  Pipeline.withArrays spec1 c (W3 m ρ c) fun w => (attnDat (V3 m ρ) c).arrAt w cfg1.N
theorem W4_arr (c : Dev nD) (w : Fin cfg1.W) :
    W4 m ρ c (Proc.devRef .tc (Pipeline.arrRef spec1 w)) = (attnDat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (attnDat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no line of a host stretch writes keeps its contents through the stretch. -/
theorem W1_keep (c : Dev nD) (r : Ref sig .tc) (h : r ∉ hostOps0_W) (W : Valuation τ sig (Elt F)) :
    StableHlo.after hostOps0 W (Proc.devRef .tc r) = W (Proc.devRef .tc r) :=
  StableHlo.after_of_writes_sub hostOps0 _ hostOps0_writes h
theorem W3_keep (c : Dev nD) (r : Ref sig .tc) (h : r ∉ hostOps1_W) (W : Valuation τ sig (Elt F)) :
    StableHlo.after hostOps1 W (Proc.devRef .tc r) = W (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep c main_arg0 (by decide) _
    _ = W1 m ρ c (Proc.devRef .tc main_arg0) := W2_of_ne m ρ c main_arg0 (by decide)
    _ = W0 m ρ c (Proc.devRef .tc main_arg0) := W1_keep c main_arg0 (by decide) _
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keep c main_arg1 (by decide) _
    _ = W1 m ρ c (Proc.devRef .tc main_arg1) := W2_of_ne m ρ c main_arg1 (by decide)
    _ = W0 m ρ c (Proc.devRef .tc main_arg1) := W1_keep c main_arg1 (by decide) _
    _ = m ((c : Thread nD τ).loc main_arg1) := rfl
/-- The projection's bias is that launch's third window: an input array ends a launch as it entered. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep c main_arg2 (by decide) _
    _ = W1 m ρ c (Proc.devRef .tc main_arg2) := (W2_arr m ρ c 2).trans (((projDat (V1 m ρ) c).arrAt_in 2 rfl _).trans (projA (V1 m ρ) c 2))
    _ = W0 m ρ c (Proc.devRef .tc main_arg2) := W1_keep c main_arg2 (by decide) _
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep c main_arg3 (by decide) _
    _ = W1 m ρ c (Proc.devRef .tc main_arg3) := W2_of_ne m ρ c main_arg3 (by decide)
    _ = W0 m ρ c (Proc.devRef .tc main_arg3) := W1_keep c main_arg3 (by decide) _
    _ = m ((c : Thread nD τ).loc main_arg3) := rfl
/-- The output bias is the attention launch's fifth window. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 4).trans (((attnDat (V3 m ρ) c).arrAt_in 4 rfl _).trans (attnA (V3 m ρ) c 4))
    _ = W2 m ρ c (Proc.devRef .tc main_arg4) := W3_keep c main_arg4 (by decide) _
    _ = W1 m ρ c (Proc.devRef .tc main_arg4) := W2_of_ne m ρ c main_arg4 (by decide)
    _ = W0 m ρ c (Proc.devRef .tc main_arg4) := W1_keep c main_arg4 (by decide) _
    _ = m ((c : Thread nD τ).loc main_arg4) := rfl
/-- The program's result is the attention launch's result window's array. -/
theorem W4_main_v16 (c : Dev nD) : W4 m ρ c (Proc.devRef .tc main_v16) = (attnDat (V3 m ρ) c).arrAt 5 cfg1.N :=
  W4_arr m ρ c 5

/-! ## The proof data family and the thread state -/

abbrev adm : (p : Fin 2) → (pcfgs (F := F) p).Adm := fun p => (cfgs p).toPCfg_adm
/-- Every launch's proof data, each at its own entry contents. -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- The scoped rest of the attention launch, with the merged-heads scratch taken out. -/
theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
/-- Entering the attention launch: the scratch leaves the scoped rest at whatever it holds; no slab is stored yet. -/
theorem attnΦ_in (V : (c : Dev nD) → (b : Ref sig .tc) → Buf (Elt F) ((c : Thread nD τ).loc b)) (c : Dev nD) :
    (iprop((∃ r, prngReg c r) ∗ Pipeline.scopedRest (Ix := Unit) (Name := ℕ) (U := UR sig nD τ) (Lvl := ℕ) (Val := Elt F) spec1 c) : sProp 𝕄)
      ⊢ attnΦ V c 0 := by
  unfold attnΦ
  rw [scoped_split c, grp_reset V c 0 rfl]
  iintro ⟨Hp, ⟨%f, Hs⟩, Hr⟩
  isplitl [Hr]; · iexact Hr
  isplitl [Hp]; · iexact Hp
  iexists f
  simp only [View.writes_nil, Memref.view_whole, View.set_whole]
  iexact Hs
/-- Leaving it after the last group: the scratch returns to the scoped rest, its contents forgotten. -/
theorem attnΦ_out (V : (c : Dev nD) → (b : Ref sig .tc) → Buf (Elt F) ((c : Thread nD τ).loc b)) (c : Dev nD) :
    attnΦ V c cfg1.N
      ⊢ (iprop(Pipeline.scopedRest (Ix := Unit) (Name := ℕ) (U := UR sig nD τ) (Lvl := ℕ) (Val := Elt F) spec1 c ∗ ∃ r, prngReg c r) : sProp 𝕄) := by
  unfold attnΦ
  rw [scoped_split c, grp_reset V c cfg1.N (by rw [show cfg1.N = 96 from N_1])]
  iintro ⟨Hr, Hp, ⟨%f, Hs⟩⟩
  isplitl [Hr Hs]
  · isplitl [Hs]
    · iexists f
      simp only [View.writes_nil, Memref.view_whole, View.set_whole]
      iexact Hs
    iexact Hr
  iexact Hp

/-! ## The launches as segments -/

set_option backward.isDefEq.respectTransparency.types false in
/-- The projection launch over the thread state: entered from every unscoped buffer at W1, left at W2. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (proj_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: entered from every unscoped buffer at W3, left at W4. Its invariant
    takes the scratch out of the scoped rest at whatever it holds (no slab stored yet) and gives it back after the
    last group, whose slabs are forgotten again. -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (attn_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = attnΦ (V3 m ρ) c 0 from rfl]
    iintro ⟨Hp, -, Hr⟩
    iapply (attnΦ_in (V3 m ρ) c)
    isplitl [Hp]; · iexact Hp
    iexact Hr
  hout c := by
    rw [Pipeline.ownSems0_none, show (pdats m ρ 1 c).Φ (Fin.last _) = attnΦ (V3 m ρ) c cfg1.N from rfl]
    refine (attnΦ_out (V3 m ρ) c).trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Run

end Cert.KernelIdeal.Fr

end
-- ==== Proof.FrFrame.lean ====
/-
  What the run gives: the five arguments end as launched (the frame), and the result array ends at what the
  attention launch's write-backs leave, for any float family F.
-/
import proofs.«418711_j76373108458020_3_alg».proof.Proof.FrRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result array ends at what the attention launch's write-backs leave. -/
theorem run_result : θ_run defs (onTc (τ := τ) (main (F := F))) ⟨m, fun _ => 0, ρ⟩ (fun r => ∀ c : Dev nD,
      r.2.mem ((c.tc : Thread nD τ).loc main_v16) = (attnDat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v16 (by decide))).trans (W4_main_v16 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Run

end Cert.KernelIdeal.Fr

end
-- ==== Proof.Spec.lean ====
/-
  The specification of multi-head self-attention over the extended reals, index by index.

  x : [4, 2048, 768], wq : [2304, 768], bq : [2304], wo : [768, 768], bo : [768].
  The projection row (b, s) is  qkv b s e = (sum_d x[b,s,d] wq[e,d]) + bq[e]; head h of batch b reads its
  query, key and value at the columns 192 h + dd, 192 h + 64 + dd, 192 h + 128 + dd. A head's output at
  (s, dd) is a row-attention of the scores  scale (sum_dd q[s,dd] k[k,dd])  against the values v[k,dd];
  the result is (sum_j head[j / 64][s, j % 64] wo[e, j]) + bo[e].

  Two programs are instances of this one function: one multiplies the scores by 1/8 and normalises AFTER
  the weighted sum (attnPost), the other divides the scores by 8 and normalises the weights BEFORE it
  (attnPre). On real-valued rows the two agree (attn_post_eq_pre), because a row's denominator is a
  positive real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev TX : Type := (⟨3, ![4, 2048, 768]⟩ : Shape).Idx → EReal
abbrev TWq : Type := (⟨2, ![2304, 768]⟩ : Shape).Idx → EReal
abbrev TBq : Type := (⟨1, ![2304]⟩ : Shape).Idx → EReal
abbrev TWo : Type := (⟨2, ![768, 768]⟩ : Shape).Idx → EReal
abbrev TBo : Type := (⟨1, ![768]⟩ : Shape).Idx → EReal

/-- Columns of the projection holding head h's query, key and value lane dd. -/
def colQ (h : Fin 12) (dd : Fin 64) : Fin 2304 := ⟨192 * h.val + dd.val, by omega⟩
def colK (h : Fin 12) (dd : Fin 64) : Fin 2304 := ⟨192 * h.val + 64 + dd.val, by omega⟩
def colV (h : Fin 12) (dd : Fin 64) : Fin 2304 := ⟨192 * h.val + 128 + dd.val, by omega⟩
/-- Row of the flattened [8192, .] activations holding (b, s). -/
def rowOf (b : Fin 4) (s : Fin 2048) : Fin 8192 := ⟨2048 * b.val + s.val, by omega⟩
/-- Index of head h of batch b among the 48 (batch, head) pairs. -/
def bhOf (b : Fin 4) (h : Fin 12) : Fin 48 := ⟨12 * b.val + h.val, by omega⟩
/-- A merged feature j = 64 h + dd. -/
def headOf (j : Fin 768) : Fin 12 := ⟨j.val / 64, by omega⟩
def laneOf (j : Fin 768) : Fin 64 := ⟨j.val % 64, Nat.mod_lt _ (by decide)⟩

/-- The projection at row (b, s), column e. -/
def qkv (x : TX) (wq : TWq) (bq : TBq) (b : Fin 4) (s : Fin 2048) (e : Fin 2304) : EReal :=
  (∑ d : Fin 768, x (ix3 b s d) * wq (ix2 e d)) + bq (ix1 e)

/-- A row's maximum, from minus infinity. -/
def rowMax (L : Fin 2048 → EReal) : EReal := (Finset.univ : Finset (Fin 2048)).fold max ⊥ L
/-- The unnormalised weights and their sum. -/
def pexp (L : Fin 2048 → EReal) (k : Fin 2048) : EReal := Ideal.exp (L k - rowMax L)
def den (L : Fin 2048 → EReal) : EReal := ∑ k : Fin 2048, pexp L k

/-- Normalise after the weighted sum: (sum_k p_k v_k) (1 / sum_k p_k). -/
def attnPost (one : EReal) (L v : Fin 2048 → EReal) : EReal := (∑ k : Fin 2048, pexp L k * v k) * Ideal.div one (den L)
/-- Normalise the weights first: sum_k (p_k / sum p) v_k. -/
def attnPre (L v : Fin 2048 → EReal) : EReal := ∑ k : Fin 2048, Ideal.div (pexp L k) (den L) * v k

/-- Head (b, h)'s score row at query position s. -/
def score (scale : EReal → EReal) (x : TX) (wq : TWq) (bq : TBq) (b : Fin 4) (h : Fin 12) (s k : Fin 2048) : EReal :=
  scale (∑ dd : Fin 64, qkv x wq bq b s (colQ h dd) * qkv x wq bq b k (colK h dd))

/-- Head (b, h)'s output at (s, dd). -/
def head (scale : EReal → EReal) (attn : (Fin 2048 → EReal) → (Fin 2048 → EReal) → EReal)
    (x : TX) (wq : TWq) (bq : TBq) (b : Fin 4) (h : Fin 12) (s : Fin 2048) (dd : Fin 64) : EReal :=
  attn (fun k => score scale x wq bq b h s k) (fun k => qkv x wq bq b k (colV h dd))

/-- The block's result at (b, s, e). -/
def out (scale : EReal → EReal) (attn : (Fin 2048 → EReal) → (Fin 2048 → EReal) → EReal)
    (x : TX) (wq : TWq) (bq : TBq) (wo : TWo) (bo : TBo) (b : Fin 4) (s : Fin 2048) (e : Fin 768) : EReal :=
  (∑ j : Fin 768, head scale attn x wq bq b (headOf j) s (laneOf j) * wo (ix2 e j)) + bo (ix1 e)

/-- The two instances. The literals are the f32 words 0.125, 1.0 and 8.0. -/
def scaleMul (y : EReal) : EReal := y * Ideal.ofBits .f32 0x3E000000#32
def scaleDiv (y : EReal) : EReal := Ideal.div y (Ideal.ofBits .f32 0x41000000#32)
def outPost : TX → TWq → TBq → TWo → TBo → Fin 4 → Fin 2048 → Fin 768 → EReal :=
  out scaleMul (attnPost (Ideal.ofBits .f32 0x3F800000#32))
def outPre : TX → TWq → TBq → TWo → TBo → Fin 4 → Fin 2048 → Fin 768 → EReal :=
  out scaleDiv attnPre

end Cert.Spec

end
-- ==== Proof.ValProj.lean ====
/-
  The projection launch's result array at the extended reals, index by index: row 2048 b + s, column e of
  what the sixteen write-backs leave is (sum_d x2d[row, d] wT[d, e]) + bias[e], for whatever the three input
  arrays hold when the launch is entered.
-/
import proofs.«418711_j76373108458020_3_alg».proof.Proof.FrProj
import proofs.«418711_j76373108458020_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Spec

variable (V : (c : Dev nD) → (b : Ref sig .tc) → Buf (Elt Ideal) ((c : Thread nD τ).loc b))

/-- The launch's three input arrays and its result array, at their literal shapes. -/
abbrev pX (c : Dev nD) : S8192x768.Idx → EReal := V c main_v2
abbrev pW (c : Dev nD) : S768x2304.Idx → EReal := V c main_v1
abbrev pB (c : Dev nD) : S2304.Idx → EReal := V c main_arg2
abbrev pRes (c : Dev nD) : S8192x2304.Idx → EReal := (projDat V c).arrAt 3 cfg0.N

/-! ## The block product: one entry of the body's result -/

/-- The product's left operand index at output (r, e) and contraction index q: row r ... -/
theorem projDot_lhs_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
/-- ... column q; -/
theorem projDot_lhs_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- the right operand's: row q ... -/
theorem projDot_rhs_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
/-- ... column e. -/
theorem projDot_rhs_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The 512 x 768 by 768 x 2304 product into a zero accumulator, at (r, e): the sum over the 768 shared coordinates. -/
theorem projDot_apply (x : FVec Ideal S512x768 .bf16) (w : FVec Ideal S768x2304 .bf16) (r : Fin 512) (e : Fin 2304) :
    matmul (F := Ideal) dot_S512x768_S768x2304_S512x2304_1_0_0_1_n_n none x w (constant S512x2304 .f32 0x00000000#32) (ix2 r e)
      = ∑ d : Fin 768, x (ix2 r d) * w (ix2 d e) := by
  refine (Ideal.matmul_constant_zero_apply dot_S512x768_S768x2304_S512x2304_1_0_0_1_n_n none x w (ix2 r e)).trans ?_
  rw [← Equiv.sum_comp (ValueIdx.contrEquiv1 dot_S512x768_S768x2304_S512x2304_1_0_0_1_n_n 768 rfl rfl).symm]
  refine Finset.sum_congr rfl fun k _ => ?_
  have hk := ValueIdx.contrEquiv1_symm_val dot_S512x768_S768x2304_S512x2304_1_0_0_1_n_n 768 rfl rfl k
  have el : dot_S512x768_S768x2304_S512x2304_1_0_0_1_n_n.lhsIdx (ix2 r e) ((ValueIdx.contrEquiv1 dot_S512x768_S768x2304_S512x2304_1_0_0_1_n_n 768 rfl rfl).symm k) = ix2 r k := funext fun a => Fin.ext (by
    match a with
    | ⟨0, _⟩ => exact projDot_lhs_0 _ _
    | ⟨1, _⟩ => exact (projDot_lhs_1 _ _).trans hk)
  have er : dot_S512x768_S768x2304_S512x2304_1_0_0_1_n_n.rhsIdx (ix2 r e) ((ValueIdx.contrEquiv1 dot_S512x768_S768x2304_S512x2304_1_0_0_1_n_n 768 rfl rfl).symm k) = ix2 k e := funext fun a => Fin.ext (by
    match a with
    | ⟨0, _⟩ => exact (projDot_rhs_0 _ _).trans hk
    | ⟨1, _⟩ => exact projDot_rhs_1 _ _)
  rw [el, er]

/-- The bias, viewed as one row and repeated over the 512 rows, at (r, e): its entry e. -/
theorem projBias_apply (b : FVec Ideal S2304 .f32) (r : Fin 512) (e : Fin 2304) :
    broadcastTo S512x2304 (shapeCast S1x2304 b shapeCasts_S2304_S1x2304) broadcasts_S1x2304_S512x2304 (ix2 r e) = b (ix1 e) :=
  (broadcastTo_1b_ab_apply (shapeCast S1x2304 b shapeCasts_S2304_S1x2304) broadcasts_S1x2304_S512x2304 r e).trans
    (shapeCast_a_1a_apply b shapeCasts_S2304_S1x2304 (0 : Fin 1) e)

/-- The body's arithmetic at (r, e): row r of the activation block against column e of the weight, plus the bias at e
    (the changes of float format are the identity on the extended reals). -/
theorem projPay_apply (x : Vec Ideal S512x768 .f32) (w : Vec Ideal S768x2304 .bf16) (b : Vec Ideal S2304 .f32)
    (r : Fin 512) (e : Fin 2304) :
    k0_pay1 (F := Ideal) x w b (ix2 r e) = (∑ d : Fin 768, x (ix2 r d) * w (ix2 d e)) + b (ix1 e) := by
  unfold k0_pay1
  simp only [shapeCast_self]
  refine (truncf_apply (φ := .f32) (ψ := .bf16) _ bitsLt_bf16_f32 (ix2 r e)).trans ?_
  refine (addf_apply _ _ (ix2 r e)).trans ?_
  refine congrArg₂ (· + ·) ?_ (projBias_apply b r e)
  refine (projDot_apply (truncf .bf16 x bitsLt_bf16_f32) w r e).trans ?_
  exact Finset.sum_congr rfl fun d _ => congrArg (· * w (ix2 d e)) (truncf_apply (φ := .f32) (ψ := .bf16) x bitsLt_bf16_f32 (ix2 r d))

/-! ## What the body leaves in the result block -/

theorem zeros2 : (![0, 0] : Fin 2 → Nat) = fun _ => 0 := funext fun a => by fin_cases a <;> rfl
theorem zeros1 : (![0] : Fin 1 → Nat) = fun _ => 0 := funext fun a => by fin_cases a; rfl

/-- The result block after the body, at (r, e): its one store covers the block, its three loads read whole buffers. -/
theorem projLeft_apply (x : Vec Ideal S512x768 .f32) (w : Vec Ideal S768x2304 .bf16) (b : Vec Ideal S2304 .f32)
    (r : Fin 512) (e : Fin 2304) :
    projLeft (F := Ideal) x w b (ix2 r e) = (∑ d : Fin 768, x (ix2 r d) * w (ix2 d e)) + b (ix1 e) := by
  unfold projLeft
  rw [View.canon_unit_zero zeros2]
  simp only [View.ld_unit_zero (S := S512x768) zeros2, View.ld_unit_zero (S := S768x2304) zeros2,
    View.ld_unit_zero (S := S2304) zeros1]
  exact projPay_apply x w b r e

/-! ## From the sixteen blocks to the array -/

/-- The projection as ONE function of the three arrays: entry (r, e) is row r of the activations against column e
    of the weight, plus the bias at e. -/
def projArr (c : Dev nD) : S8192x2304.Idx → EReal := fun i =>
  (∑ d : Fin 768, pX V c (ix2 (⟨(i 0).val, idx2_lt0 i⟩ : Fin 8192) d) * pW V c (ix2 d (⟨(i 1).val, idx2_lt1 i⟩ : Fin 2304)))
    + pB V c (ix1 (⟨(i 1).val, idx2_lt1 i⟩ : Fin 2304))

theorem projArr_apply (c : Dev nD) (r : Fin 8192) (e : Fin 2304) :
    projArr V c (ix2 r e) = (∑ d : Fin 768, pX V c (ix2 r d) * pW V c (ix2 d e)) + pB V c (ix1 e) := rfl

/-- The windows' block indices at grid point t: the activations and the result move down one block of rows per
    point; the weight and the bias stay. -/
theorem proj_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The three input blocks at point t, at their literal shapes. -/
abbrev xBlk (c : Dev nD) (t : Fin cfg0.N) : Vec Ideal S512x768 .f32 := projBlk V c 0 t
abbrev wBlk (c : Dev nD) (t : Fin cfg0.N) : Vec Ideal S768x2304 .bf16 := projBlk V c 1 t
abbrev bBlk (c : Dev nD) (t : Fin cfg0.N) : Vec Ideal S2304 .f32 := projBlk V c 2 t

/-- The activation block at point t is rows 512 t .. 512 t + 511 of the array. -/
theorem blkX_apply (c : Dev nD) (t : Fin cfg0.N) (p : Fin 512) (d : Fin 768) (r : Fin 8192)
    (hr : r.val = 512 * t.val + p.val) :
    xBlk V c t (ix2 p d) = pX V c (ix2 r d) := by
  obtain ⟨e0, e1, -⟩ := proj_block_index t
  unfold xBlk projBlk
  rw [View.read_apply]
  show V c main_v2 (((cfg0.win 0).blk t).view.emb (ix2 p d)) = V c main_v2 (ix2 r d)
  refine congrArg (V c main_v2) (funext fun a => Fin.ext ?_)
  match a with
  | ⟨0, _⟩ => show win0_0.index t (0 : Fin 2) * 512 + 1 * p.val = r.val; omega
  | ⟨1, _⟩ => show win0_0.index t (1 : Fin 2) * 768 + 1 * d.val = d.val; omega

/-- The weight block at every point is the whole weight. -/
theorem blkW_apply (c : Dev nD) (t : Fin cfg0.N) (d : Fin 768) (e : Fin 2304) :
    wBlk V c t (ix2 d e) = pW V c (ix2 d e) := by
  obtain ⟨-, -, e2, e3, -⟩ := proj_block_index t
  unfold wBlk projBlk
  rw [View.read_apply]
  show V c main_v1 (((cfg0.win 1).blk t).view.emb (ix2 d e)) = V c main_v1 (ix2 d e)
  refine congrArg (V c main_v1) (funext fun a => Fin.ext ?_)
  match a with
  | ⟨0, _⟩ => show win0_1.index t (0 : Fin 2) * 768 + 1 * d.val = d.val; omega
  | ⟨1, _⟩ => show win0_1.index t (1 : Fin 2) * 2304 + 1 * e.val = e.val; omega

/-- The bias block at every point is the whole bias. -/
theorem blkB_apply (c : Dev nD) (t : Fin cfg0.N) (e : Fin 2304) :
    bBlk V c t (ix1 e) = pB V c (ix1 e) := by
  obtain ⟨-, -, -, -, e4, -⟩ := proj_block_index t
  unfold bBlk projBlk
  rw [View.read_apply]
  show V c main_arg2 (((cfg0.win 2).blk t).view.emb (ix1 e)) = V c main_arg2 (ix1 e)
  refine congrArg (V c main_arg2) (funext fun a => Fin.ext ?_)
  match a with
  | ⟨0, _⟩ => show win0_2.index t (0 : Fin 1) * 2304 + 1 * e.val = e.val; omega

/-- What point t writes back is block t of projArr: the result block's entry (p, e) is computed from row p of the
    activation block, which is row 512 t + p of the array, where the result block's own entry lands. -/
theorem proj_flushed (c : Dev nD) (t : Fin cfg0.N) :
    (projDat V c).flushed 3 t = ((cfg0.win 3).blk t).view.read (Elt Ideal) (projArr V c) := by
  obtain ⟨-, -, -, -, -, e5, e6⟩ := proj_block_index t
  show (cfg0.win 3).cut (grid0.coords t) ((projDat V c).after 3 t) = _
  rw [projAfter3]
  funext y
  obtain ⟨p, e, rfl⟩ : ∃ (p : Fin 512) (e : Fin 2304), y = ix2 p e := ⟨y 0, y 1, eq_ix2 y⟩
  rw [View.read_apply]
  have hrow : 512 * t.val + p.val < 8192 := by
    have ht : t.val < cfg0.N := t.isLt
    have hN : cfg0.N = 16 := N_0
    have hp : p.val < 512 := p.isLt
    omega
  have hemb : ((cfg0.win 3).blk t).view.emb (ix2 p e) = ix2 (⟨512 * t.val + p.val, hrow⟩ : Fin 8192) e := by
    funext a; apply Fin.ext
    match a with
    | ⟨0, _⟩ => show win0_3.index t (0 : Fin 2) * 512 + 1 * p.val = 512 * t.val + p.val; omega
    | ⟨1, _⟩ => show win0_3.index t (1 : Fin 2) * 2304 + 1 * e.val = e.val; omega
  rw [hemb]
  refine (projLeft_apply (xBlk V c t) (wBlk V c t) (bBlk V c t) p e).trans ?_
  refine Eq.trans ?_ (projArr_apply V c ⟨512 * t.val + p.val, hrow⟩ e).symm
  refine congrArg₂ (· + ·) (Finset.sum_congr rfl fun d _ => ?_) (blkB_apply V c t e)
  exact congrArg₂ (· * ·) (blkX_apply V c t p d ⟨512 * t.val + p.val, hrow⟩ rfl) (blkW_apply V c t d e)

/-- An index of the result array is in point t's block iff each coordinate is in the block's range on its axis. -/
theorem proj_mem_blk (t : Fin cfg0.N) (i : S8192x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v3).slice (win0_3.rect t)).set ↔ _
  rw [View.set_slice_whole, Rect.mem_set_unit]
  exact Iff.rfl

/-- Row r of the result array lies in the block of point r / 512. -/
theorem proj_cover (i : S8192x2304.Idx) :
    ∃ t : Fin cfg0.N, (cfg0.win 3).flush t = true ∧ i ∈ ((cfg0.win 3).blk t).view.set := by
  have hi0 : (i 0).val < 8192 := idx2_lt0 i
  have hi1 : (i 1).val < 2304 := idx2_lt1 i
  have hN : cfg0.N = 16 := N_0
  refine ⟨⟨(i 0).val / 512, by rw [hN]; omega⟩, flush0_3 _, ?_⟩
  obtain ⟨-, -, -, -, -, e5, e6⟩ := proj_block_index ⟨(i 0).val / 512, by rw [hN]; omega⟩
  rw [proj_mem_blk]
  intro a
  match a with
  | ⟨0, _⟩ =>
    show win0_3.index _ (0 : Fin 2) * 512 ≤ (i 0).val ∧ (i 0).val < win0_3.index _ (0 : Fin 2) * 512 + 512
    rw [e5]; show (i 0).val / 512 * 512 ≤ (i 0).val ∧ (i 0).val < (i 0).val / 512 * 512 + 512; omega
  | ⟨1, _⟩ =>
    show win0_3.index _ (1 : Fin 2) * 2304 ≤ (i 1).val ∧ (i 1).val < win0_3.index _ (1 : Fin 2) * 2304 + 2304
    rw [e6]; omega

/-- The result array after the sixteen write-backs is projArr. -/
theorem proj_final (c : Dev nD) : pRes V c = projArr V c :=
  (projDat V c).arrAt_eq_of_cover 3 (projArr V c) (fun t _ => proj_flushed V c t) proj_cover

/-- The projection launch's result at (row (b, s), column e). -/
theorem proj_value (c : Dev nD) (b : Fin 4) (s : Fin 2048) (e : Fin 2304) :
    pRes V c (ix2 (rowOf b s) e)
      = (∑ d : Fin 768, pX V c (ix2 (rowOf b s) d) * pW V c (ix2 d e)) + pB V c (ix1 e) := by
  rw [proj_final]
  exact projArr_apply V c (rowOf b s) e

end Cert.KernelIdeal.Val

end
-- ==== Proof.ValHost.lean ====
/-
  The host lines of the kernel program read at an index, at the extended reals, over any contents W of the
  buffers they start from. Before the projection launch: the activations flattened to [8192, 768] and the
  projection weight transposed. Between the launches: the projection's [8192, 2304] result split into the
  twelve heads' query, key and value [48, 2048, 64] arrays (head h of batch b is entry 12 b + h; its lanes are
  columns 192 h + dd, + 64, + 128), and the output weight transposed.
-/
import proofs.«418711_j76373108458020_3_alg».proof.Proof.Gen.KernelIdeal.Launch
import proofs.«418711_j76373108458020_3_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (W : Valuation τ sig (Elt Ideal))

/-! ## The layout operations of the host lines, each read at an index -/

section Ops
variable {α : Type}

/-- The two leading axes flattened row-major: row 2048 b + s of the [8192, 768] array is (b, s). -/
theorem host_flat_read (x : S4x2048x768.Idx → α) (b : Fin 4) (s : Fin 2048) (d : Fin 768) :
    shapeCast S8192x768 x shapeCasts_S4x2048x768_S8192x768 (ix2 (rowOf b s) d) = x (ix3 b s d) :=
  shapeCast_apply x shapeCasts_S4x2048x768_S8192x768 _ _ (by
    rw [Shape.rowMajor_val_three, Shape.rowMajor_val_two]
    show (b.val * 2048 + s.val) * 768 + d.val = (2048 * b.val + s.val) * 768 + d.val
    omega)

/-- A row of 2304 columns split into twelve groups of 192: group h, lane e is column 192 h + e. -/
theorem host_split_read (x : S8192x2304.Idx → α) (b : Fin 4) (s : Fin 2048) (h : Fin 12) (e : Fin 192) :
    shapeCast S4x2048x12x192 x shapeCasts_S8192x2304_S4x2048x12x192 (ix4 b s h e)
      = x (ix2 (rowOf b s) (⟨192 * h.val + e.val, by omega⟩ : Fin 2304)) :=
  shapeCast_apply x shapeCasts_S8192x2304_S4x2048x12x192 _ _ (by
    rw [Shape.rowMajor_val_two, Shape.rowMajor_val_four]
    show (2048 * b.val + s.val) * 2304 + (192 * h.val + e.val) = ((b.val * 2048 + s.val) * 12 + h.val) * 192 + e.val
    omega)

/-- The last axis sliced at offset o: lane dd of the slice is lane o + dd of the operand. -/
theorem host_slice_read (o : Nat) (ho : o + 64 ≤ 192) (x : S4x2048x12x192.Idx → α)
    (hs : S4x2048x12x192.Slices ![0, 0, 0, o] S4x2048x12x64) (b : Fin 4) (s : Fin 2048) (h : Fin 12) (dd : Fin 64) :
    extractStridedSlice S4x2048x12x64 ![0, 0, 0, o] x hs (ix4 b s h dd)
      = x (ix4 b s h (⟨o + dd.val, by omega⟩ : Fin 192)) :=
  extractStridedSlice_apply _ x hs _ _ (fun a => match a with
    | ⟨0, _⟩ => by show b.val = 0 + b.val; omega
    | ⟨1, _⟩ => by show s.val = 0 + s.val; omega
    | ⟨2, _⟩ => by show h.val = 0 + h.val; omega
    | ⟨3, _⟩ => by show o + dd.val = o + dd.val; rfl)

/-- The two middle axes exchanged. -/
theorem host_swap_read (x : S4x2048x12x64.Idx → α) (b : Fin 4) (h : Fin 12) (s : Fin 2048) (dd : Fin 64) :
    transpose S4x12x2048x64 [0, 2, 1, 3] x transposes_S4x2048x12x64_S4x12x2048x64_0_2_1_3 (ix4 b h s dd)
      = x (ix4 b s h dd) :=
  transpose_apply _ x transposes_S4x2048x12x64_S4x12x2048x64_0_2_1_3 _ _ (fun c => match c with
    | ⟨0, _⟩ => rfl | ⟨1, _⟩ => rfl | ⟨2, _⟩ => rfl | ⟨3, _⟩ => rfl)

/-- Batch and head merged row-major: entry 12 b + h of the 48 is (b, h). -/
theorem host_merge_read (x : S4x12x2048x64.Idx → α) (b : Fin 4) (h : Fin 12) (s : Fin 2048) (dd : Fin 64) :
    shapeCast S48x2048x64 x shapeCasts_S4x12x2048x64_S48x2048x64 (ix3 (bhOf b h) s dd) = x (ix4 b h s dd) :=
  shapeCast_apply x shapeCasts_S4x12x2048x64_S48x2048x64 _ _ (by
    rw [Shape.rowMajor_val_four, Shape.rowMajor_val_three]
    show ((b.val * 12 + h.val) * 2048 + s.val) * 64 + dd.val = ((12 * b.val + h.val) * 2048 + s.val) * 64 + dd.val
    omega)

end Ops

/-- The buffers the first host lines read and write, at their literal shapes. -/
abbrev h0X : S4x2048x768.Idx → EReal := W (Proc.devRef .tc main_arg0)
abbrev h0Wq : S2304x768.Idx → EReal := W (Proc.devRef .tc main_arg1)
abbrev h0X2d : S8192x768.Idx → EReal := StableHlo.after (hostOps0 (F := Ideal)) W (Proc.devRef .tc main_v2)
abbrev h0WT : S768x2304.Idx → EReal := StableHlo.after (hostOps0 (F := Ideal)) W (Proc.devRef .tc main_v1)

/-- The flattened activations as the operations' term. -/
theorem h0X2d_eq : h0X2d W = shapeCast S8192x768 (h0X W) shapeCasts_S4x2048x768_S8192x768 := by
  show (StableHlo.after (hostOps0 (F := Ideal)) W (Proc.devRef .tc main_v2) : S8192x768.Idx → EReal) = _
  simp only [Gen.hostOps0]
  after_results <;> rfl

/-- The projection weight transposed, then narrowed (the identity at the extended reals). -/
theorem h0WT_eq : h0WT W = (truncf .bf16 (transpose S768x2304 [1, 0] (h0Wq W) transposes_S2304x768_S768x2304_1_0 :
    FVec Ideal S768x2304 .f32) bitsLt_bf16_f32 : FVec Ideal S768x2304 .bf16) := by
  show (StableHlo.after (hostOps0 (F := Ideal)) W (Proc.devRef .tc main_v1) : S768x2304.Idx → EReal) = _
  simp only [Gen.hostOps0]
  after_results <;> rfl

theorem host0_x2d (b : Fin 4) (s : Fin 2048) (d : Fin 768) : h0X2d W (ix2 (rowOf b s) d) = h0X W (ix3 b s d) :=
  (congrFun (h0X2d_eq W) _).trans (host_flat_read (h0X W) b s d)
theorem host0_wT (d : Fin 768) (e : Fin 2304) : h0WT W (ix2 d e) = h0Wq W (ix2 e d) :=
  (congrFun (h0WT_eq W) _).trans (transpose_ix2_apply (h0Wq W) transposes_S2304x768_S768x2304_1_0 d e)

/-- The buffers the lines between the launches read and write. -/
abbrev h1P : S8192x2304.Idx → EReal := W (Proc.devRef .tc main_v3)
abbrev h1Wo : S768x768.Idx → EReal := W (Proc.devRef .tc main_arg3)
abbrev h1Q : S48x2048x64.Idx → EReal := StableHlo.after (hostOps1 (F := Ideal)) W (Proc.devRef .tc main_v9)
abbrev h1K : S48x2048x64.Idx → EReal := StableHlo.after (hostOps1 (F := Ideal)) W (Proc.devRef .tc main_v11)
abbrev h1V : S48x2048x64.Idx → EReal := StableHlo.after (hostOps1 (F := Ideal)) W (Proc.devRef .tc main_v13)
abbrev h1WoT : S768x768.Idx → EReal := StableHlo.after (hostOps1 (F := Ideal)) W (Proc.devRef .tc main_v15)

/-- One of the three [48, 2048, 64] arrays as a term over the projection: split the columns, slice the lanes at
    offset o, exchange the position and head axes, merge batch and head. -/
abbrev hostPart (o : Nat) (hs : S4x2048x12x192.Slices ![0, 0, 0, o] S4x2048x12x64) (P : S8192x2304.Idx → EReal) :
    S48x2048x64.Idx → EReal :=
  shapeCast S48x2048x64
    (transpose S4x12x2048x64 [0, 2, 1, 3]
      (extractStridedSlice S4x2048x12x64 ![0, 0, 0, o]
        (shapeCast S4x2048x12x192 P shapeCasts_S8192x2304_S4x2048x12x192) hs)
      transposes_S4x2048x12x64_S4x12x2048x64_0_2_1_3)
    shapeCasts_S4x12x2048x64_S48x2048x64

/-- Entry (12 b + h, s, dd) of such an array is the projection's row 2048 b + s at column 192 h + o + dd. -/
theorem hostPart_read (o : Nat) (ho : o + 64 ≤ 192) (hs : S4x2048x12x192.Slices ![0, 0, 0, o] S4x2048x12x64)
    (P : S8192x2304.Idx → EReal) (b : Fin 4) (h : Fin 12) (s : Fin 2048) (dd : Fin 64) :
    hostPart o hs P (ix3 (bhOf b h) s dd)
      = P (ix2 (rowOf b s) (⟨192 * h.val + (o + dd.val), by omega⟩ : Fin 2304)) := by
  refine (host_merge_read _ b h s dd).trans ?_
  refine (host_swap_read _ b h s dd).trans ?_
  refine (host_slice_read o ho _ hs b s h dd).trans ?_
  exact host_split_read P b s h _

theorem h1Q_eq : h1Q W = hostPart 0 slices_S4x2048x12x192_S4x2048x12x64_0_0_0_0 (h1P W) := by
  show (StableHlo.after (hostOps1 (F := Ideal)) W (Proc.devRef .tc main_v9) : S48x2048x64.Idx → EReal) = _
  simp only [Gen.hostOps1]
  after_results <;> rfl
theorem h1K_eq : h1K W = hostPart 64 slices_S4x2048x12x192_S4x2048x12x64_0_0_0_64 (h1P W) := by
  show (StableHlo.after (hostOps1 (F := Ideal)) W (Proc.devRef .tc main_v11) : S48x2048x64.Idx → EReal) = _
  simp only [Gen.hostOps1]
  after_results <;> rfl
theorem h1V_eq : h1V W = hostPart 128 slices_S4x2048x12x192_S4x2048x12x64_0_0_0_128 (h1P W) := by
  show (StableHlo.after (hostOps1 (F := Ideal)) W (Proc.devRef .tc main_v13) : S48x2048x64.Idx → EReal) = _
  simp only [Gen.hostOps1]
  after_results <;> rfl
/-- The output weight transposed, then narrowed (the identity at the extended reals). -/
theorem h1WoT_eq : h1WoT W = (truncf .bf16 (transpose S768x768 [1, 0] (h1Wo W) transposes_S768x768_S768x768_1_0 :
    FVec Ideal S768x768 .f32) bitsLt_bf16_f32 : FVec Ideal S768x768 .bf16) := by
  show (StableHlo.after (hostOps1 (F := Ideal)) W (Proc.devRef .tc main_v15) : S768x768.Idx → EReal) = _
  simp only [Gen.hostOps1]
  after_results <;> rfl

theorem host1_q (b : Fin 4) (h : Fin 12) (s : Fin 2048) (dd : Fin 64) :
    h1Q W (ix3 (bhOf b h) s dd) = h1P W (ix2 (rowOf b s) (colQ h dd)) := by
  refine (congrFun (h1Q_eq W) _).trans ?_
  refine (hostPart_read 0 (by omega) _ (h1P W) b h s dd).trans ?_
  exact congrArg (fun c : Fin 2304 => h1P W (ix2 (rowOf b s) c)) (Fin.ext (by show 192 * h.val + (0 + dd.val) = 192 * h.val + dd.val; omega))
theorem host1_k (b : Fin 4) (h : Fin 12) (s : Fin 2048) (dd : Fin 64) :
    h1K W (ix3 (bhOf b h) s dd) = h1P W (ix2 (rowOf b s) (colK h dd)) := by
  refine (congrFun (h1K_eq W) _).trans ?_
  refine (hostPart_read 64 (by omega) _ (h1P W) b h s dd).trans ?_
  exact congrArg (fun c : Fin 2304 => h1P W (ix2 (rowOf b s) c)) (Fin.ext (by show 192 * h.val + (64 + dd.val) = 192 * h.val + 64 + dd.val; omega))
theorem host1_v (b : Fin 4) (h : Fin 12) (s : Fin 2048) (dd : Fin 64) :
    h1V W (ix3 (bhOf b h) s dd) = h1P W (ix2 (rowOf b s) (colV h dd)) := by
  refine (congrFun (h1V_eq W) _).trans ?_
  refine (hostPart_read 128 (by omega) _ (h1P W) b h s dd).trans ?_
  exact congrArg (fun c : Fin 2304 => h1P W (ix2 (rowOf b s) c)) (Fin.ext (by show 192 * h.val + (128 + dd.val) = 192 * h.val + 128 + dd.val; omega))
theorem host1_woT (j e : Fin 768) : h1WoT W (ix2 j e) = h1Wo W (ix2 e j) := by
  exact (congrFun (h1WoT_eq W) _).trans (transpose_ix2_apply (h1Wo W) transposes_S768x768_S768x768_1_0 j e)

end Cert.KernelIdeal.Val

end
-- ==== Proof.ValPair.lean ====
/-
  The attention body's two stored values read at an index, at the extended reals, as functions of the blocks
  the body loads.

  The pair's slab (512 x 128): column 64 a + dd of row r is head a's output at (r, dd) - the exponentials of the
  scaled scores minus their row maximum, weighted against the value column, times one over their sum.
  The projected result (1 x 512 x 768): entry (0, r, e) is (sum_j S[r, j] woT[j, e]) + bo[e].
-/
import proofs.«418711_j76373108458020_3_alg».proof.Proof.FrAttnBody
import proofs.«418711_j76373108458020_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Spec

/-! ## The keepdims column forms -/

/-- An `[a]` array cast to `[a, 1]` reads, at `(i, u)`, the operand at `i`. -/
theorem pair_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem pair_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and a row's sum -/

/-- The word of minus infinity reads the bottom of the extended reals. -/
theorem pair_ofBits_neg_inf : Ideal.ofBits .f32 0xFF800000#32 = (⊥ : EReal) := by simp [Ideal.ofBits, Ideal.ieee]

/-- The source index over row `r` with column `kk` inserted is `(r, kk)`. -/
theorem pair_lift_row (h : S512x2048.Reduces [1] S512) (r : Fin 512) (kk : Fin 2048) : h.lift (ix1 r) kk = ix2 r kk := by
  funext c; apply Fin.ext
  match c with
  | ⟨0, _⟩ => rfl
  | ⟨1, _⟩ => rfl

/-- The maximum-reduction of a 512 x 2048 block along its columns, from minus infinity, reads at row `r` the row's maximum. -/
theorem pair_rowMax_read (s : FVec Ideal S512x2048 .f32) (h : S512x2048.Reduces [1] S512) (hφ : FKind.Formats .f32)
    (hacc : (0xFF800000#32 : BitVec 32) = 0xFF800000#32) (r : Fin 512) :
    multiReduction .maximumf [1] S512 s 0xFF800000#32 h hφ hacc (ix1 r) = rowMax (fun kk => s (ix2 r kk)) := by
  refine (Ideal.multiReduction_maximumf_single s 0xFF800000#32 h hφ hacc (ix1 r)).trans ?_
  unfold rowMax
  show (Finset.univ : Finset (Fin 2048)).fold max (Ideal.ofBits .f32 0xFF800000#32) (s ∘ h.lift (ix1 r)) = _
  rw [pair_ofBits_neg_inf]
  exact congrArg (fun f : Fin 2048 → EReal => (Finset.univ : Finset (Fin 2048)).fold max ⊥ f)
    (funext fun kk => congrArg s (pair_lift_row h r kk))

/-- The sum-reduction of a 512 x 2048 block along its columns reads at row `r` the row's sum. -/
theorem pair_rowSum_read (s : FVec Ideal S512x2048 .f32) (h : S512x2048.Reduces [1] S512) (hφ : FKind.Formats .f32)
    (hacc : (0x00000000#32 : BitVec 32) = 0x00000000#32) (r : Fin 512) :
    multiReduction .add [1] S512 s 0x00000000#32 h hφ hacc (ix1 r) = ∑ kk : Fin 2048, s (ix2 r kk) := by
  refine (Ideal.multiReduction_add_single s 0x00000000#32 h hφ hacc (ix1 r)).trans ?_
  exact Finset.sum_congr rfl fun kk _ => congrArg s (pair_lift_row h r kk)

/-! ## The three products: each entry is the sum over the one contracted axis -/

theorem pair_qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem pair_qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem pair_qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem pair_qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
/-- The query block against the key block, both contracted along their 64 lanes: entry (r, kk) is the inner product of query row r and key row kk. -/
theorem pair_qk_apply (qh : FVec Ideal S512x64 .bf16) (kh : FVec Ideal S2048x64 .bf16) (r : Fin 512) (kk : Fin 2048) :
    matmul dot_S512x64_S2048x64_S512x2048_1_1_0_0_n_n none qh kh (constant (F := Ideal) S512x2048 .f32 0x00000000#32) (ix2 r kk)
      = ∑ d' : Fin 64, qh (ix2 r d') * kh (ix2 kk d') := by
  refine (Ideal.matmul_constant_zero_apply dot_S512x64_S2048x64_S512x2048_1_1_0_0_n_n none qh kh (ix2 r kk)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r kk) ((contrEquiv1 dot_S512x64_S2048x64_S512x2048_1_1_0_0_n_n 64 rfl rfl).symm k) = ix2 r k := funext fun a => Fin.ext (by
    match a with
    | ⟨0, _⟩ => exact pair_qk_lhs_0 _ _
    | ⟨1, _⟩ => exact (pair_qk_lhs_1 _ _).trans hk)
  have er : dot_S512x64_S2048x64_S512x2048_1_1_0_0_n_n.rhsIdx (ix2 r kk) ((contrEquiv1 dot_S512x64_S2048x64_S512x2048_1_1_0_0_n_n 64 rfl rfl).symm k) = ix2 kk k := funext fun a => Fin.ext (by
    match a with
    | ⟨0, _⟩ => exact pair_qk_rhs_0 _ _
    | ⟨1, _⟩ => exact (pair_qk_rhs_1 _ _).trans hk)
  rw [el, er]

theorem pair_pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pair_pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pair_pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pair_pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
/-- The weights against the value block: entry (r, dd) is the sum over the 2048 key positions of weight (r, kk) times value (kk, dd). -/
theorem pair_pv_apply (p : FVec Ideal S512x2048 .bf16) (vh : FVec Ideal S2048x64 .bf16) (r : Fin 512) (dd : Fin 64) :
    matmul dot_S512x2048_S2048x64_S512x64_1_0_0_1_n_n none p vh (constant (F := Ideal) S512x64 .f32 0x00000000#32) (ix2 r dd)
      = ∑ kk : Fin 2048, p (ix2 r kk) * vh (ix2 kk dd) := by
  refine (Ideal.matmul_constant_zero_apply dot_S512x2048_S2048x64_S512x64_1_0_0_1_n_n none p vh (ix2 r dd)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r dd) ((contrEquiv1 dot_S512x2048_S2048x64_S512x64_1_0_0_1_n_n 2048 rfl rfl).symm k) = ix2 r k := funext fun a => Fin.ext (by
    match a with
    | ⟨0, _⟩ => exact pair_pv_lhs_0 _ _
    | ⟨1, _⟩ => exact (pair_pv_lhs_1 _ _).trans hk)
  have er : dot_S512x2048_S2048x64_S512x64_1_0_0_1_n_n.rhsIdx (ix2 r dd) ((contrEquiv1 dot_S512x2048_S2048x64_S512x64_1_0_0_1_n_n 2048 rfl rfl).symm k) = ix2 k dd := funext fun a => Fin.ext (by
    match a with
    | ⟨0, _⟩ => exact (pair_pv_rhs_0 _ _).trans hk
    | ⟨1, _⟩ => exact pair_pv_rhs_1 _ _)
  rw [el, er]

theorem res_dot_lhs_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem res_dot_lhs_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
theorem res_dot_rhs_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
theorem res_dot_rhs_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl
/-- The merged heads against the output weight: entry (r, e) is the sum over the 768 merged features of S (r, j) times w (j, e). -/
theorem res_dot_apply (S : FVec Ideal S512x768 .bf16) (w : FVec Ideal S768x768 .bf16) (r : Fin 512) (e : Fin 768) :
    matmul dot_S512x768_S768x768_S512x768_1_0_0_1_n_n none S w (constant (F := Ideal) S512x768 .f32 0x00000000#32) (ix2 r e)
      = ∑ j : Fin 768, S (ix2 r j) * w (ix2 j e) := by
  refine (Ideal.matmul_constant_zero_apply dot_S512x768_S768x768_S512x768_1_0_0_1_n_n none S w (ix2 r e)).trans ?_
  rw [← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 r e) ((contrEquiv1 dot_S512x768_S768x768_S512x768_1_0_0_1_n_n 768 rfl rfl).symm k) = ix2 r k := funext fun a => Fin.ext (by
    match a with
    | ⟨0, _⟩ => exact res_dot_lhs_0 _ _
    | ⟨1, _⟩ => exact (res_dot_lhs_1 _ _).trans hk)
  have er : dot_S512x768_S768x768_S512x768_1_0_0_1_n_n.rhsIdx (ix2 r e) ((contrEquiv1 dot_S512x768_S768x768_S512x768_1_0_0_1_n_n 768 rfl rfl).symm k) = ix2 k e := funext fun a => Fin.ext (by
    match a with
    | ⟨0, _⟩ => exact (res_dot_rhs_0 _ _).trans hk
    | ⟨1, _⟩ => exact res_dot_rhs_1 _ _)
  rw [el, er]

/-! ## One head: from scaled scores to its output -/

/-- What either head does with its 512 x 2048 block `s` of scaled scores and its 2048 x 64 value block `vh`: the rows'
    maxima from minus infinity, the exponentials of the differences, their row sums, the exponentials against the values,
    and that times one over the row sum. -/
def pair_softTail (s : FVec Ideal S512x2048 .f32) (vh : FVec Ideal S2048x64 .bf16) : FVec Ideal S512x64 .bf16 :=
  have m : FVec Ideal S512 .f32 := multiReduction .maximumf [1] S512 s 0xFF800000#32 reduces_S512x2048_S512 (.inl rfl) rfl
  have mc : FVec Ideal S512x1 .f32 := shapeCast S512x1 m shapeCasts_S512_S512x1
  have mb : FVec Ideal S512x2048 .f32 := broadcastTo S512x2048 mc broadcasts_S512x1_S512x2048
  have d : FVec Ideal S512x2048 .f32 := subf s mb
  have p : FVec Ideal S512x2048 .f32 := exp d
  have z : FVec Ideal S512 .f32 := multiReduction .add [1] S512 p 0x00000000#32 reduces_S512x2048_S512 (.inl rfl) rfl
  have zc : FVec Ideal S512x1 .f32 := shapeCast S512x1 z shapeCasts_S512_S512x1
  have one : Ideal .f32 := Scalar.ofBits .f32 0x3F800000#32
  have oc : FVec Ideal S512x1 .f32 := broadcast S512x1 one
  have rc : FVec Ideal S512x1 .f32 := divf oc zc
  have pt : FVec Ideal S512x2048 .bf16 := truncf .bf16 p bitsLt_bf16_f32
  have zero : FVec Ideal S512x64 .f32 := constant S512x64 .f32 0x00000000#32
  have pv : FVec Ideal S512x64 .f32 := matmul dot_S512x2048_S2048x64_S512x64_1_0_0_1_n_n none pt vh zero
  have rb : FVec Ideal S512x64 .f32 := broadcastTo S512x64 rc broadcasts_S512x1_S512x64
  have o : FVec Ideal S512x64 .f32 := mulf pv rb
  have ot : FVec Ideal S512x64 .bf16 := truncf .bf16 o bitsLt_bf16_f32
  ot

/-- The exponential of a score less its row's maximum, read at (r, kk). -/
theorem pair_expRow_apply (s : FVec Ideal S512x2048 .f32) (hr : S512x2048.Reduces [1] S512) (hφ : FKind.Formats .f32)
    (hacc : (0xFF800000#32 : BitVec 32) = 0xFF800000#32) (hc : S512.ShapeCasts S512x1) (hb : S512x1.Broadcasts S512x2048)
    (r : Fin 512) (kk : Fin 2048) :
    exp (subf s (broadcastTo S512x2048 (shapeCast S512x1 (multiReduction .maximumf [1] S512 s 0xFF800000#32 hr hφ hacc) hc) hb)) (ix2 r kk)
      = pexp (fun kk => s (ix2 r kk)) kk := by
  show Ideal.exp (s (ix2 r kk) - _) = Ideal.exp (s (ix2 r kk) - rowMax fun kk => s (ix2 r kk))
  refine congrArg (fun m => Ideal.exp (s (ix2 r kk) - m)) ?_
  exact (pair_broadcastTo_a1_ab_apply _ hb r kk).trans ((pair_shapeCast_a_a1_apply _ hc r 0).trans (pair_rowMax_read s hr hφ hacc r))

/-- Either head's output at (r, dd): the normalise-afterwards attention of row r of the scaled scores against column dd of
    the values. -/
theorem pair_softTail_apply (s : FVec Ideal S512x2048 .f32) (vh : FVec Ideal S2048x64 .bf16) (r : Fin 512) (dd : Fin 64) :
    (pair_softTail s vh : S512x64.Idx → EReal) (ix2 r dd)
      = attnPost (Ideal.ofBits .f32 0x3F800000#32) (fun kk => s (ix2 r kk)) (fun kk => vh (ix2 kk dd)) := by
  unfold pair_softTail attnPost
  refine congrArg₂ (fun x y : EReal => x * y) ?_ ?_
  · refine (pair_pv_apply _ vh r dd).trans (Finset.sum_congr rfl fun kk _ => ?_)
    exact congrArg (fun x : EReal => x * vh (ix2 kk dd)) (pair_expRow_apply s _ _ _ _ _ r kk)
  · refine (pair_broadcastTo_a1_ab_apply _ _ r dd).trans ?_
    refine congrArg (Ideal.div (Ideal.ofBits .f32 0x3F800000#32)) ?_
    refine (pair_shapeCast_a_a1_apply _ _ r 0).trans ?_
    refine (pair_rowSum_read _ _ _ _ r).trans ?_
    exact Finset.sum_congr rfl fun kk _ => pair_expRow_apply s _ _ _ _ _ r kk

/-- One head's output from its 1 x 512 x 64 query block and its 1 x 2048 x 64 key and value blocks: the inner products of
    query rows and key rows, times the word of one eighth, through the shared tail against the values. -/
def pair_headOut (qc : Vec Ideal S1x512x64 .bf16) (kc vc : Vec Ideal S1x2048x64 .bf16) : FVec Ideal S512x64 .bf16 :=
  have qh : FVec Ideal S512x64 .bf16 := shapeCast S512x64 qc shapeCasts_S1x512x64_S512x64
  have kh : FVec Ideal S2048x64 .bf16 := shapeCast S2048x64 kc shapeCasts_S1x2048x64_S2048x64
  have vh : FVec Ideal S2048x64 .bf16 := shapeCast S2048x64 vc shapeCasts_S1x2048x64_S2048x64
  have zero : FVec Ideal S512x2048 .f32 := constant S512x2048 .f32 0x00000000#32
  have qk : FVec Ideal S512x2048 .f32 := matmul dot_S512x64_S2048x64_S512x2048_1_1_0_0_n_n none qh kh zero
  have eighth : Ideal .f32 := Scalar.ofBits .f32 0x3E000000#32
  have sc : FVec Ideal S512x2048 .f32 := mulf qk (broadcast S512x2048 eighth)
  pair_softTail sc vh

/-- A head's output at (r, dd), over its own three blocks. -/
theorem pair_headOut_apply (qc : Vec Ideal S1x512x64 .bf16) (kc vc : Vec Ideal S1x2048x64 .bf16) (r : Fin 512) (dd : Fin 64) :
    (pair_headOut qc kc vc : S512x64.Idx → EReal) (ix2 r dd)
      = attnPost (Ideal.ofBits .f32 0x3F800000#32)
          (fun kk => scaleMul (∑ d' : Fin 64, (qc : S1x512x64.Idx → EReal) (ix3 (0 : Fin 1) r d') * (kc : S1x2048x64.Idx → EReal) (ix3 (0 : Fin 1) kk d')))
          (fun kk => (vc : S1x2048x64.Idx → EReal) (ix3 (0 : Fin 1) kk dd)) := by
  unfold pair_headOut
  refine (pair_softTail_apply _ _ r dd).trans ?_
  refine congrArg₂ (attnPost (Ideal.ofBits .f32 0x3F800000#32)) (funext fun kk => ?_) (funext fun kk => ?_)
  · unfold scaleMul
    refine congrArg (fun x : EReal => x * Ideal.ofBits .f32 0x3E000000#32) ?_
    refine (pair_qk_apply _ _ r kk).trans (Finset.sum_congr rfl fun d' _ => ?_)
    exact congrArg₂ (fun x y : EReal => x * y) (shapeCast_1ab_ab_apply qc _ r d') (shapeCast_1ab_ab_apply kc _ kk d')
  · exact shapeCast_1ab_ab_apply vc _ kk dd

/-! ## A head's block inside the pair's block -/

/-- The load of the 1 x 512 x 64 rectangle at head `a` of the pair's query block reads the block at head `a`. -/
theorem pair_ldQ_apply (q : Vec Ideal S2x512x64 .bf16) (o : ℕ)
    (inb : ∀ ax, (![o, 0, 0] : Fin 3 → ℕ) ax + S1x512x64.size ax ≤ S2x512x64.size ax) (a : Fin 2) (ha : a.val = o)
    (r : Fin 512) (d' : Fin 64) :
    View.ld q (Rect.unit (s := S2x512x64) ![o, 0, 0] S1x512x64.size inb) (ix3 (0 : Fin 1) r d') = q (ix3 a r d') :=
  congrArg q (funext fun ax => Fin.ext (by
    match ax with
    | ⟨0, _⟩ => show o + 1 * 0 = a.val; omega
    | ⟨1, _⟩ => show 0 + 1 * r.val = r.val; omega
    | ⟨2, _⟩ => show 0 + 1 * d'.val = d'.val; omega))

/-- The same for a 1 x 2048 x 64 rectangle of a key or value block. -/
theorem pair_ldK_apply (k : Vec Ideal S2x2048x64 .bf16) (o : ℕ)
    (inb : ∀ ax, (![o, 0, 0] : Fin 3 → ℕ) ax + S1x2048x64.size ax ≤ S2x2048x64.size ax) (a : Fin 2) (ha : a.val = o)
    (kk : Fin 2048) (d' : Fin 64) :
    View.ld k (Rect.unit (s := S2x2048x64) ![o, 0, 0] S1x2048x64.size inb) (ix3 (0 : Fin 1) kk d') = k (ix3 a kk d') :=
  congrArg k (funext fun ax => Fin.ext (by
    match ax with
    | ⟨0, _⟩ => show o + 1 * 0 = a.val; omega
    | ⟨1, _⟩ => show 0 + 1 * kk.val = kk.val; omega
    | ⟨2, _⟩ => show 0 + 1 * d'.val = d'.val; omega))

/-- Head `a`'s output from the pair's blocks, each loaded through head `a`'s rectangle. -/
theorem pair_headOut_ld (q : Vec Ideal S2x512x64 .bf16) (k v : Vec Ideal S2x2048x64 .bf16) (o : ℕ)
    (inbq : ∀ ax, (![o, 0, 0] : Fin 3 → ℕ) ax + S1x512x64.size ax ≤ S2x512x64.size ax)
    (inbk : ∀ ax, (![o, 0, 0] : Fin 3 → ℕ) ax + S1x2048x64.size ax ≤ S2x2048x64.size ax)
    (a : Fin 2) (ha : a.val = o) (r : Fin 512) (dd : Fin 64) :
    (pair_headOut (View.ld q (Rect.unit (s := S2x512x64) ![o, 0, 0] S1x512x64.size inbq))
        (View.ld k (Rect.unit (s := S2x2048x64) ![o, 0, 0] S1x2048x64.size inbk))
        (View.ld v (Rect.unit (s := S2x2048x64) ![o, 0, 0] S1x2048x64.size inbk)) : S512x64.Idx → EReal) (ix2 r dd)
      = attnPost (Ideal.ofBits .f32 0x3F800000#32)
          (fun kk => scaleMul (∑ d' : Fin 64, (q : S2x512x64.Idx → EReal) (ix3 a r d') * (k : S2x2048x64.Idx → EReal) (ix3 a kk d')))
          (fun kk => (v : S2x2048x64.Idx → EReal) (ix3 a kk dd)) := by
  refine (pair_headOut_apply _ _ _ r dd).trans ?_
  refine congrArg₂ (attnPost (Ideal.ofBits .f32 0x3F800000#32)) (funext fun kk => ?_) (funext fun kk => ?_)
  · refine congrArg scaleMul (Finset.sum_congr rfl fun d' _ => ?_)
    exact congrArg₂ (fun x y : EReal => x * y) (pair_ldQ_apply q o inbq a ha r d') (pair_ldK_apply k o inbk a ha kk d')
  · exact pair_ldK_apply v o inbk a ha kk dd

/-! ## The pair's slab -/

/-- The slab is the two heads' outputs side by side along the columns. -/
theorem pair_out_eq (q : Vec Ideal S2x512x64 .bf16) (k v : Vec Ideal S2x2048x64 .bf16) :
    pairOut (F := Ideal) q k v
      = shapeCast S512x128
          (concatenate S512x128 1
            [⟨S512x64, pair_headOut (View.ld q rQa) (View.ld k rKa) (View.ld v rKa)⟩,
             ⟨S512x64, pair_headOut (View.ld q rQb) (View.ld k rKb) (View.ld v rKb)⟩]
            concatenates_S512x64_S512x64_S512x128_d1)
          shapeCasts_S512x128_S512x128 := rfl

/-- Column 64 a + dd of the slab. -/
def pairCol (a : Fin 2) (dd : Fin 64) : Fin 128 := ⟨64 * a.val + dd.val, by omega⟩

/-- The slab at (r, 64 a + dd): head a of the pair, normalise-afterwards attention of its scaled score row. -/
theorem pairOut_apply (q : Vec Ideal S2x512x64 .bf16) (k v : Vec Ideal S2x2048x64 .bf16) (r : Fin 512) (a : Fin 2) (dd : Fin 64) :
    (pairOut (F := Ideal) q k v : S512x128.Idx → EReal) (ix2 r (pairCol a dd))
      = attnPost (Ideal.ofBits .f32 0x3F800000#32)
          (fun kk => scaleMul (∑ d' : Fin 64, (q : S2x512x64.Idx → EReal) (ix3 a r d') * (k : S2x2048x64.Idx → EReal) (ix3 a kk d')))
          (fun kk => (v : S2x2048x64.Idx → EReal) (ix3 a kk dd)) := by
  rw [pair_out_eq, shapeCast_self]
  match a with
  | ⟨0, h0⟩ =>
    -- the column is below 64: the left piece, at the same coordinates
    refine (concatenate_pair_apply_left (s₁ := S512x64) (s₂ := S512x64) (1 : Fin S512x128.rank) _ _ _ (ix2 r (pairCol ⟨0, h0⟩ dd)) rfl (ix2 r dd) (fun b => ?_)).trans ?_
    · match b with
      | ⟨0, _⟩ => rfl
      | ⟨1, _⟩ => show dd.val = 64 * 0 + dd.val; omega
    · exact pair_headOut_ld q k v 0 _ _ ⟨0, h0⟩ rfl r dd
  | ⟨1, h1⟩ =>
    -- the column is 64 + dd: the right piece, 64 columns to the left
    refine (concatenate_pair_apply_right (s₁ := S512x64) (s₂ := S512x64) (1 : Fin S512x128.rank) _ _ _ (ix2 r (pairCol ⟨1, h1⟩ dd)) rfl rfl (ix2 r dd) (fun b hb => ?_) ?_).trans ?_
    · match b with
      | ⟨0, _⟩ => rfl
      | ⟨1, _⟩ => exact absurd rfl hb
    · show dd.val + 64 = 64 * 1 + dd.val; omega
    · exact pair_headOut_ld q k v 1 _ _ ⟨1, h1⟩ rfl r dd

/-! ## The projected result -/

theorem res_zeros3 : (![0, 0, 0] : Fin 3 → ℕ) = fun _ => 0 := by
  funext a; match a with | ⟨0, _⟩ => rfl | ⟨1, _⟩ => rfl | ⟨2, _⟩ => rfl
theorem res_zeros2 : (![0, 0] : Fin 2 → ℕ) = fun _ => 0 := by
  funext a; match a with | ⟨0, _⟩ => rfl | ⟨1, _⟩ => rfl
theorem res_zeros1 : (![0] : Fin 1 → ℕ) = fun _ => 0 := by
  funext a; match a with | ⟨0, _⟩ => rfl

/-- The projection's payload at (0, r, e): row r of the merged heads against column e of the weight, plus the bias at e. -/
theorem res_pay_apply (S : Vec Ideal S512x768 .bf16) (wo : Vec Ideal S768x768 .bf16) (bo : Vec Ideal S768 .f32) (r : Fin 512) (e : Fin 768) :
    (k1_pay2 (F := Ideal) S wo bo : S1x512x768.Idx → EReal) (ix3 (0 : Fin 1) r e)
      = (∑ j : Fin 768, (S : S512x768.Idx → EReal) (ix2 r j) * (wo : S768x768.Idx → EReal) (ix2 j e)) + (bo : S768.Idx → EReal) (ix1 e) := by
  unfold k1_pay2
  refine (shapeCast_ab_1ab_apply _ _ (0 : Fin 1) r e).trans ?_
  refine congrArg₂ (fun x y : EReal => x + y) ?_ ?_
  · refine (res_dot_apply _ _ r e).trans (Finset.sum_congr rfl fun j _ => ?_)
    rw [shapeCast_self]
  · exact (broadcastTo_1b_ab_apply _ _ r e).trans (shapeCast_a_1a_apply bo _ (0 : Fin 1) e)

/-- The projected result block at (0, r, e). -/
theorem resLeft_apply (S : Vec Ideal S512x768 .bf16) (wo : Vec Ideal S768x768 .bf16) (bo : Vec Ideal S768 .f32) (r : Fin 512) (e : Fin 768) :
    (resLeft (F := Ideal) S wo bo : S1x512x768.Idx → EReal) (ix3 (0 : Fin 1) r e)
      = (∑ j : Fin 768, (S : S512x768.Idx → EReal) (ix2 r j) * (wo : S768x768.Idx → EReal) (ix2 j e)) + (bo : S768.Idx → EReal) (ix1 e) := by
  unfold resLeft
  rw [View.canon_unit_zero (S := S1x512x768) res_zeros3, View.ld_unit_zero (S := S512x768) res_zeros2,
    View.ld_unit_zero (S := S768x768) res_zeros2, View.ld_unit_zero (S := S768) res_zeros1]
  exact res_pay_apply S wo bo r e

end Cert.KernelIdeal.Val

end
-- ==== Proof.ValAttn.lean ====
/-
  The attention launch's result array at the extended reals, index by index, for whatever its five input arrays
  (queries, keys, values as [48, 2048, 64]; the transposed output weight; the output bias) hold when the launch
  is entered: entry (b, s, e) is (sum_j head[12 b + j / 64][s, j % 64] woT[j, e]) + bo[e], a head's output being
  the normalise-afterwards attention of its scaled score row against its value column.
-/
import proofs.«418711_j76373108458020_3_alg».proof.Proof.FrAttnData
import proofs.«418711_j76373108458020_3_alg».proof.Proof.ValPair
import proofs.«418711_j76373108458020_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Spec

variable (V : (c : Dev nD) → (b : Ref sig .tc) → Buf (Elt Ideal) ((c : Thread nD τ).loc b))

/-- The launch's five input arrays and its result array, at their literal shapes. -/
abbrev aQ (c : Dev nD) : S48x2048x64.Idx → EReal := V c main_v9
abbrev aK (c : Dev nD) : S48x2048x64.Idx → EReal := V c main_v11
abbrev aV (c : Dev nD) : S48x2048x64.Idx → EReal := V c main_v13
abbrev aWoT (c : Dev nD) : S768x768.Idx → EReal := V c main_v15
abbrev aBo (c : Dev nD) : S768.Idx → EReal := V c main_arg4
abbrev aRes (c : Dev nD) : S4x2048x768.Idx → EReal := (attnDat V c).arrAt 5 cfg1.N

/-- Head bh's output at (s, dd), from the three [48, 2048, 64] arrays. -/
def headOut (Q K Vv : S48x2048x64.Idx → EReal) (bh : Fin 48) (s : Fin 2048) (dd : Fin 64) : EReal :=
  attnPost (Ideal.ofBits .f32 0x3F800000#32)
    (fun k => scaleMul (∑ d' : Fin 64, Q (ix3 bh s d') * K (ix3 bh k d')))
    (fun k => Vv (ix3 bh k dd))

/-- The printed index maps over the grid, in closed form. -/
theorem idxQ : ∀ t : Fin cfg1.N, win1_0.index t (0 : Fin 3) = 6 * (t.val / 24) + t.val % 6
    ∧ win1_0.index t (1 : Fin 3) = t.val / 6 % 4 ∧ win1_0.index t (2 : Fin 3) = 0 :=
  (by decide +kernel : ∀ t : Fin grid1.N, _)
theorem idxK : ∀ t : Fin cfg1.N, win1_1.index t (0 : Fin 3) = 6 * (t.val / 24) + t.val % 6
    ∧ win1_1.index t (1 : Fin 3) = 0 ∧ win1_1.index t (2 : Fin 3) = 0 :=
  (by decide +kernel : ∀ t : Fin grid1.N, _)
theorem idxV : ∀ t : Fin cfg1.N, win1_2.index t (0 : Fin 3) = 6 * (t.val / 24) + t.val % 6
    ∧ win1_2.index t (1 : Fin 3) = 0 ∧ win1_2.index t (2 : Fin 3) = 0 :=
  (by decide +kernel : ∀ t : Fin grid1.N, _)
theorem idxW : ∀ t : Fin cfg1.N, win1_3.index t (0 : Fin 2) = 0 ∧ win1_3.index t (1 : Fin 2) = 0 :=
  (by decide +kernel : ∀ t : Fin grid1.N, _)
theorem idxB : ∀ t : Fin cfg1.N, win1_4.index t (0 : Fin 1) = 0 :=
  (by decide +kernel : ∀ t : Fin grid1.N, _)
theorem idxR : ∀ t : Fin cfg1.N, win1_5.index t (0 : Fin 3) = t.val / 24
    ∧ win1_5.index t (1 : Fin 3) = t.val / 6 % 4 ∧ win1_5.index t (2 : Fin 3) = 0 :=
  (by decide +kernel : ∀ t : Fin grid1.N, _)

/-- The query block of point t at (a, r, d) is the array at head 2 (6 b + h2) + a, row 512 qi + r. -/
theorem blkQ_apply (c : Dev nD) (t : Fin cfg1.N) (a : Fin 2) (r : Fin 512) (d : Fin 64) (bh : Fin 48) (s : Fin 2048)
    (hbh : bh.val = 2 * (6 * (t.val / 24) + t.val % 6) + a.val) (hs : s.val = 512 * (t.val / 6 % 4) + r.val) :
    (attnBlk V c 0 t : S2x512x64.Idx → EReal) (ix3 a r d) = aQ V c (ix3 bh s d) := by
  unfold attnBlk
  rw [View.read_apply]
  show V c main_v9 (((cfg1.win 0).blk t).view.emb (ix3 a r d)) = V c main_v9 (ix3 bh s d)
  congr 1
  funext x; apply Fin.ext
  obtain ⟨e0, e1, e2⟩ := idxQ t
  match x with
  | ⟨0, _⟩ => show win1_0.index t (0 : Fin 3) * 2 + 1 * a.val = bh.val; omega
  | ⟨1, _⟩ => show win1_0.index t (1 : Fin 3) * 512 + 1 * r.val = s.val; omega
  | ⟨2, _⟩ => show win1_0.index t (2 : Fin 3) * 64 + 1 * d.val = d.val; omega

/-- The key block of point t at (a, k, d) is the array at head 2 (6 b + h2) + a, row k. -/
theorem blkK_apply (c : Dev nD) (t : Fin cfg1.N) (a : Fin 2) (k : Fin 2048) (d : Fin 64) (bh : Fin 48)
    (hbh : bh.val = 2 * (6 * (t.val / 24) + t.val % 6) + a.val) :
    (attnBlk V c 1 t : S2x2048x64.Idx → EReal) (ix3 a k d) = aK V c (ix3 bh k d) := by
  unfold attnBlk
  rw [View.read_apply]
  show V c main_v11 (((cfg1.win 1).blk t).view.emb (ix3 a k d)) = V c main_v11 (ix3 bh k d)
  congr 1
  funext x; apply Fin.ext
  obtain ⟨e0, e1, e2⟩ := idxK t
  match x with
  | ⟨0, _⟩ => show win1_1.index t (0 : Fin 3) * 2 + 1 * a.val = bh.val; omega
  | ⟨1, _⟩ => show win1_1.index t (1 : Fin 3) * 2048 + 1 * k.val = k.val; omega
  | ⟨2, _⟩ => show win1_1.index t (2 : Fin 3) * 64 + 1 * d.val = d.val; omega

/-- The value block of point t at (a, k, d) is the array at head 2 (6 b + h2) + a, row k. -/
theorem blkV_apply (c : Dev nD) (t : Fin cfg1.N) (a : Fin 2) (k : Fin 2048) (d : Fin 64) (bh : Fin 48)
    (hbh : bh.val = 2 * (6 * (t.val / 24) + t.val % 6) + a.val) :
    (attnBlk V c 2 t : S2x2048x64.Idx → EReal) (ix3 a k d) = aV V c (ix3 bh k d) := by
  unfold attnBlk
  rw [View.read_apply]
  show V c main_v13 (((cfg1.win 2).blk t).view.emb (ix3 a k d)) = V c main_v13 (ix3 bh k d)
  congr 1
  funext x; apply Fin.ext
  obtain ⟨e0, e1, e2⟩ := idxV t
  match x with
  | ⟨0, _⟩ => show win1_2.index t (0 : Fin 3) * 2 + 1 * a.val = bh.val; omega
  | ⟨1, _⟩ => show win1_2.index t (1 : Fin 3) * 2048 + 1 * k.val = k.val; omega
  | ⟨2, _⟩ => show win1_2.index t (2 : Fin 3) * 64 + 1 * d.val = d.val; omega

/-- The output weight's block is the whole array at every point. -/
theorem attnBlkW_apply (c : Dev nD) (t : Fin cfg1.N) (j e : Fin 768) :
    (attnBlk V c 3 t : S768x768.Idx → EReal) (ix2 j e) = aWoT V c (ix2 j e) := by
  unfold attnBlk
  rw [View.read_apply]
  show V c main_v15 (((cfg1.win 3).blk t).view.emb (ix2 j e)) = V c main_v15 (ix2 j e)
  congr 1
  funext x; apply Fin.ext
  obtain ⟨e0, e1⟩ := idxW t
  match x with
  | ⟨0, _⟩ => show win1_3.index t (0 : Fin 2) * 768 + 1 * j.val = j.val; omega
  | ⟨1, _⟩ => show win1_3.index t (1 : Fin 2) * 768 + 1 * e.val = e.val; omega

/-- The output bias's block is the whole array at every point. -/
theorem attnBlkB_apply (c : Dev nD) (t : Fin cfg1.N) (e : Fin 768) :
    (attnBlk V c 4 t : S768.Idx → EReal) (ix1 e) = aBo V c (ix1 e) := by
  unfold attnBlk
  rw [View.read_apply]
  show V c main_arg4 (((cfg1.win 4).blk t).view.emb (ix1 e)) = V c main_arg4 (ix1 e)
  congr 1
  funext x; apply Fin.ext
  have e0 := idxB t
  match x with
  | ⟨0, _⟩ => show win1_4.index t (0 : Fin 1) * 768 + 1 * e.val = e.val; omega

/-- What point n stores into the scratch, on the slab's own index. -/
def slabFn (c : Dev nD) (n : ℕ) : S512x128.Idx → EReal :=
  (pairOut (F := Ideal) (attnBlk V c 0 (ptOf n)) (attnBlk V c 1 (ptOf n)) (attnBlk V c 2 (ptOf n)) : S512x128.Idx → EReal)

/-- The six slabs of the group ending at point t as one 512 x 768 array: column j belongs to the point
    t - 5 + j / 128, at its own column j mod 128. -/
def scrFn (c : Dev nD) (t : ℕ) : S512x768.Idx → EReal := fun y =>
  slabFn V c (t - 5 + (y 1).val / 128) (ix2 (⟨(y 0).val, idx2_lt0 y⟩ : Fin 512) (⟨(y 1).val % 128, Nat.mod_lt _ (by decide)⟩ : Fin 128))

/-- The array at y is point n's slab at x, once n owns column y 1 and x is y's place inside that slab. -/
theorem scrFn_eq (c : Dev nD) (t : ℕ) (y : S512x768.Idx) (n : ℕ) (x : S512x128.Idx)
    (hn : t - 5 + (y 1).val / 128 = n) (h0 : (y 0).val = (x 0).val) (h1 : (y 1).val % 128 = (x 1).val) :
    scrFn V c t y = slabFn V c n x := by
  subst hn
  unfold scrFn
  congr 1
  funext a; apply Fin.ext
  match a with
  | ⟨0, _⟩ => exact h0
  | ⟨1, _⟩ => exact h1

/-- A slab of the group is the array's block on its own columns. -/
theorem slab_piece (c : Dev nD) (t : ℕ) (h5 : t % 6 = 5) (n : ℕ) (hlo : t - 5 ≤ n) (hhi : n ≤ t)
    (x : S512x128.Idx) :
    (slab V c n).2 x = scrFn V c t ((slab V c n).1.emb x) := by
  have hx0 : (x 0).val < 512 := idx2_lt0 x
  have hx1 : (x 1).val < 128 := idx2_lt1 x
  have o0 := slab_off0 (ptOf n)
  have o1 := slab_off1 (ptOf n)
  have hv : (ptOf n).val = n % 96 := rfl
  have e0 : (((slab V c n).1.emb x) 0).val = (x 0).val := by
    show k1_off1 (grid1.coords (ptOf n)) 0 + 1 * (x 0).val = (x 0).val; omega
  have e1 : (((slab V c n).1.emb x) 1).val = 128 * (n % 6) + (x 1).val := by
    show k1_off1 (grid1.coords (ptOf n)) 1 + 1 * (x 1).val = _; omega
  refine (scrFn_eq V c t _ n x ?_ ?_ ?_).symm
  · rw [e1]; omega
  · exact e0
  · rw [e1]; omega

/-- What a group's sixth point reads back: the six slabs cover the scratch, each the array's block on its columns. -/
theorem canon_eq (c : Dev nD) (t : Fin cfg1.N) (h5 : t.val % 6 = 5) (y : S512x768.Idx) :
    (View.canon (slab V c t.val :: grp V c t.val) : S512x768.Idx → EReal) y = scrFn V c t.val y := by
  refine View.canon_apply_of_pieces (scrFn V c t.val) _ ?_ y (six_cover V c t h5 y)
  intro p hp x
  rcases List.mem_cons.mp hp with rfl | hp
  · exact slab_piece V c t.val h5 t.val (by omega) (le_refl _) x
  · unfold grp at hp
    rw [List.mem_reverse, List.mem_map] at hp
    obtain ⟨j, hj, rfl⟩ := hp
    have hj' := List.mem_range.mp hj
    exact slab_piece V c t.val h5 _ (by omega) (by omega) x

/-- Column j of the group's array at row r is head 12 b + j / 64 at (512 qi + r, j mod 64), for the group
    ending at t = 24 b + 6 qi + 5. -/
theorem scr_apply (c : Dev nD) (t : Fin cfg1.N) (h5 : t.val % 6 = 5) (r : Fin 512) (j : Fin 768) (b : Fin 4) (s : Fin 2048)
    (hb : b.val = t.val / 24) (hs : s.val = 512 * (t.val / 6 % 4) + r.val) :
    scrFn V c t.val (ix2 r j) = headOut (aQ V c) (aK V c) (aV V c) (bhOf b (headOf j)) s (laneOf j) := by
  have hN : t.val < 96 := lt_of_lt_of_eq t.isLt N_1
  have hj : j.val < 768 := j.isLt
  have hbv : (bhOf b (headOf j)).val = 12 * b.val + j.val / 64 := rfl
  have hv : (ptOf (t.val - 5 + j.val / 128)).val = t.val - 5 + j.val / 128 := Nat.mod_eq_of_lt (by omega)
  have hbh : (bhOf b (headOf j)).val
      = 2 * (6 * ((ptOf (t.val - 5 + j.val / 128)).val / 24) + (ptOf (t.val - 5 + j.val / 128)).val % 6) + j.val % 128 / 64 := by
    rw [hv, hbv]; omega
  have hs' : s.val = 512 * ((ptOf (t.val - 5 + j.val / 128)).val / 6 % 4) + r.val := by
    rw [hv, hs]; omega
  refine (scrFn_eq V c t.val (ix2 r j) (t.val - 5 + j.val / 128)
    (ix2 r (pairCol (⟨j.val % 128 / 64, by omega⟩ : Fin 2) (laneOf j))) rfl rfl ?_).trans ?_
  · show j.val % 128 = 64 * (j.val % 128 / 64) + j.val % 64; omega
  unfold slabFn
  refine (pairOut_apply _ _ _ r _ _).trans ?_
  unfold headOut
  refine congrArg₂ (attnPost _) (funext fun kk => congrArg scaleMul (Finset.sum_congr rfl fun d' _ => ?_)) (funext fun kk => ?_)
  · exact congrArg₂ (· * ·) (blkQ_apply V c _ _ r d' _ s hbh hs') (blkK_apply V c _ _ kk d' _ hbh)
  · exact blkV_apply V c _ _ kk _ _ hbh

/-- The result as one function of the five arrays. -/
def resFn (c : Dev nD) (b : Fin 4) (s : Fin 2048) (e : Fin 768) : EReal :=
  (∑ j : Fin 768, headOut (aQ V c) (aK V c) (aV V c) (bhOf b (headOf j)) s (laneOf j) * aWoT V c (ix2 j e))
    + aBo V c (ix1 e)

/-- What a group's sixth point leaves in the result window, entry by entry. -/
theorem after_apply (c : Dev nD) (t : Fin cfg1.N) (h5 : t.val % 6 = 5) (z : Fin 1) (r : Fin 512) (e : Fin 768) (b : Fin 4) (s : Fin 2048)
    (hb : b.val = t.val / 24) (hs : s.val = 512 * (t.val / 6 % 4) + r.val) :
    ((attnDat V c).after 5 t : S1x512x768.Idx → EReal) (ix3 z r e) = resFn V c b s e := by
  obtain rfl : z = 0 := Subsingleton.elim _ _
  rw [attnAfter5]
  refine (resLeft_apply _ _ _ r e).trans ?_
  unfold resFn
  refine congrArg₂ (· + ·) (Finset.sum_congr rfl fun j _ => congrArg₂ (· * ·) ?_ (attnBlkW_apply V c t j e)) (attnBlkB_apply V c t e)
  exact (canon_eq V c t h5 (ix2 r j)).trans (scr_apply V c t h5 r j b s hb hs)

/-- The result array as one function of the five arrays, index by index. -/
def resArr (c : Dev nD) : S4x2048x768.Idx → EReal := fun i =>
  resFn V c (⟨(i 0).val, (i 0).isLt⟩ : Fin 4) (⟨(i 1).val, (i 1).isLt⟩ : Fin 2048) (⟨(i 2).val, (i 2).isLt⟩ : Fin 768)

/-- What a group's sixth point writes back is its block of that array. -/
theorem flushed_eq (c : Dev nD) (t : Fin cfg1.N) (hf : (cfg1.win 5).flush t = true) :
    (attnDat V c).flushed 5 t = ((cfg1.win 5).blk t).view.read (Elt Ideal) (resArr V c) := by
  have h5 : t.val % 6 = 5 := (flush1_5 t).mp hf
  have hN : t.val < 96 := lt_of_lt_of_eq t.isLt N_1
  obtain ⟨i0, i1, i2⟩ := idxR t
  show (cfg1.win 5).cut (grid1.coords t) ((attnDat V c).after 5 t) = _
  funext y
  rw [View.read_apply]
  obtain ⟨z, r, e, rfl⟩ : ∃ (z : Fin 1) (r : Fin 512) (e : Fin 768), y = ix3 z r e := ⟨y 0, y 1, y 2, eq_ix3 y⟩
  have hz : z.val = 0 := by have := z.isLt; omega
  have hr : r.val < 512 := r.isLt
  have c0 : ((((cfg1.win 5).blk t).view.emb (ix3 z r e)) 0).val = t.val / 24 := by
    show win1_5.index t (0 : Fin 3) * 1 + 1 * z.val = _; omega
  have c1 : ((((cfg1.win 5).blk t).view.emb (ix3 z r e)) 1).val = 512 * (t.val / 6 % 4) + r.val := by
    show win1_5.index t (1 : Fin 3) * 512 + 1 * r.val = _; omega
  have c2 : ((((cfg1.win 5).blk t).view.emb (ix3 z r e)) 2).val = e.val := by
    show win1_5.index t (2 : Fin 3) * 768 + 1 * e.val = _; omega
  refine (after_apply V c t h5 z r e (⟨t.val / 24, by omega⟩ : Fin 4) (⟨512 * (t.val / 6 % 4) + r.val, by omega⟩ : Fin 2048) rfl rfl).trans ?_
  unfold resArr
  congr 1
  · exact Fin.ext c0.symm
  · exact Fin.ext c1.symm
  · exact Fin.ext c2.symm

/-- An index of the result array is in point t's block iff each coordinate is in the block's range on its axis. -/
theorem mem_blkR (t : Fin cfg1.N) (i : S4x2048x768.Idx) :
    i ∈ ((cfg1.win 5).blk t).view.set ↔ ∀ a : Fin 3, win1_5.index t a * S1x512x768.size a ≤ (i a).val ∧ (i a).val < win1_5.index t a * S1x512x768.size a + S1x512x768.size a := by
  show i ∈ ((View.whole main_v16).slice (win1_5.rect t)).set ↔ _
  rw [View.set_slice_whole, Rect.mem_set_unit]
  exact Iff.rfl

/-- Every index of the result lies in the block of the sixth point of its (b, qi) group. -/
theorem res_cover (i : S4x2048x768.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 768 := (i 2).isLt
  have hlt : 24 * (i 0).val + 6 * ((i 1).val / 512) + 5 < cfg1.N := by rw [show cfg1.N = 96 from N_1]; omega
  refine ⟨⟨24 * (i 0).val + 6 * ((i 1).val / 512) + 5, hlt⟩, (flush1_5 _).mpr (by show (24 * (i 0).val + 6 * ((i 1).val / 512) + 5) % 6 = 5; omega), ?_⟩
  obtain ⟨i0, i1, i2⟩ := idxR ⟨24 * (i 0).val + 6 * ((i 1).val / 512) + 5, hlt⟩
  have v : (⟨24 * (i 0).val + 6 * ((i 1).val / 512) + 5, hlt⟩ : Fin cfg1.N).val = 24 * (i 0).val + 6 * ((i 1).val / 512) + 5 := rfl
  rw [v] at i0 i1
  rw [mem_blkR]
  intro a
  match a with
  | ⟨0, _⟩ =>
    show win1_5.index _ (0 : Fin 3) * 1 ≤ (i 0).val ∧ (i 0).val < win1_5.index _ (0 : Fin 3) * 1 + 1
    omega
  | ⟨1, _⟩ =>
    show win1_5.index _ (1 : Fin 3) * 512 ≤ (i 1).val ∧ (i 1).val < win1_5.index _ (1 : Fin 3) * 512 + 512
    omega
  | ⟨2, _⟩ =>
    show win1_5.index _ (2 : Fin 3) * 768 ≤ (i 2).val ∧ (i 2).val < win1_5.index _ (2 : Fin 3) * 768 + 768
    omega

/-- The attention launch's result at (b, s, e). -/
theorem attn_value (c : Dev nD) (b : Fin 4) (s : Fin 2048) (e : Fin 768) :
    aRes V c (ix3 b s e)
      = (∑ j : Fin 768, headOut (aQ V c) (aK V c) (aV V c) (bhOf b (headOf j)) s (laneOf j) * aWoT V c (ix2 j e))
        + aBo V c (ix1 e) := by
  have h := (attnDat V c).arrAt_eq_of_cover 5 (resArr V c) (fun t hf => flushed_eq V c t hf) res_cover
  show aRes V c (ix3 b s e) = resFn V c b s e
  exact congrFun h (ix3 b s e)

end Cert.KernelIdeal.Val

end
-- ==== Proof.KernelValue.lean ====
/-
  The kernel program's result at the extended reals is the specification's normalise-afterwards instance.

  The attention launch's result is stated over the arrays it is entered with; those are the host lines' re-layout
  of the projection launch's result, which is stated over the arrays IT is entered with, and those are the first
  host lines' re-layout of the arguments. Reading each back gives: the projection's row (b, s) is the
  specification's projection row; head 12 b + h's query, key and value lanes are that row's columns 192 h + dd,
  + 64, + 128; the weight the launches contract with is the argument's transpose; the biases are the arguments.
-/
import proofs.«418711_j76373108458020_3_alg».proof.Proof.FrFrame
import proofs.«418711_j76373108458020_3_alg».proof.Proof.ValProj
import proofs.«418711_j76373108458020_3_alg».proof.Proof.ValHost
import proofs.«418711_j76373108458020_3_alg».proof.Proof.ValAttn

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.Spec

variable (m : (ℓ : Loc nD τ sig) → Buf (Elt Ideal) ℓ) (ρ : Dev nD → PrngReg)

/-- The five arguments on core c, at their literal shapes. -/
abbrev argX (c : Dev nD) : TX := m ((c : Thread nD τ).loc main_arg0)
abbrev argWq (c : Dev nD) : TWq := m ((c : Thread nD τ).loc main_arg1)
abbrev argBq (c : Dev nD) : TBq := m ((c : Thread nD τ).loc main_arg2)
abbrev argWo (c : Dev nD) : TWo := m ((c : Thread nD τ).loc main_arg3)
abbrev argBo (c : Dev nD) : TBo := m ((c : Thread nD τ).loc main_arg4)

/-- The projection launch's result row (b, s) is the specification's projection row. -/
theorem proj_is_qkv (c : Dev nD) (b : Fin 4) (s : Fin 2048) (e : Fin 2304) :
    pRes (V1 m ρ) c (ix2 (rowOf b s) e) = qkv (argX m c) (argWq m c) (argBq m c) b s e := by
  rw [proj_value]
  unfold qkv
  have hx : ∀ d : Fin 768, pX (V1 m ρ) c (ix2 (rowOf b s) d) = argX m c (ix3 b s d) := fun d => host0_x2d (W0 m ρ c) b s d
  have hw : ∀ d : Fin 768, pW (V1 m ρ) c (ix2 d e) = argWq m c (ix2 e d) := fun d => host0_wT (W0 m ρ c) d e
  have hb : pB (V1 m ρ) c = argBq m c := W1_keep c main_arg2 (by decide) _
  rw [hb]
  exact congrArg (· + argBq m c (ix1 e)) (Finset.sum_congr rfl fun d _ => by rw [hx, hw])

/-- What the lines between the launches read: the projection launch's result. -/
theorem mid_proj (c : Dev nD) : h1P (W2 m ρ c) = pRes (V1 m ρ) c := W2_arr m ρ c 3

/-- Head 12 b + h's query, key and value lanes, as the attention launch finds them. -/
theorem attn_q (c : Dev nD) (b : Fin 4) (h : Fin 12) (s : Fin 2048) (dd : Fin 64) :
    aQ (V3 m ρ) c (ix3 (bhOf b h) s dd) = qkv (argX m c) (argWq m c) (argBq m c) b s (colQ h dd) := by
  rw [← proj_is_qkv m ρ c b s (colQ h dd), ← mid_proj m ρ c]; exact host1_q (W2 m ρ c) b h s dd
theorem attn_k (c : Dev nD) (b : Fin 4) (h : Fin 12) (s : Fin 2048) (dd : Fin 64) :
    aK (V3 m ρ) c (ix3 (bhOf b h) s dd) = qkv (argX m c) (argWq m c) (argBq m c) b s (colK h dd) := by
  rw [← proj_is_qkv m ρ c b s (colK h dd), ← mid_proj m ρ c]; exact host1_k (W2 m ρ c) b h s dd
theorem attn_v (c : Dev nD) (b : Fin 4) (h : Fin 12) (s : Fin 2048) (dd : Fin 64) :
    aV (V3 m ρ) c (ix3 (bhOf b h) s dd) = qkv (argX m c) (argWq m c) (argBq m c) b s (colV h dd) := by
  rw [← proj_is_qkv m ρ c b s (colV h dd), ← mid_proj m ρ c]; exact host1_v (W2 m ρ c) b h s dd

/-- The output weight as the attention launch finds it is the argument's transpose; its bias is the argument. -/
theorem attn_woT (c : Dev nD) (j e : Fin 768) : aWoT (V3 m ρ) c (ix2 j e) = argWo m c (ix2 e j) := by
  have h0 : h1Wo (W2 m ρ c) = argWo m c :=
    (W2_of_ne m ρ c main_arg3 (by decide)).trans (W1_keep c main_arg3 (by decide) _)
  rw [← h0]; exact host1_woT (W2 m ρ c) j e
theorem attn_bo (c : Dev nD) : aBo (V3 m ρ) c = argBo m c :=
  (W3_keep c main_arg4 (by decide) _).trans ((W2_of_ne m ρ c main_arg4 (by decide)).trans (W1_keep c main_arg4 (by decide) _))

/-- A head's output as the attention launch computes it is the specification's head. -/
theorem attn_head (c : Dev nD) (b : Fin 4) (h : Fin 12) (s : Fin 2048) (dd : Fin 64) :
    headOut (aQ (V3 m ρ) c) (aK (V3 m ρ) c) (aV (V3 m ρ) c) (bhOf b h) s dd
      = head scaleMul (attnPost (Ideal.ofBits .f32 0x3F800000#32)) (argX m c) (argWq m c) (argBq m c) b h s dd := by
  unfold headOut head score
  have hL : (fun k : Fin 2048 => scaleMul (∑ d' : Fin 64, aQ (V3 m ρ) c (ix3 (bhOf b h) s d') * aK (V3 m ρ) c (ix3 (bhOf b h) k d')))
      = fun k : Fin 2048 => scaleMul (∑ d' : Fin 64, qkv (argX m c) (argWq m c) (argBq m c) b s (colQ h d') * qkv (argX m c) (argWq m c) (argBq m c) b k (colK h d')) :=
    funext fun k => congrArg scaleMul (Finset.sum_congr rfl fun d' _ => by rw [attn_q m ρ c b h s d', attn_k m ρ c b h k d'])
  have hV : (fun k : Fin 2048 => aV (V3 m ρ) c (ix3 (bhOf b h) k dd)) = fun k : Fin 2048 => qkv (argX m c) (argWq m c) (argBq m c) b k (colV h dd) :=
    funext fun k => attn_v m ρ c b h k dd
  rw [hL, hV]

/-- The kernel program's result at (b, s, e). -/
theorem kernel_result (c : Dev nD) (b : Fin 4) (s : Fin 2048) (e : Fin 768) :
    aRes (V3 m ρ) c (ix3 b s e) = outPost (argX m c) (argWq m c) (argBq m c) (argWo m c) (argBo m c) b s e := by
  rw [attn_value, attn_bo]
  unfold outPost out
  refine congrArg (· + argBo m c (ix1 e)) (Finset.sum_congr rfl fun j _ => ?_)
  rw [attn_woT]
  refine congrArg (· * argWo m c (ix2 e j)) ?_
  exact attn_head m ρ c b (headOf j) s (laneOf j)

end Cert.KernelIdeal.Val

end
-- ==== Proof.RefSpec.lean ====
/-
  The reference program's result at the extended reals is the specification's normalise-first instance,
  index by index: its thirty-six host operations - the projection as one dot_general plus bias, the heads
  split off after one transpose, scores divided by 8, a softmax, the weighted values, heads merged, the output
  dot_general plus bias - read one operation at a time.
-/
import proofs.«418711_j76373108458020_3_alg».proof.Proof.Gen.ReferenceIdeal.Read
import proofs.«418711_j76373108458020_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.ReferenceIdeal.RefSpec

open Idealize.ShloMosaic Idealize.ShloMosaic.TcCoe Idealize.ShloMosaic.ValueIdx
open Cert.ReferenceIdeal Cert.Spec

/-! ## The projection and the heads' slices -/

/-- The projection's dot_general plus the broadcast bias, at (b, s, c), is the specification's projection. -/
theorem proj_value (x : TX) (wq : TWq) (bq : TBq) (b : Fin 4) (s : Fin 2048) (c : Fin 2304) :
    Read.val_main_v3 (F := Ideal) x wq bq (ix3 b s c) = qkv x wq bq b s c := by
  refine (Read.val_main_v3_apply (F := Ideal) x wq bq (ix3 b s c)).trans ?_
  show Read.val_main_v0 (F := Ideal) x wq (ix3 b s c) + Read.val_main_v2 (F := Ideal) bq (ix3 b s c) = _
  unfold qkv
  refine congrArg₂ (· + ·) ?_ ?_
  · refine (Read.val_main_v0_apply x wq (ix3 b s c)).trans ?_
    refine Finset.sum_congr rfl fun d _ => ?_
    refine congrArg₂ (· * ·) (congrArg x ?_) (congrArg wq ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · refine (Read.val_main_v2_apply (F := Ideal) bq (ix3 b s c)).trans ?_
    refine (Read.val_main_v1_apply (F := Ideal) bq _).trans ?_
    exact congrArg bq (funext fun a => Fin.ext (by match a with | ⟨0, _⟩ => rfl))

/-- The row-major arithmetic of the reshape [4, 2048, 2304] -> [4, 2048, 12, 192] behind the heads' transpose:
    entry (b, h, s, t) of the transposed array is the projection at (b, s, 192 h + t). -/
theorem split_index (b : Fin 4) (h : Fin 12) (s : Fin 2048) (t : Fin 192) (c : Fin 2304) (hc : c.val = 192 * h.val + t.val) :
    Read.idx_main_v4 (Read.idx_main_v5 (ix4 b h s t)) = ix3 b s c := by
  have hb := b.isLt; have hh := h.isLt; have hs := s.isLt; have ht := t.isLt
  refine funext fun a => Fin.ext ?_
  match a with
  | ⟨0, _⟩ => show (((b.val * 2048 + s.val) * 12 + h.val) * 192 + t.val) / 4718592 = b.val; omega
  | ⟨1, _⟩ => show (((b.val * 2048 + s.val) * 12 + h.val) * 192 + t.val) / 2304 % 2048 = s.val; omega
  | ⟨2, _⟩ => show (((b.val * 2048 + s.val) * 12 + h.val) * 192 + t.val) % 2304 = c.val; omega

/-- The transposed [4, 12, 2048, 192] array at (b, h, s, t). -/
theorem heads_value (x : TX) (wq : TWq) (bq : TBq) (b : Fin 4) (h : Fin 12) (s : Fin 2048) (t : Fin 192) (c : Fin 2304)
    (hc : c.val = 192 * h.val + t.val) :
    Read.val_main_v5 (F := Ideal) x wq bq (ix4 b h s t) = qkv x wq bq b s c := by
  refine (Read.val_main_v5_apply (F := Ideal) x wq bq (ix4 b h s t)).trans ?_
  refine (Read.val_main_v4_apply (F := Ideal) x wq bq _).trans ?_
  refine (congrArg (Read.val_main_v3 (F := Ideal) x wq bq) (split_index b h s t c hc)).trans ?_
  exact proj_value x wq bq b s c

/-- The query slice at (b, h, s, dd). -/
theorem q_value (x : TX) (wq : TWq) (bq : TBq) (b : Fin 4) (h : Fin 12) (s : Fin 2048) (dd : Fin 64) :
    Read.val_main_v6 (F := Ideal) x wq bq (ix4 b h s dd) = qkv x wq bq b s (colQ h dd) := by
  refine (Read.val_main_v6_apply (F := Ideal) x wq bq (ix4 b h s dd)).trans ?_
  have e : Read.idx_main_v6 (ix4 b h s dd) = ix4 b h s (⟨dd.val, by have := dd.isLt; omega⟩ : Fin 192) :=
    funext fun a => Fin.ext (by match a with | ⟨0, _⟩ => rfl | ⟨1, _⟩ => rfl | ⟨2, _⟩ => rfl | ⟨3, _⟩ => rfl)
  refine (congrArg (Read.val_main_v5 (F := Ideal) x wq bq) e).trans ?_
  exact heads_value x wq bq b h s _ (colQ h dd) rfl

/-- The key slice at (b, h, s, dd). -/
theorem k_value (x : TX) (wq : TWq) (bq : TBq) (b : Fin 4) (h : Fin 12) (s : Fin 2048) (dd : Fin 64) :
    Read.val_main_v7 (F := Ideal) x wq bq (ix4 b h s dd) = qkv x wq bq b s (colK h dd) := by
  refine (Read.val_main_v7_apply (F := Ideal) x wq bq (ix4 b h s dd)).trans ?_
  have e : Read.idx_main_v7 (ix4 b h s dd) = ix4 b h s (⟨64 + dd.val, by have := dd.isLt; omega⟩ : Fin 192) :=
    funext fun a => Fin.ext (by match a with | ⟨0, _⟩ => rfl | ⟨1, _⟩ => rfl | ⟨2, _⟩ => rfl | ⟨3, _⟩ => rfl)
  refine (congrArg (Read.val_main_v5 (F := Ideal) x wq bq) e).trans ?_
  exact heads_value x wq bq b h s _ (colK h dd) (by show 192 * h.val + 64 + dd.val = 192 * h.val + (64 + dd.val); omega)

/-- The value slice at (b, h, s, dd). -/
theorem v_value (x : TX) (wq : TWq) (bq : TBq) (b : Fin 4) (h : Fin 12) (s : Fin 2048) (dd : Fin 64) :
    Read.val_main_v8 (F := Ideal) x wq bq (ix4 b h s dd) = qkv x wq bq b s (colV h dd) := by
  refine (Read.val_main_v8_apply (F := Ideal) x wq bq (ix4 b h s dd)).trans ?_
  have e : Read.idx_main_v8 (ix4 b h s dd) = ix4 b h s (⟨128 + dd.val, by have := dd.isLt; omega⟩ : Fin 192) :=
    funext fun a => Fin.ext (by match a with | ⟨0, _⟩ => rfl | ⟨1, _⟩ => rfl | ⟨2, _⟩ => rfl | ⟨3, _⟩ => rfl)
  refine (congrArg (Read.val_main_v5 (F := Ideal) x wq bq) e).trans ?_
  exact heads_value x wq bq b h s _ (colV h dd) (by show 192 * h.val + 128 + dd.val = 192 * h.val + (128 + dd.val); omega)

/-! ## The scores and the softmax row -/

/-- The score dot_general at (b, h, s, k): the query row s against the key row k. -/
theorem dot_value (x : TX) (wq : TWq) (bq : TBq) (b : Fin 4) (h : Fin 12) (s k : Fin 2048) :
    Read.val_main_v9 (F := Ideal) x wq bq (ix4 b h s k)
      = ∑ dd : Fin 64, qkv x wq bq b s (colQ h dd) * qkv x wq bq b k (colK h dd) := by
  refine (Read.val_main_v9_apply x wq bq (ix4 b h s k)).trans ?_
  refine Finset.sum_congr rfl fun dd _ => ?_
  have el : Read.lidx_main_v9 (ix4 b h s k) dd = ix4 b h s dd :=
    funext fun a => Fin.ext (by match a with | ⟨0, _⟩ => rfl | ⟨1, _⟩ => rfl | ⟨2, _⟩ => rfl | ⟨3, _⟩ => rfl)
  have er : Read.ridx_main_v9 (ix4 b h s k) dd = ix4 b h k dd :=
    funext fun a => Fin.ext (by match a with | ⟨0, _⟩ => rfl | ⟨1, _⟩ => rfl | ⟨2, _⟩ => rfl | ⟨3, _⟩ => rfl)
  refine congrArg₂ (· * ·) ?_ ?_
  · exact (congrArg (Read.val_main_v6 (F := Ideal) x wq bq) el).trans (q_value x wq bq b h s dd)
  · exact (congrArg (Read.val_main_v7 (F := Ideal) x wq bq) er).trans (k_value x wq bq b h k dd)

/-- The scores divided by the word 8.0, at (b, h, s, k): the specification's score row. -/
theorem score_value (x : TX) (wq : TWq) (bq : TBq) (b : Fin 4) (h : Fin 12) (s k : Fin 2048) :
    Read.val_main_v11 (F := Ideal) x wq bq (ix4 b h s k) = score scaleDiv x wq bq b h s k := by
  refine (Read.val_main_v11_apply (F := Ideal) x wq bq (ix4 b h s k)).trans ?_
  show Ideal.div (Read.val_main_v9 (F := Ideal) x wq bq (ix4 b h s k)) (Read.val_main_v10 (F := Ideal) (ix4 b h s k)) = _
  unfold score scaleDiv
  refine congrArg₂ Ideal.div (dot_value x wq bq b h s k) ?_
  refine (Read.val_main_v10_apply (F := Ideal) (ix4 b h s k)).trans ?_
  rfl

/-- The word 0xFF800000 is minus infinity. -/
theorem neg_inf_word : Ideal.ofBits .f32 0xFF800000#32 = (⊥ : EReal) := by
  simp [Ideal.ofBits, Ideal.ieee]

/-- The shape fact behind the row reductions: the last axis of [4, 12, 2048, 2048] is dropped. -/
theorem row_reduces : S4x12x2048x2048.Reduces [3] S4x12x2048 := by decide

/-- The reduced index (b, h, s) with key position k put back on the last axis is (b, h, s, k). -/
theorem row_lift (b : Fin 4) (h : Fin 12) (s : Fin 2048) (k : Fin 2048) :
    row_reduces.lift (ix3 b h s) k = ix4 b h s k :=
  funext fun a => Fin.ext (by match a with | ⟨0, _⟩ => rfl | ⟨1, _⟩ => rfl | ⟨2, _⟩ => rfl | ⟨3, _⟩ => rfl)

/-- A maximum reduction from minus infinity over the last axis, at (b, h, s), is the fold of max over the row. -/
theorem rowmax_fold (y : FVec Ideal S4x12x2048x2048 .f32) (h' : S4x12x2048x2048.ReducesTo [3] S4x12x2048)
    (hu : 0 < S_.numel) (b : Fin 4) (h : Fin 12) (s : Fin 2048) :
    Host.reduce FloatOps.maximumf y (constant (F := Ideal) S_ .f32 0xFF800000#32) h' hu (ix3 b h s)
      = (Finset.univ : Finset (Fin 2048)).fold max ⊥ (fun k => y (ix4 b h s k)) := by
  rw [Host.reduce_eq_fold_single FloatOps.maximumf y _ h' row_reduces hu]
  have hf : (y ∘ row_reduces.lift (ix3 b h s)) = fun k : Fin 2048 => y (ix4 b h s k) :=
    funext fun k => congrArg y (row_lift b h s k)
  have hi : constant (F := Ideal) S_ .f32 0xFF800000#32 (Shape.Idx.first hu) = (⊥ : EReal) := neg_inf_word
  exact congrArg₂ (fun i f => Finset.fold max i f (Finset.univ : Finset (Fin 2048))) hi hf

/-- The row maximum at (b, h, s): the fold of max from minus infinity over the score row. -/
theorem rowmax_value (x : TX) (wq : TWq) (bq : TBq) (b : Fin 4) (h : Fin 12) (s : Fin 2048) :
    Read.val_main_v12 (F := Ideal) x wq bq (ix3 b h s) = rowMax (fun k => score scaleDiv x wq bq b h s k) := by
  unfold Read.val_main_v12
  refine (rowmax_fold (Read.val_main_v11 (F := Ideal) x wq bq) _ _ b h s).trans ?_
  unfold rowMax
  exact congrArg (fun f => Finset.fold max (⊥ : EReal) f (Finset.univ : Finset (Fin 2048)))
    (funext fun k => score_value x wq bq b h s k)

/-- The maximum of minus infinity and the row maximum is the row maximum. -/
theorem rowmax_clamped (x : TX) (wq : TWq) (bq : TBq) (b : Fin 4) (h : Fin 12) (s : Fin 2048) :
    Read.val_main_v14 (F := Ideal) x wq bq (ix3 b h s) = rowMax (fun k => score scaleDiv x wq bq b h s k) := by
  refine (Read.val_main_v14_apply (F := Ideal) x wq bq (ix3 b h s)).trans ?_
  show max (Read.val_main_v13 (F := Ideal) (ix3 b h s)) (Read.val_main_v12 (F := Ideal) x wq bq (ix3 b h s)) = _
  have h13 : Read.val_main_v13 (F := Ideal) (ix3 b h s) = (⊥ : EReal) :=
    (Read.val_main_v13_apply (F := Ideal) (ix3 b h s)).trans neg_inf_word
  rw [h13, rowmax_value x wq bq b h s]
  exact max_eq_right bot_le

/-- The row maximum broadcast along the row, at (b, h, s, k). -/
theorem rowmax_bcast (x : TX) (wq : TWq) (bq : TBq) (b : Fin 4) (h : Fin 12) (s k : Fin 2048) :
    Read.val_main_v16 (F := Ideal) x wq bq (ix4 b h s k) = rowMax (fun k => score scaleDiv x wq bq b h s k) := by
  refine (Read.val_main_v16_apply (F := Ideal) x wq bq (ix4 b h s k)).trans ?_
  refine (Read.val_main_v15_apply (F := Ideal) x wq bq _).trans ?_
  have e : Read.idx_main_v15 (Read.idx_main_v16 (ix4 b h s k)) = ix3 b h s :=
    funext fun a => Fin.ext (by match a with | ⟨0, _⟩ => rfl | ⟨1, _⟩ => rfl | ⟨2, _⟩ => rfl)
  exact (congrArg (Read.val_main_v14 (F := Ideal) x wq bq) e).trans (rowmax_clamped x wq bq b h s)

/-- The exponentials at (b, h, s, k): the specification's unnormalised weights. -/
theorem pexp_value (x : TX) (wq : TWq) (bq : TBq) (b : Fin 4) (h : Fin 12) (s k : Fin 2048) :
    Read.val_main_v18 (F := Ideal) x wq bq (ix4 b h s k) = pexp (fun k => score scaleDiv x wq bq b h s k) k := by
  refine (Read.val_main_v18_apply (F := Ideal) x wq bq (ix4 b h s k)).trans ?_
  show Ideal.exp (Read.val_main_v17 (F := Ideal) x wq bq (ix4 b h s k)) = _
  unfold pexp
  refine congrArg Ideal.exp ?_
  refine (Read.val_main_v17_apply (F := Ideal) x wq bq (ix4 b h s k)).trans ?_
  show Read.val_main_v11 (F := Ideal) x wq bq (ix4 b h s k) - Read.val_main_v16 (F := Ideal) x wq bq (ix4 b h s k) = _
  rw [score_value x wq bq b h s k, rowmax_bcast x wq bq b h s k]

/-- The row's sum of exponentials at (b, h, s): the specification's denominator. -/
theorem den_value (x : TX) (wq : TWq) (bq : TBq) (b : Fin 4) (h : Fin 12) (s : Fin 2048) :
    Read.val_main_v19 (F := Ideal) x wq bq (ix3 b h s) = den (fun k => score scaleDiv x wq bq b h s k) := by
  refine (Read.val_main_v19_apply x wq bq (ix3 b h s)).trans ?_
  have h0 : Read.val_main_cst_2 (F := Ideal) (Shape.Idx.first Gen.h_S_) = (0 : EReal) := Ideal.ofBits_zero_f32
  rw [h0, zero_add]
  unfold den
  refine Finset.sum_congr rfl fun k _ => ?_
  have e : Read.idx_main_v19 (ix3 b h s) k = ix4 b h s k :=
    funext fun a => Fin.ext (by match a with | ⟨0, _⟩ => rfl | ⟨1, _⟩ => rfl | ⟨2, _⟩ => rfl | ⟨3, _⟩ => rfl)
  exact (congrArg (Read.val_main_v18 (F := Ideal) x wq bq) e).trans (pexp_value x wq bq b h s k)

/-- The normalised weights at (b, h, s, k). -/
theorem weight_value (x : TX) (wq : TWq) (bq : TBq) (b : Fin 4) (h : Fin 12) (s k : Fin 2048) :
    Read.val_main_v22 (F := Ideal) x wq bq (ix4 b h s k)
      = Ideal.div (pexp (fun k => score scaleDiv x wq bq b h s k) k) (den (fun k => score scaleDiv x wq bq b h s k)) := by
  refine (Read.val_main_v22_apply (F := Ideal) x wq bq (ix4 b h s k)).trans ?_
  show Ideal.div (Read.val_main_v18 (F := Ideal) x wq bq (ix4 b h s k)) (Read.val_main_v21 (F := Ideal) x wq bq (ix4 b h s k)) = _
  refine congrArg₂ Ideal.div (pexp_value x wq bq b h s k) ?_
  refine (Read.val_main_v21_apply (F := Ideal) x wq bq (ix4 b h s k)).trans ?_
  refine (Read.val_main_v20_apply (F := Ideal) x wq bq _).trans ?_
  have e : Read.idx_main_v20 (Read.idx_main_v21 (ix4 b h s k)) = ix3 b h s :=
    funext fun a => Fin.ext (by match a with | ⟨0, _⟩ => rfl | ⟨1, _⟩ => rfl | ⟨2, _⟩ => rfl)
  exact (congrArg (Read.val_main_v19 (F := Ideal) x wq bq) e).trans (den_value x wq bq b h s)

/-! ## The heads, merged, and the result -/

/-- The weighted values at (b, h, s, dd): the specification's head. -/
theorem head_value (x : TX) (wq : TWq) (bq : TBq) (b : Fin 4) (h : Fin 12) (s : Fin 2048) (dd : Fin 64) :
    Read.val_main_v23 (F := Ideal) x wq bq (ix4 b h s dd) = head scaleDiv attnPre x wq bq b h s dd := by
  refine (Read.val_main_v23_apply x wq bq (ix4 b h s dd)).trans ?_
  unfold head attnPre
  refine Finset.sum_congr rfl fun k _ => ?_
  have el : Read.lidx_main_v23 (ix4 b h s dd) k = ix4 b h s k :=
    funext fun a => Fin.ext (by match a with | ⟨0, _⟩ => rfl | ⟨1, _⟩ => rfl | ⟨2, _⟩ => rfl | ⟨3, _⟩ => rfl)
  have er : Read.ridx_main_v23 (ix4 b h s dd) k = ix4 b h k dd :=
    funext fun a => Fin.ext (by match a with | ⟨0, _⟩ => rfl | ⟨1, _⟩ => rfl | ⟨2, _⟩ => rfl | ⟨3, _⟩ => rfl)
  refine congrArg₂ (· * ·) ?_ ?_
  · exact (congrArg (Read.val_main_v22 (F := Ideal) x wq bq) el).trans (weight_value x wq bq b h s k)
  · exact (congrArg (Read.val_main_v8 (F := Ideal) x wq bq) er).trans (v_value x wq bq b h k dd)

/-- The row-major arithmetic of the merge [4, 2048, 12, 64] -> [4, 2048, 768] behind the transpose back:
    feature j of position (b, s) is lane j % 64 of head j / 64. -/
theorem merge_index (b : Fin 4) (s : Fin 2048) (j : Fin 768) :
    Read.idx_main_v24 (Read.idx_main_v25 (ix3 b s j)) = ix4 b (headOf j) s (laneOf j) := by
  have hb := b.isLt; have hs := s.isLt; have hj := j.isLt
  refine funext fun a => Fin.ext ?_
  match a with
  | ⟨0, _⟩ => show ((b.val * 2048 + s.val) * 768 + j.val) / 1572864 = b.val; omega
  | ⟨1, _⟩ => show ((b.val * 2048 + s.val) * 768 + j.val) / 64 % 12 = j.val / 64; omega
  | ⟨2, _⟩ => show ((b.val * 2048 + s.val) * 768 + j.val) / 768 % 2048 = s.val; omega
  | ⟨3, _⟩ => show ((b.val * 2048 + s.val) * 768 + j.val) % 64 = j.val % 64; omega

/-- The merged heads at (b, s, j). -/
theorem merged_value (x : TX) (wq : TWq) (bq : TBq) (b : Fin 4) (s : Fin 2048) (j : Fin 768) :
    Read.val_main_v25 (F := Ideal) x wq bq (ix3 b s j) = head scaleDiv attnPre x wq bq b (headOf j) s (laneOf j) := by
  refine (Read.val_main_v25_apply (F := Ideal) x wq bq (ix3 b s j)).trans ?_
  refine (Read.val_main_v24_apply (F := Ideal) x wq bq _).trans ?_
  exact (congrArg (Read.val_main_v23 (F := Ideal) x wq bq) (merge_index b s j)).trans
    (head_value x wq bq b (headOf j) s (laneOf j))

/-- The reference's last stage at (b, s, e). -/
theorem ref_value (x : TX) (wq : TWq) (bq : TBq) (wo : TWo) (bo : TBo) (b : Fin 4) (s : Fin 2048) (e : Fin 768) :
    Cert.ReferenceIdeal.Read.val_main_v29 (F := Ideal) x wq bq wo bo (ix3 b s e) = outPre x wq bq wo bo b s e := by
  refine (Read.val_main_v29_apply (F := Ideal) x wq bq wo bo (ix3 b s e)).trans ?_
  show Read.val_main_v26 (F := Ideal) x wq bq wo (ix3 b s e) + Read.val_main_v28 (F := Ideal) bo (ix3 b s e) = _
  unfold outPre out
  refine congrArg₂ (· + ·) ?_ ?_
  · refine (Read.val_main_v26_apply x wq bq wo (ix3 b s e)).trans ?_
    refine Finset.sum_congr rfl fun j _ => ?_
    have el : Read.lidx_main_v26 (ix3 b s e) j = ix3 b s j :=
      funext fun a => Fin.ext (by match a with | ⟨0, _⟩ => rfl | ⟨1, _⟩ => rfl | ⟨2, _⟩ => rfl)
    have er : Read.ridx_main_v26 (ix3 b s e) j = ix2 e j :=
      funext fun a => Fin.ext (by match a with | ⟨0, _⟩ => rfl | ⟨1, _⟩ => rfl)
    refine congrArg₂ (· * ·) ?_ (congrArg wo er)
    exact (congrArg (Read.val_main_v25 (F := Ideal) x wq bq) el).trans (merged_value x wq bq b s j)
  · refine (Read.val_main_v28_apply (F := Ideal) bo (ix3 b s e)).trans ?_
    refine (Read.val_main_v27_apply (F := Ideal) bo _).trans ?_
    exact congrArg bo (funext fun a => Fin.ext (by match a with | ⟨0, _⟩ => rfl))

end Cert.ReferenceIdeal.RefSpec

end
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.SpecLaws.lean ====
/-
  Why the two instances of the specification agree on finite inputs.

  Every quantity of the computation is a real number when the five inputs are: sums and products of reals, a
  maximum over a nonempty row of reals, exponentials of reals. A row's denominator is then a sum of positive
  reals, so dividing each weight by it before the weighted sum, or multiplying the weighted sum by its
  reciprocal afterwards, is the same real number; and multiplying a score by the dyadic 1/8 is dividing it by 8.
-/
import proofs.«418711_j76373108458020_3_alg».proof.Proof.Spec
import proofs.«418711_j76373108458020_3_alg».proof.Proof.LibRealClosure

noncomputable section

namespace Cert.Spec

open Idealize.ShloMosaic Idealize.ShloMosaic.ValueIdx RealClosure

/-! ## The two scale words -/

/-- The word 0x3E000000 is the real 1/8. -/
theorem ofBits_eighth_f32 : Ideal.ofBits .f32 0x3E000000#32 = ((1 / 8 : ℝ) : EReal) := by
  simp [Ideal.ofBits, Ideal.ieee, -EReal.coe_mul, -EReal.coe_one]; norm_num

/-- The word 0x41000000 is the real 8. -/
theorem ofBits_eight_f32 : Ideal.ofBits .f32 0x41000000#32 = ((8 : ℝ) : EReal) := by
  simp [Ideal.ofBits, Ideal.ieee, -EReal.coe_mul, -EReal.coe_one]; norm_num

/-- On the extended reals, a score times the word 0.125 is the score divided by the word 8.0. -/
theorem scaleMul_eq_scaleDiv (y : EReal) : scaleMul y = scaleDiv y := by
  unfold scaleMul scaleDiv
  rw [ofBits_eighth_f32, ofBits_eight_f32, Ideal.div_coe (by norm_num : (8 : ℝ) ≠ 0)]

/-- A real divided by 8 is real. -/
theorem isReal_scaleDiv {y : EReal} (hy : IsReal y) : IsReal (scaleDiv y) := by
  unfold scaleDiv
  rw [ofBits_eight_f32]
  exact isReal_div hy (isReal_coe 8) (EReal.coe_ne_zero.2 (by norm_num))

/-! ## A real row: its maximum, its weights -/

/-- The maximum from minus infinity of a row of 2048 reals is real: it exceeds minus infinity because the first
    entry does, and it is below plus infinity because every entry is. -/
theorem isReal_rowMax (L : Fin 2048 → EReal) (hL : ∀ k, IsReal (L k)) : IsReal (rowMax L) := by
  unfold rowMax
  refine isReal_of_ne ?_ ?_
  · exact ((Finset.lt_fold_max _).2 (Or.inr ⟨0, Finset.mem_univ _, bot_lt_iff_ne_bot.2 (hL 0).ne_bot⟩)).ne'
  · exact ((Finset.fold_max_lt _).2 ⟨bot_lt_top, fun i _ => lt_top_iff_ne_top.2 (hL i).ne_top⟩).ne

/-- Each unnormalised weight of a real row is real. -/
theorem isReal_pexp (L : Fin 2048 → EReal) (hL : ∀ k, IsReal (L k)) (k : Fin 2048) : IsReal (pexp L k) :=
  isReal_exp ((hL k).sub (isReal_rowMax L hL))

/-- Each unnormalised weight of a real row is positive. -/
theorem pexp_pos (L : Fin 2048 → EReal) (hL : ∀ k, IsReal (L k)) (k : Fin 2048) : 0 < pexp L k :=
  exp_pos ((hL k).sub (isReal_rowMax L hL))

/-! ## Normalising after or before the weighted sum -/

/-- For positive real weights P and real values V:  (∑ P V) · (1 / ∑ P) = ∑ (P / ∑ P) V.  Both sides are computed
    in the reals, where the denominator ∑ P is positive, and there the identity is distributivity. -/
theorem sum_mul_div_eq (P V : Fin 2048 → EReal) (hP : ∀ k, IsReal (P k)) (hpos : ∀ k, 0 < P k)
    (hV : ∀ k, IsReal (V k)) :
    (∑ k : Fin 2048, P k * V k) * Ideal.div ((1 : ℝ) : EReal) (∑ k : Fin 2048, P k)
      = ∑ k : Fin 2048, Ideal.div (P k) (∑ k : Fin 2048, P k) * V k := by
  obtain ⟨p, rfl⟩ := exists_real_fun hP
  obtain ⟨w, rfl⟩ := exists_real_fun hV
  have hD : (∑ k : Fin 2048, p k) ≠ 0 :=
    (Finset.sum_pos (fun k _ => EReal.coe_pos.1 (hpos k)) ⟨0, Finset.mem_univ _⟩).ne'
  -- the denominator, the weighted sum and the sum of normalised terms are each the coercion of a real sum
  have e1 : (∑ k : Fin 2048, ((p k : ℝ) : EReal)) = ((∑ k : Fin 2048, p k : ℝ) : EReal) :=
    (coe_finset_sum _ _).symm
  have e2 : (∑ k : Fin 2048, ((p k : ℝ) : EReal) * ((w k : ℝ) : EReal))
      = ((∑ k : Fin 2048, p k * w k : ℝ) : EReal) := by
    rw [coe_finset_sum]; exact Finset.sum_congr rfl fun k _ => (EReal.coe_mul _ _).symm
  have e3 : (∑ k : Fin 2048, Ideal.div ((p k : ℝ) : EReal) ((∑ k : Fin 2048, p k : ℝ) : EReal) * ((w k : ℝ) : EReal))
      = ((∑ k : Fin 2048, p k / (∑ k : Fin 2048, p k) * w k : ℝ) : EReal) := by
    refine Eq.trans (Finset.sum_congr rfl fun k _ => ?_)
      (coe_finset_sum Finset.univ (fun k => p k / (∑ k : Fin 2048, p k) * w k)).symm
    rw [div_coe_coe _ hD, ← EReal.coe_mul]
  beta_reduce
  rw [e1, e2, e3, div_coe_coe _ hD, ← EReal.coe_mul, Finset.sum_mul]
  -- in the reals: (p k · w k) · (1 / D) = (p k / D) · w k, term by term
  exact congrArg _ (Finset.sum_congr rfl fun k _ => by ring)

/-- For a real row L and real values v, normalising after the weighted sum or before it is the same. -/
theorem attn_post_eq_pre (L v : Fin 2048 → EReal) (hL : ∀ k, IsReal (L k)) (hv : ∀ k, IsReal (v k)) :
    attnPost (Ideal.ofBits .f32 0x3F800000#32) L v = attnPre L v := by
  unfold attnPost attnPre den
  rw [ofBits_one_f32]
  exact sum_mul_div_eq (pexp L) v (isReal_pexp L hL) (pexp_pos L hL) hv

/-! ## The projection, the scores, a head -/

/-- The projection of real inputs is real. -/
theorem isReal_qkv (x : TX) (wq : TWq) (bq : TBq) (hx : ∀ i, IsReal (x i)) (hwq : ∀ i, IsReal (wq i)) (hbq : ∀ i, IsReal (bq i))
    (b : Fin 4) (s : Fin 2048) (e : Fin 2304) : IsReal (qkv x wq bq b s e) := by
  unfold qkv
  exact (isReal_sum_univ _ fun d => (hx _).mul (hwq _)).add (hbq _)

/-- A score of real inputs, divided by 8, is real: a sum of 64 products of projections. -/
theorem isReal_score_scaleDiv (x : TX) (wq : TWq) (bq : TBq) (hx : ∀ i, IsReal (x i)) (hwq : ∀ i, IsReal (wq i))
    (hbq : ∀ i, IsReal (bq i)) (b : Fin 4) (h : Fin 12) (s k : Fin 2048) :
    IsReal (score scaleDiv x wq bq b h s k) := by
  unfold score
  exact isReal_scaleDiv (isReal_sum_univ _ fun dd =>
    (isReal_qkv x wq bq hx hwq hbq b s _).mul (isReal_qkv x wq bq hx hwq hbq b k _))

/-- The two scalings give the same score. -/
theorem score_scaleMul_eq (x : TX) (wq : TWq) (bq : TBq) (b : Fin 4) (h : Fin 12) (s k : Fin 2048) :
    score scaleMul x wq bq b h s k = score scaleDiv x wq bq b h s k := by
  unfold score
  exact scaleMul_eq_scaleDiv _

/-- On finite inputs a head's output is the same in the two instances: the score rows agree entry by entry, the
    score row and the value column are real, so the two normalisations agree. -/
theorem head_post_eq_pre (x : TX) (wq : TWq) (bq : TBq) (hx : ∀ i, IsReal (x i)) (hwq : ∀ i, IsReal (wq i))
    (hbq : ∀ i, IsReal (bq i)) (b : Fin 4) (h : Fin 12) (s : Fin 2048) (dd : Fin 64) :
    head scaleMul (attnPost (Ideal.ofBits .f32 0x3F800000#32)) x wq bq b h s dd
      = head scaleDiv attnPre x wq bq b h s dd := by
  unfold head
  have hs : (fun k => score scaleMul x wq bq b h s k) = fun k => score scaleDiv x wq bq b h s k :=
    funext fun k => score_scaleMul_eq x wq bq b h s k
  rw [hs]
  exact attn_post_eq_pre _ _ (fun k => isReal_score_scaleDiv x wq bq hx hwq hbq b h s k)
    (fun k => isReal_qkv x wq bq hx hwq hbq b k _)

/-- On finite inputs the two instances of the specification are one function. -/
theorem outPost_eq_outPre (x : TX) (wq : TWq) (bq : TBq) (wo : TWo) (bo : TBo)
    (hx : ∀ i, IsReal (x i)) (hwq : ∀ i, IsReal (wq i)) (hbq : ∀ i, IsReal (bq i))
    (b : Fin 4) (s : Fin 2048) (e : Fin 768) :
    outPost x wq bq wo bo b s e = outPre x wq bq wo bo b s e := by
  unfold outPost outPre out
  congr 1
  exact Finset.sum_congr rfl fun j _ => by rw [head_post_eq_pre x wq bq hx hwq hbq]

end Cert.Spec

end
-- ==== Proof.PreReal.lean ====
/-
  What the precondition says: each of the five inputs is finite at every index, that is, a real number.

  The printed predicate is the conjunction of five reductions by "and" of the comparisons |a| < +inf; a reduction
  over every axis that comes out 1 met a 1 at every index, and |a| < +inf leaves neither infinity.
-/
import proofs.«418711_j76373108458020_3_alg».proof.Pre_finite_inputs
import proofs.«418711_j76373108458020_3_alg».proof.Proof.LibRealClosure
import Idealize.ShloMosaic.Lib.ReduceAll

noncomputable section

namespace Cert.PreReal

open Idealize.ShloMosaic Idealize.ShloMosaic.ValueIdx RealClosure Cert.Pre_finite_inputs

/-- The rank-0 shape has one index. -/
instance : Subsingleton S_.Idx := ⟨fun a b => funext fun d => d.elim0⟩

/-- An extended real whose absolute value is below the word +inf is a real number. -/
theorem isReal_of_abs_lt_inf {x : EReal} (h : Ideal.cmp .olt (max x (-x)) (Ideal.ofBits .f32 0x7F800000#32) = 1#1) : IsReal x := by
  rw [ofBits_pos_inf_f32] at h
  have hlt : max x (-x) < ⊤ := by
    have h' : BitVec.ofBool (decide (max x (-x) < ⊤)) = 1#1 := h
    by_contra hn
    simp [hn] at h'
  refine isReal_of_ne ?_ ?_
  · rintro rfl
    simp at hlt
  · rintro rfl
    simp at hlt

/-- Under the precondition every entry of every input is real. -/
theorem finite_args [Cert.Pre_finite_inputs.Facts] (a0 : FVec Ideal S4x2048x768 .f32) (a1 : FVec Ideal S2304x768 .f32) (a2 : FVec Ideal S2304 .f32)
    (a3 : FVec Ideal S768x768 .f32) (a4 : FVec Ideal S768 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1] at h0
  obtain ⟨h1, e4⟩ := IntOp.andi_eq_one.mp (show IntOp.andi _ _ = 1#1 from h0)
  obtain ⟨h2, e3⟩ := IntOp.andi_eq_one.mp (show IntOp.andi _ _ = 1#1 from h1)
  obtain ⟨h3, e2⟩ := IntOp.andi_eq_one.mp (show IntOp.andi _ _ = 1#1 from h2)
  obtain ⟨e0, e1⟩ := IntOp.andi_eq_one.mp (show IntOp.andi _ _ = 1#1 from h3)
  exact ⟨fun i => isReal_of_abs_lt_inf (Host.reduce_andi_all _ _ _ _ ix0 e0 i),
    fun i => isReal_of_abs_lt_inf (Host.reduce_andi_all _ _ _ _ ix0 e1 i),
    fun i => isReal_of_abs_lt_inf (Host.reduce_andi_all _ _ _ _ ix0 e2 i),
    fun i => isReal_of_abs_lt_inf (Host.reduce_andi_all _ _ _ _ ix0 e3 i),
    fun i => isReal_of_abs_lt_inf (Host.reduce_andi_all _ _ _ _ ix0 e4 i)⟩

end Cert.PreReal

end
-- ==== Proof.lean ====
/-
  Multi-head self-attention (batch 4, sequence 2048, width 768, twelve heads of 64), a two-launch kernel against
  its plain reference, over the extended reals.

  The kernel projects the flattened activations to queries, keys and values in one launch (sixteen row tiles of
  512), re-lays the result per head on the host, and in a second launch walks batch x query tile x head pair:
  each point computes two heads' attention - scores times 1/8, exponentials of the scores minus their row
  maximum, the weighted values, then ONE multiplication by the reciprocal of the exponentials' sum - and parks
  the two 64-wide outputs in a scratch; the sixth point of a group multiplies the full 768-wide scratch by the
  transposed output weight and adds the bias. The reference divides the scores by 8, normalises the weights
  first, and contracts with the untransposed weights.

  Frames: every weakly fair execution of either kernel program ends, nothing faulting, the five arguments
  unchanged - from the two launches' body obligations, the second launch's invariant carrying the scratch as
  the list of slabs stored so far in the current group. The reference's frame is its run read back.
  The ideal pass rewrote nothing, so there is nothing to preserve.
  Values: the kernel's result array is the specification's normalise-afterwards instance and the reference's
  its normalise-first instance, index by index; on finite inputs every score, weight and denominator is a real
  number and the denominator is positive, so the two instances are one function.
-/
import proofs.«418711_j76373108458020_3_alg».proof.Defs
import proofs.«418711_j76373108458020_3_alg».proof.Proof.Gen.Kernel
import proofs.«418711_j76373108458020_3_alg».proof.Proof.Gen.KernelIdeal
import proofs.«418711_j76373108458020_3_alg».proof.Proof.Gen.ReferenceIdeal
import proofs.«418711_j76373108458020_3_alg».proof.Proof.Gen.Pre_finite_inputs
import proofs.«418711_j76373108458020_3_alg».proof.Proof.BFrFrame
import proofs.«418711_j76373108458020_3_alg».proof.Proof.FrFrame
import proofs.«418711_j76373108458020_3_alg».proof.Proof.KernelValue
import proofs.«418711_j76373108458020_3_alg».proof.Proof.RefSpec
import proofs.«418711_j76373108458020_3_alg».proof.Proof.SpecLaws
import proofs.«418711_j76373108458020_3_alg».proof.Proof.PreReal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs to the end and keeps its arguments. -/
theorem frame_kernel [hPre : Cert.Pre_finite_inputs.Facts] : Cert.frame_Kernel (hKernel := Cert.Kernel.Gen.facts) :=
  fun m ρ _ => Cert.Kernel.Fr.frame m ρ

/-- So does the idealized kernel program. -/
theorem frame_kernelIdeal [hPre : Cert.Pre_finite_inputs.Facts] : Cert.frame_KernelIdeal (hKernelIdeal := Cert.KernelIdeal.Gen.facts) :=
  fun m ρ _ => Cert.KernelIdeal.Fr.frame m ρ

/-- The reference's frame is its run with the result dropped. -/
theorem frame_reference [hPre : Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- From memories agreeing on the arguments both idealized programs end with the same result array: the kernel's
    is the normalise-afterwards instance of the specification, the reference's the normalise-first one, and on
    the finite inputs the precondition gives these are one function. -/
theorem algebraic [hPre : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  refine ⟨fun c => (Cert.KernelIdeal.Fr.attnDat (Cert.KernelIdeal.Fr.V3 m ρ) c).arrAt 5 Cert.KernelIdeal.cfg1.N,
    Cert.KernelIdeal.Fr.run_result m ρ, ?_⟩
  refine (θ_run Cert.ReferenceIdeal.defs _ _).mono (fun _ h c => ⟨(h c).1.trans ?_, (h c).2⟩)
    (Cert.ReferenceIdeal.Value.run (F := Ideal) m' ρ')
  obtain ⟨hx, hwq, hbq, -, -⟩ := Cert.PreReal.finite_args _ _ _ _ _ (hpre c)
  rw [Cert.ReferenceIdeal.Read.val_main_v29_eq, (hagree c).1, (hagree c).2.1, (hagree c).2.2.1, (hagree c).2.2.2.1, (hagree c).2.2.2.2]
  funext i
  obtain ⟨b, s, e, rfl⟩ : ∃ (b : Fin 4) (s : Fin 2048) (e : Fin 768), i = ix3 b s e := ⟨i 0, i 1, i 2, eq_ix3 i⟩
  refine (Cert.ReferenceIdeal.RefSpec.ref_value _ _ _ _ _ b s e).trans ?_
  refine (Cert.Spec.outPost_eq_outPre _ _ _ _ _ hx hwq hbq b s e).symm.trans ?_
  exact (Cert.KernelIdeal.Val.kernel_result m ρ c b s e).symm

theorem claim : Cert.Claim :=
  ⟨Cert.Kernel.Gen.facts, Cert.KernelIdeal.Gen.facts, Cert.ReferenceIdeal.Gen.facts, Cert.Pre_finite_inputs.Gen.facts,
    frame_kernel (hPre := Cert.Pre_finite_inputs.Gen.facts),
    frame_kernelIdeal (hPre := Cert.Pre_finite_inputs.Gen.facts),
    frame_reference (hPre := Cert.Pre_finite_inputs.Gen.facts),
    trivial,
    algebraic (hPre := Cert.Pre_finite_inputs.Gen.facts)⟩

end Cert.Proof

end
